-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![2, 128, 128, 64]⟩ ⟨4, ![2, 1024, 128, 64]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨4, ![2, 128, 128, 128]⟩ ⟨4, ![2, 1024, 128, 128]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x128x128x64 : Shape := ⟨4, ![2, 128, 128, 64]⟩
abbrev S64x128 : Shape := ⟨2, ![64, 128]⟩
abbrev S_ : Shape := ⟨0, ![]⟩

class Facts : Prop where
  bcast_S_S2x128x128x64 : S_.BroadcastsInDim S2x128x128x64 (![] : Fin 0 → Fin S2x128x128x64.rank)
  reducesTo_S2x128x128x64_S_d0_1_2_3 : S2x128x128x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2x128x128x64 .f32) (main_arg1 : FVec F S64x128 .f32) : IVec S_ 1 :=
  let main_v0 : FVec F S2x128x128x64 .f32 := Host.absf main_arg0
  let main_cst : FVec F S_ .f32 := constant S_ .f32 0x7F800000#32
  let main_v1 : FVec F S2x128x128x64 .f32 := broadcastInDim S2x128x128x64 ![] bcast_S_S2x128x128x64 main_cst
  let main_v2 : IVec S2x128x128x64 1 := cmpf .olt main_v0 main_v1
  let main_c : IVec S_ 1 := constantI S_ 1 1#1
  let main_v3 : IVec S_ 1 := (fun x v => Host.reduce IntOp.andi x v reducesTo_S2x128x128x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Pre_finite_inputs_ReferenceIdeal.lean ====
abbrev S2x1024x128x64 : Shape := ⟨4, ![2, 1024, 128, 64]⟩
abbrev S64x128 : Shape := ⟨2, ![64, 128]⟩
abbrev S_ : Shape := ⟨0, ![]⟩

class Facts : Prop where
  bcast_S_S2x1024x128x64 : S_.BroadcastsInDim S2x1024x128x64 (![] : Fin 0 → Fin S2x1024x128x64.rank)
  reducesTo_S2x1024x128x64_S_d0_1_2_3 : S2x1024x128x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2x1024x128x64 .f32) (main_arg1 : FVec F S64x128 .f32) : IVec S_ 1 :=
  let main_v0 : FVec F S2x1024x128x64 .f32 := Host.absf main_arg0
  let main_cst : FVec F S_ .f32 := constant S_ .f32 0x7F800000#32
  let main_v1 : FVec F S2x1024x128x64 .f32 := broadcastInDim S2x1024x128x64 ![] bcast_S_S2x1024x128x64 main_cst
  let main_v2 : IVec S2x1024x128x64 1 := cmpf .olt main_v0 main_v1
  let main_c : IVec S_ 1 := constantI S_ 1 1#1
  let main_v3 : IVec S_ 1 := (fun x v => Host.reduce IntOp.andi x v reducesTo_S2x1024x128x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S2x128x128x64 : Shape := ⟨4, ![2, 128, 128, 64]⟩
abbrev S64x128 : Shape := ⟨2, ![64, 128]⟩
abbrev S2x128x128x128 : Shape := ⟨4, ![2, 128, 128, 128]⟩
abbrev S8x4x64 : Shape := ⟨3, ![8, 4, 64]⟩
abbrev S8 : Shape := ⟨1, ![8]⟩
abbrev S_ : Shape := ⟨0, ![]⟩
abbrev S2x64 : Shape := ⟨2, ![2, 64]⟩
abbrev S4x64 : Shape := ⟨2, ![4, 64]⟩
abbrev S1x4x64 : Shape := ⟨3, ![1, 4, 64]⟩
abbrev S1 : Shape := ⟨1, ![1]⟩
abbrev S2x1x1x64 : Shape := ⟨4, ![2, 1, 1, 64]⟩
abbrev S32768x64 : Shape := ⟨2, ![32768, 64]⟩
abbrev S32768x128 : Shape := ⟨2, ![32768, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x128x128x64, .f32⟩
  | .hbm, ⟨1, _⟩ => ⟨S64x128, .f32⟩
  | .hbm, ⟨2, _⟩ => ⟨S2x128x128x128, .bf16⟩
  | .local _ .vmem, ⟨0, _⟩ => ⟨S2x128x128x64, .f32⟩
  | .local _ .vmem, ⟨1, _⟩ => ⟨S64x128, .f32⟩
  | .local _ .vmem, ⟨2, _⟩ => ⟨S2x128x128x128, .bf16⟩
  | .local _ .vmem, ⟨3, _⟩ => ⟨S8x4x64, .f32⟩
  | _, _ => ⟨S2x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_71 : BitVec 32 := 1#32
  let v104 : BitVec 32 := Scalar.addi v2 c1_i32_71
  let c8_i32_72 : BitVec 32 := 8#32
  let c0_i32_73 : BitVec 32 := 0#32
  let v105 : BitVec 1 := Scalar.cmpi .eq c8_i32_72 c0_i32_73
  let c1_i32_74 : BitVec 32 := 1#32
  let v106 : BitVec 32 := Scalar.select v105 c1_i32_74 c8_i32_72
  let v107 : BitVec 32 := Scalar.remsi v104 v106
  let c0_i32_76 : BitVec 32 := 0#32
  let v109 : BitVec 1 := Scalar.cmpi .slt v107 c0_i32_76
  let c0_i32_77 : BitVec 32 := 0#32
  let v110 : BitVec 1 := Scalar.cmpi .slt v106 c0_i32_77
  let v111 : BitVec 1 := Scalar.xori v109 v110
  let c0_i32_75 : BitVec 32 := 0#32
  let v108 : BitVec 1 := Scalar.cmpi .ne v107 c0_i32_75
  let v112 : BitVec 1 := Scalar.andi v111 v108
  let v113 : BitVec 32 := Scalar.addi v107 v106
  let v114 : BitVec 32 := Scalar.select v112 v113 v107
  let c1_i32_82 : BitVec 32 := 1#32
  let v115 : BitVec 32 := Scalar.muli v114 c1_i32_82
  let v116 : BitVec 32 := Scalar.addi c0_i32_83 v115
  v116.toNat
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v125 : BitVec 32 := Scalar.addi v2 c2_i32_88
  let c8_i32_89 : BitVec 32 := 8#32
  let c0_i32_90 : BitVec 32 := 0#32
  let v126 : BitVec 1 := Scalar.cmpi .eq c8_i32_89 c0_i32_90
  let c1_i32_91 : BitVec 32 := 1#32
  let v127 : BitVec 32 := Scalar.select v126 c1_i32_91 c8_i32_89
  let v128 : BitVec 32 := Scalar.remsi v125 v127
  let c0_i32_93 : BitVec 32 := 0#32
  let v130 : BitVec 1 := Scalar.cmpi .slt v128 c0_i32_93
  let c0_i32_94 : BitVec 32 := 0#32
  let v131 : BitVec 1 := Scalar.cmpi .slt v127 c0_i32_94
  let v132 : BitVec 1 := Scalar.xori v130 v131
  let c0_i32_92 : BitVec 32 := 0#32
  let v129 : BitVec 1 := Scalar.cmpi .ne v128 c0_i32_92
  let v133 : BitVec 1 := Scalar.andi v132 v129
  let v134 : BitVec 32 := Scalar.addi v128 v127
  let v135 : BitVec 32 := Scalar.select v133 v134 v128
  let c1_i32_99 : BitVec 32 := 1#32
  let v136 : BitVec 32 := Scalar.muli v135 c1_i32_99
  let v137 : BitVec 32 := Scalar.addi c0_i32_100 v136
  v137.toNat
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_105 : BitVec 32 := 3#32
  let v146 : BitVec 32 := Scalar.addi v2 c3_i32_105
  let c8_i32_106 : BitVec 32 := 8#32
  let c0_i32_107 : BitVec 32 := 0#32
  let v147 : BitVec 1 := Scalar.cmpi .eq c8_i32_106 c0_i32_107
  let c1_i32_108 : BitVec 32 := 1#32
  let v148 : BitVec 32 := Scalar.select v147 c1_i32_108 c8_i32_106
  let v149 : BitVec 32 := Scalar.remsi v146 v148
  let c0_i32_110 : BitVec 32 := 0#32
  let v151 : BitVec 1 := Scalar.cmpi .slt v149 c0_i32_110
  let c0_i32_111 : BitVec 32 := 0#32
  let v152 : BitVec 1 := Scalar.cmpi .slt v148 c0_i32_111
  let v153 : BitVec 1 := Scalar.xori v151 v152
  let c0_i32_109 : BitVec 32 := 0#32
  let v150 : BitVec 1 := Scalar.cmpi .ne v149 c0_i32_109
  let v154 : BitVec 1 := Scalar.andi v153 v150
  let v155 : BitVec 32 := Scalar.addi v149 v148
  let v156 : BitVec 32 := Scalar.select v154 v155 v149
  let c1_i32_116 : BitVec 32 := 1#32
  let v157 : BitVec 32 := Scalar.muli v156 c1_i32_116
  let v158 : BitVec 32 := Scalar.addi c0_i32_117 v157
  v158.toNat
def k0_dev11 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_122 : BitVec 32 := 4#32
  let v167 : BitVec 32 := Scalar.addi v2 c4_i32_122
  let c8_i32_123 : BitVec 32 := 8#32
  let c0_i32_124 : BitVec 32 := 0#32
  let v168 : BitVec 1 := Scalar.cmpi .eq c8_i32_123 c0_i32_124
  let c1_i32_125 : BitVec 32 := 1#32
  let v169 : BitVec 32 := Scalar.select v168 c1_i32_125 c8_i32_123
  let v170 : BitVec 32 := Scalar.remsi v167 v169
  let c0_i32_127 : BitVec 32 := 0#32
  let v172 : BitVec 1 := Scalar.cmpi .slt v170 c0_i32_127
  let c0_i32_128 : BitVec 32 := 0#32
  let v173 : BitVec 1 := Scalar.cmpi .slt v169 c0_i32_128
  let v174 : BitVec 1 := Scalar.xori v172 v173
  let c0_i32_126 : BitVec 32 := 0#32
  let v171 : BitVec 1 := Scalar.cmpi .ne v170 c0_i32_126
  let v175 : BitVec 1 := Scalar.andi v174 v171
  let v176 : BitVec 32 := Scalar.addi v170 v169
  let v177 : BitVec 32 := Scalar.select v175 v176 v170
  let c1_i32_133 : BitVec 32 := 1#32
  let v178 : BitVec 32 := Scalar.muli v177 c1_i32_133
  let v179 : BitVec 32 := Scalar.addi c0_i32_134 v178
  v179.toNat
def k0_dev12 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_139 : BitVec 32 := 5#32
  let v188 : BitVec 32 := Scalar.addi v2 c5_i32_139
  let c8_i32_140 : BitVec 32 := 8#32
  let c0_i32_141 : BitVec 32 := 0#32
  let v189 : BitVec 1 := Scalar.cmpi .eq c8_i32_140 c0_i32_141
  let c1_i32_142 : BitVec 32 := 1#32
  let v190 : BitVec 32 := Scalar.select v189 c1_i32_142 c8_i32_140
  let v191 : BitVec 32 := Scalar.remsi v188 v190
  let c0_i32_144 : BitVec 32 := 0#32
  let v193 : BitVec 1 := Scalar.cmpi .slt v191 c0_i32_144
  let c0_i32_145 : BitVec 32 := 0#32
  let v194 : BitVec 1 := Scalar.cmpi .slt v190 c0_i32_145
  let v195 : BitVec 1 := Scalar.xori v193 v194
  let c0_i32_143 : BitVec 32 := 0#32
  let v192 : BitVec 1 := Scalar.cmpi .ne v191 c0_i32_143
  let v196 : BitVec 1 := Scalar.andi v195 v192
  let v197 : BitVec 32 := Scalar.addi v191 v190
  let v198 : BitVec 32 := Scalar.select v196 v197 v191
  let c1_i32_150 : BitVec 32 := 1#32
  let v199 : BitVec 32 := Scalar.muli v198 c1_i32_150
  let v200 : BitVec 32 := Scalar.addi c0_i32_151 v199
  v200.toNat
def k0_dev13 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_156 : BitVec 32 := 6#32
  let v209 : BitVec 32 := Scalar.addi v2 c6_i32_156
  let c8_i32_157 : BitVec 32 := 8#32
  let c0_i32_158 : BitVec 32 := 0#32
  let v210 : BitVec 1 := Scalar.cmpi .eq c8_i32_157 c0_i32_158
  let c1_i32_159 : BitVec 32 := 1#32
  let v211 : BitVec 32 := Scalar.select v210 c1_i32_159 c8_i32_157
  let v212 : BitVec 32 := Scalar.remsi v209 v211
  let c0_i32_161 : BitVec 32 := 0#32
  let v214 : BitVec 1 := Scalar.cmpi .slt v212 c0_i32_161
  let c0_i32_162 : BitVec 32 := 0#32
  let v215 : BitVec 1 := Scalar.cmpi .slt v211 c0_i32_162
  let v216 : BitVec 1 := Scalar.xori v214 v215
  let c0_i32_160 : BitVec 32 := 0#32
  let v213 : BitVec 1 := Scalar.cmpi .ne v212 c0_i32_160
  let v217 : BitVec 1 := Scalar.andi v216 v213
  let v218 : BitVec 32 := Scalar.addi v212 v211
  let v219 : BitVec 32 := Scalar.select v217 v218 v212
  let c1_i32_167 : BitVec 32 := 1#32
  let v220 : BitVec 32 := Scalar.muli v219 c1_i32_167
  let v221 : BitVec 32 := Scalar.addi c0_i32_168 v220
  v221.toNat
def k0_dev14 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_173 : BitVec 32 := 7#32
  let v230 : BitVec 32 := Scalar.addi v2 c7_i32_173
  let c8_i32_174 : BitVec 32 := 8#32
  let c0_i32_175 : BitVec 32 := 0#32
  let v231 : BitVec 1 := Scalar.cmpi .eq c8_i32_174 c0_i32_175
  let c1_i32_176 : BitVec 32 := 1#32
  let v232 : BitVec 32 := Scalar.select v231 c1_i32_176 c8_i32_174
  let v233 : BitVec 32 := Scalar.remsi v230 v232
  let c0_i32_178 : BitVec 32 := 0#32
  let v235 : BitVec 1 := Scalar.cmpi .slt v233 c0_i32_178
  let c0_i32_179 : BitVec 32 := 0#32
  let v236 : BitVec 1 := Scalar.cmpi .slt v232 c0_i32_179
  let v237 : BitVec 1 := Scalar.xori v235 v236
  let c0_i32_177 : BitVec 32 := 0#32
  let v234 : BitVec 1 := Scalar.cmpi .ne v233 c0_i32_177
  let v238 : BitVec 1 := Scalar.andi v237 v234
  let v239 : BitVec 32 := Scalar.addi v233 v232
  let v240 : BitVec 32 := Scalar.select v238 v239 v233
  let c1_i32_184 : BitVec 32 := 1#32
  let v241 : BitVec 32 := Scalar.muli v240 c1_i32_184
  let v242 : BitVec 32 := Scalar.addi c0_i32_185 v241
  v242.toNat
abbrev stage0_0 : Fin 1 → Memref sig .tc .vmem S2x128x128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S2x128x128x64_S2x128x128x64_0_0_0_0 : ∀ a, (![0, 0, 0, 0] : Fin 4 → Nat) a + S2x128x128x64.size a ≤ S2x128x128x64.size a
  h_S2x128x128x64 : 0 < S2x128x128x64.numel
  shapeCasts_S2x128x128x64_S2x128x128x64 : S2x128x128x64.ShapeCasts S2x128x128x64
  reduces_S2x128x128x64_S2x64 : S2x128x128x64.Reduces [1, 2] S2x64
  concatenates_S2x64_S2x64_S4x64_d0 : Shape.Concatenates [S2x64, S2x64] S4x64 0
  inb_S8x4x64_S1x4x64_0_0_0 : ∀ a, (![0, 0, 0] : Fin 3 → Nat) a + S1x4x64.size a ≤ S8x4x64.size a
  h_S1x4x64 : 0 < S1x4x64.numel
  shapeCasts_S1x4x64_S4x64 : S1x4x64.ShapeCasts S4x64
  shapeCasts_S4x64_S1x4x64 : S4x64.ShapeCasts S1x4x64
  hamt_7 : (7#32 : BitVec 32).msb = false
  inb_S8_S1_1 : ∀ a, (![1] : Fin 1 → Nat) a + S1.size a ≤ S8.size a
  squeezes_S1_S_ : S1.Squeezes S_
  inb_S8_S1_7 : ∀ a, (![7] : Fin 1 → Nat) a + S1.size a ≤ S8.size a
  inb_S8x4x64_S1x4x64_7_0_0 : ∀ a, (![7, 0, 0] : Fin 3 → Nat) a + S1x4x64.size a ≤ S8x4x64.size a
  squeezes_S1x4x64_S4x64 : S1x4x64.Squeezes S4x64
  inb_S8_S1_2 : ∀ a, (![2] : Fin 1 → Nat) a + S1.size a ≤ S8.size a
  inb_S8_S1_6 : ∀ a, (![6] : Fin 1 → Nat) a + S1.size a ≤ S8.size a
  inb_S8x4x64_S1x4x64_6_0_0 : ∀ a, (![6, 0, 0] : Fin 3 → Nat) a + S1x4x64.size a ≤ S8x4x64.size a
  inb_S8_S1_3 : ∀ a, (![3] : Fin 1 → Nat) a + S1.size a ≤ S8.size a
  inb_S8_S1_5 : ∀ a, (![5] : Fin 1 → Nat) a + S1.size a ≤ S8.size a
  inb_S8x4x64_S1x4x64_5_0_0 : ∀ a, (![5, 0, 0] : Fin 3 → Nat) a + S1x4x64.size a ≤ S8x4x64.size a
  inb_S8_S1_4 : ∀ a, (![4] : Fin 1 → Nat) a + S1.size a ≤ S8.size a
  inb_S8x4x64_S1x4x64_4_0_0 : ∀ a, (![4, 0, 0] : Fin 3 → Nat) a + S1x4x64.size a ≤ S8x4x64.size a
  inb_S8x4x64_S1x4x64_3_0_0 : ∀ a, (![3, 0, 0] : Fin 3 → Nat) a + S1x4x64.size a ≤ S8x4x64.size a
  inb_S8x4x64_S1x4x64_2_0_0 : ∀ a, (![2, 0, 0] : Fin 3 → Nat) a + S1x4x64.size a ≤ S8x4x64.size a
  inb_S8x4x64_S1x4x64_1_0_0 : ∀ a, (![1, 0, 0] : Fin 3 → Nat) a + S1x4x64.size a ≤ S8x4x64.size a
  inb_S8x4x64_S8x4x64_0_0_0 : ∀ a, (![0, 0, 0] : Fin 3 → Nat) a + S8x4x64.size a ≤ S8x4x64.size a
  h_S8x4x64 : 0 < S8x4x64.numel
  reduces_S8x4x64_S4x64 : S8x4x64.Reduces [0] S4x64
  slices_S4x64_o0_0_S2x64 : S4x64.Slices ![0, 0] S2x64
  slices_S4x64_o2_0_S2x64 : S4x64.Slices ![2, 0] S2x64
  shapeCasts_S2x64_S2x1x1x64 : S2x64.ShapeCasts S2x1x1x64
  broadcasts_S2x1x1x64_S2x128x128x64 : S2x1x1x64.Broadcasts S2x128x128x64
  shapeCasts_S2x128x128x64_S32768x64 : S2x128x128x64.ShapeCasts S32768x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S32768x128_S2x128x128x128 : S32768x128.ShapeCasts S2x128x128x128
  inb_S2x128x128x128_S2x128x128x128_0_0_0_0 : ∀ a, (![0, 0, 0, 0] : Fin 4 → Nat) a + S2x128x128x128.size a ≤ S2x128x128x128.size a
  h_S2x128x128x128 : 0 < S2x128x128x128.numel
  packedbf16_S2x128x128x128_S2x128x128x128_0_0_0_0 : (Rect.unit (s := S2x128x128x128) ![0, 0, 0, 0] S2x128x128x128.size inb_S2x128x128x128_S2x128x128x128_0_0_0_0).PackedRows (EltTy.packing .bf16)
  dot_S32768x64_S64x128_S32768x128_1_0_0_1_n_n_wf : DotDims.WF S32768x64 S64x128 S32768x128 [1] [0] [0] [1] [] []
  hcc0_scratch1 : 3 + S8.numel ≤ 19
  hcc0_scratch2 : 11 + S8.numel ≤ 19
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S8 := SemArray.consecutive 3 S8 hcc0_scratch1
abbrev cc0_scratch2 : DmaSems sig S8 := SemArray.consecutive 11 S8 hcc0_scratch2
def dot_S32768x64_S64x128_S32768x128_1_0_0_1_n_n : DotDims S32768x64 S64x128 S32768x128 where
  lhsContracting := [1]
  rhsContracting := [0]
  lhsNonContracting := [0]
  rhsNonContracting := [1]
  lhsBatch := []
  rhsBatch := []
  wf := dot_S32768x64_S64x128_S32768x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1024x128x64 : Shape := ⟨4, ![2, 1024, 128, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S262144x64 : Shape := ⟨2, ![262144, 64]⟩
abbrev S262144x128 : Shape := ⟨2, ![262144, 128]⟩
abbrev S2x1024x128x128 : Shape := ⟨4, ![2, 1024, 128, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x1024x128x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x1024x128x64, .f32⟩
  | .hbm, ⟨16, _⟩ => ⟨S2x1024x128x64, .f32⟩
  | .hbm, ⟨17, _⟩ => ⟨S2x1024x128x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x1024x128x64, .f32⟩
  | .hbm, ⟨33, _⟩ => ⟨S2x1024x128x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x1024x128x64, .f32⟩
  | .hbm, ⟨39, _⟩ => ⟨S2x1024x128x64, .f32⟩
  | .hbm, ⟨40, _⟩ => ⟨S2x1024x128x64, .f32⟩
  | .hbm, ⟨41, _⟩ => ⟨S2x1024x128x64, .f32⟩
  | .hbm, ⟨42, _⟩ => ⟨S_, .f32⟩
  | .hbm, ⟨43, _⟩ => ⟨S2x1024x128x64, .f32⟩
  | .hbm, ⟨44, _⟩ => ⟨S2x1024x128x64, .f32⟩
  | .hbm, ⟨45, _⟩ => ⟨S2x1024x128x64, .f32⟩
  | .hbm, ⟨46, _⟩ => ⟨S262144x64, .f32⟩
  | .hbm, ⟨47, _⟩ => ⟨S262144x128, .f32⟩
  | .hbm, ⟨48, _⟩ => ⟨S2x1024x128x128, .f32⟩
  | .hbm, ⟨49, _⟩ => ⟨S2x1024x128x128, .bf16⟩
  | _, _ => ⟨S2x1024x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩

abbrev nD : Nat := 1
abbrev τ : Topo := Topo.v7x

variable {F : FTy → Type} [FloatOps F]

class Facts₀ : Prop where
  reducesTo_S2x1024x128x64_S2x64_d1_2 : S2x1024x128x64.ReducesTo [1, 2] S2x64
  h_S_ : 0 < S_.numel
  bcast_S2x64_S2x1x1x64_0_3 : S2x64.BroadcastsInDim S2x1x1x64 (![0, 3] : Fin 2 → Fin S2x1x1x64.rank)
  bcast_S_S2x1x1x64 : S_.BroadcastsInDim S2x1x1x64 (![] : Fin 0 → Fin S2x1x1x64.rank)
  bcast_S2x1x1x64_S2x1024x128x64_0_1_2_3 : S2x1x1x64.BroadcastsInDim S2x1024x128x64 (![0, 1, 2, 3] : Fin 4 → Fin S2x1024x128x64.rank)
  bcast_S_S2x1024x128x64 : S_.BroadcastsInDim S2x1024x128x64 (![] : Fin 0 → Fin S2x1024x128x64.rank)
  shapeCasts_S2x1024x128x64_S262144x64 : S2x1024x128x64.ShapeCasts S262144x64
  shapeCasts_S262144x128_S2x1024x128x128 : S262144x128.ShapeCasts S2x1024x128x128
  bitsLt_bf16_f32 : FTy.bits .bf16 < FTy.bits .f32
  dot_S262144x64_S64x128_S262144x128_1_0_0_1_n_n_wf : DotDims.WF S262144x64 S64x128 S262144x128 [1] [0] [0] [1] [] []

variable [Facts₀]

def dot_S262144x64_S64x128_S262144x128_1_0_0_1_n_n : DotDims S262144x64 S64x128 S262144x128 where
  lhsContracting := [1]
  rhsContracting := [0]
  lhsNonContracting := [0]
  rhsNonContracting := [1]
  lhsBatch := []
  rhsBatch := []
  wf := dot_S262144x64_S64x128_S262144x128_1_0_0_1_n_n_wf

class Facts : Prop extends Facts₀ where

variable [Facts]
-- ==== Proof.RefTerm.lean ====
/-
  The reference's result as ONE pure term of its two argument arrays: its host operations composed in program order
  — per image and channel the sum over positions divided by the count (the mean, kept at shape [2,1,1,64]); the same
  sum of the squared deviations divided by the count (the variance; the count reaches it as `131072 - 0`, and the
  guard `count > 0` selects the quotient); the centred entries divided by the square root of (variance + ε); `y / (1
  + e^(-y))`; the positions flattened to 262144 rows, multiplied by the matrix, and laid out again.
-/
import proofs.«900776_g7700000000000777_dist_diff_noisepred_hshard_i_b2_h128_w128_c64_v7x_i8_bf16_1_alg».proof.ReferenceIdeal
import Idealize.ShloMosaic.PureOps.Ideal

noncomputable section

namespace Cert.ReferenceIdeal.RefValue

open Idealize.ShloMosaic Cert.ReferenceIdeal
open Cert.ReferenceIdeal.Facts₀ Cert.ReferenceIdeal.Facts

variable {F : FTy → Type} [FloatOps F] [Cert.ReferenceIdeal.Facts]

/-- The count of positions as the variance's callee sees it: `131072 - float(0)`. -/
def countTerm : FVec F S_ .f32 :=
  subf (constant (F := F) S_ .f32 0x48000000#32) (sitofp (F := F) .f32 (constantI S_ 32 0#32))

/-- The mean, at shape [2,1,1,64]: the sum over rows and columns, divided by the count. -/
def meanTerm (X : FVec F S2x1024x128x64 .f32) : FVec F S2x1x1x64 .f32 :=
  Host.divf
    (broadcastInDim S2x1x1x64 ![0, 3] bcast_S2x64_S2x1x1x64_0_3
      (Host.reduceAdd X (constant (F := F) S_ .f32 0x00000000#32) reducesTo_S2x1024x128x64_S2x64_d1_2 h_S_))
    (broadcastInDim S2x1x1x64 ![] bcast_S_S2x1x1x64 (constant (F := F) S_ .f32 0x48000000#32))

/-- The variance, at shape [2,1,1,64]: the sum of squared deviations divided by the count, chosen by `count > 0`. -/
def varTerm (X : FVec F S2x1024x128x64 .f32) : FVec F S2x1x1x64 .f32 :=
  let dev : FVec F S2x1024x128x64 .f32 :=
    subf X (broadcastInDim S2x1024x128x64 ![0, 1, 2, 3] bcast_S2x1x1x64_S2x1024x128x64_0_1_2_3 (meanTerm X))
  let q : FVec F S2x1x1x64 .f32 :=
    Host.divf
      (broadcastInDim S2x1x1x64 ![0, 3] bcast_S2x64_S2x1x1x64_0_3
        (Host.reduceAdd (mulf dev dev) (constant (F := F) S_ .f32 0x00000000#32) reducesTo_S2x1024x128x64_S2x64_d1_2 h_S_))
      (broadcastInDim S2x1x1x64 ![] bcast_S_S2x1x1x64 countTerm)
  select (broadcastInDim S2x1x1x64 ![] bcast_S_S2x1x1x64 (cmpf .ogt countTerm (constant (F := F) S_ .f32 0x00000000#32))) q
    (broadcastInDim S2x1x1x64 ![] bcast_S_S2x1x1x64 (id (constant (F := F) S_ .f32 0x7FC00000#32) : FVec F S_ .f32))

/-- The centred entries divided by the square root of (variance + ε). -/
def normedTerm (X : FVec F S2x1024x128x64 .f32) : FVec F S2x1024x128x64 .f32 :=
  Host.divf
    (subf X (broadcastInDim S2x1024x128x64 ![0, 1, 2, 3] bcast_S2x1x1x64_S2x1024x128x64_0_1_2_3 (meanTerm X)))
    (broadcastInDim S2x1024x128x64 ![0, 1, 2, 3] bcast_S2x1x1x64_S2x1024x128x64_0_1_2_3
      (Host.sqrt (addf (varTerm X) (broadcastInDim S2x1x1x64 ![] bcast_S_S2x1x1x64 (constant (F := F) S_ .f32 0x3727C5AC#32)))))

/-- `y / (1 + e^(-y))` of the normalised entries. -/
def actTerm (X : FVec F S2x1024x128x64 .f32) : FVec F S2x1024x128x64 .f32 :=
  Host.divf (normedTerm X)
    (addf (broadcastInDim S2x1024x128x64 ![] bcast_S_S2x1024x128x64 (constant (F := F) S_ .f32 0x3F800000#32))
      (Host.exp (Host.negf (normedTerm X))))

/-- The reference's result: the activations flattened to rows, times the matrix, laid out again, narrowed. -/
def refOut (X : FVec F S2x1024x128x64 .f32) (W : FVec F S64x128 .f32) : FVec F S2x1024x128x128 .bf16 :=
  truncf .bf16
    (shapeCast S2x1024x128x128
      (Host.dotGeneral dot_S262144x64_S64x128_S262144x128_1_0_0_1_n_n none
        (shapeCast S262144x64 (actTerm X) shapeCasts_S2x1024x128x64_S262144x64) W)
      shapeCasts_S262144x128_S2x1024x128x128)
    bitsLt_bf16_f32

end Cert.ReferenceIdeal.RefValue

end
-- ==== Proof.RefRun.lean ====
/-
  The reference's run. The reference is a straight line of host operations once its two nested function calls
  are unfolded: the operations of the variance function (and, inside it, of the selection function) are listed
  at the call, over that call's own buffers. Every weakly fair execution terminates; at the end the result
  buffer holds the reference's composed term of the two argument arrays, and the arguments are unchanged.
-/
import proofs.«900776_g7700000000000777_dist_diff_noisepred_hshard_i_b2_h128_w128_c64_v7x_i8_bf16_1_alg».proof.Proof.RefTerm
import proofs.«900776_g7700000000000777_dist_diff_noisepred_hshard_i_b2_h128_w128_c64_v7x_i8_bf16_1_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The reference's 48 operations in program order: seven of its own (the sum over positions, the mean, the
    integer zero), the variance function's twenty over the buffers of its call, the selection function's three
    over the buffers of the call nested in it, then the remaining eighteen (centring, scaling by the root, the
    gated activation, the flattening, the matrix product, the unflattening, the narrowing). -/
abbrev ops : List (HloOp τ sig (Elt F)) :=
  [ nullary main_cst (constant S_ .f32 0x00000000#32),
    binary main_arg0 main_cst main_v0 ((fun x v => Host.reduceAdd x v reducesTo_S2x1024x128x64_S2x64_d1_2 h_S_) : (⟨S2x1024x128x64, .f32⟩ : BufTy).Contents (Elt F) → (⟨S_, .f32⟩ : BufTy).Contents (Elt F) → (⟨S2x64, .f32⟩ : BufTy).Contents (Elt F)),
    unary main_v0 main_v1 (broadcastInDim S2x1x1x64 ![0, 3] bcast_S2x64_S2x1x1x64_0_3 : (⟨S2x64, .f32⟩ : BufTy).Contents (Elt F) → (⟨S2x1x1x64, .f32⟩ : BufTy).Contents (Elt F)),
    nullary main_cst_0 (constant S_ .f32 0x48000000#32),
    unary main_cst_0 main_v2 (broadcastInDim S2x1x1x64 ![] bcast_S_S2x1x1x64 : (⟨S_, .f32⟩ : BufTy).Contents (Elt F) → (⟨S2x1x1x64, .f32⟩ : BufTy).Contents (Elt F)),
    binary main_v1 main_v2 main_v3 (Host.divf : (⟨S2x1x1x64, .f32⟩ : BufTy).Contents (Elt F) → (⟨S2x1x1x64, .f32⟩ : BufTy).Contents (Elt F) → (⟨S2x1x1x64, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S2x1024x128x64_S2x64_d1_2 h_S_),
    TRef.unary main_call0.v0 main_call0.v1 (broadcastInDim S2x1x1x64 ![0, 3] bcast_S2x64_S2x1x1x64_0_3),
    TRef.nullary main_call0.cst_0 (constant S_ .f32 0x48000000#32),
    TRef.unary main_call0.cst_0 main_call0.v2 (broadcastInDim S2x1x1x64 ![] bcast_S_S2x1x1x64),
    TRef.binary main_call0.v1 main_call0.v2 main_call0.v3 Host.divf,
    TRef.unary main_call0.v3 main_call0.v4 (broadcastInDim S2x1024x128x64 ![0, 1, 2, 3] bcast_S2x1x1x64_S2x1024x128x64_0_1_2_3),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x48000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x1024x128x64_S2x64_d1_2 h_S_),
    TRef.unary main_call0.v9 main_call0.v10 (broadcastInDim S2x1x1x64 ![0, 3] bcast_S2x64_S2x1x1x64_0_3),
    TRef.unary main_call0.v8 main_call0.v11 (broadcastInDim S2x1x1x64 ![] bcast_S_S2x1x1x64),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2x1x1x64 ![] bcast_S_S2x1x1x64),
    TRef.ternary main_call0.v13 main_call0.v12 main_call0.call0.v1 main_call0.call0.v2 (fun p a b => select (broadcastInDim S2x1x1x64 ![] bcast_S_S2x1x1x64 p) a b),
    unary main_v3 main_v5 (broadcastInDim S2x1024x128x64 ![0, 1, 2, 3] bcast_S2x1x1x64_S2x1024x128x64_0_1_2_3 : (⟨S2x1x1x64, .f32⟩ : BufTy).Contents (Elt F) → (⟨S2x1024x128x64, .f32⟩ : BufTy).Contents (Elt F)),
    binary main_arg0 main_v5 main_v6 (subf : (⟨S2x1024x128x64, .f32⟩ : BufTy).Contents (Elt F) → (⟨S2x1024x128x64, .f32⟩ : BufTy).Contents (Elt F) → (⟨S2x1024x128x64, .f32⟩ : BufTy).Contents (Elt F)),
    nullary main_cst_1 (constant S_ .f32 0x3727C5AC#32),
    unary main_cst_1 main_v7 (broadcastInDim S2x1x1x64 ![] bcast_S_S2x1x1x64 : (⟨S_, .f32⟩ : BufTy).Contents (Elt F) → (⟨S2x1x1x64, .f32⟩ : BufTy).Contents (Elt F)),
    binary main_v4 main_v7 main_v8 (addf : (⟨S2x1x1x64, .f32⟩ : BufTy).Contents (Elt F) → (⟨S2x1x1x64, .f32⟩ : BufTy).Contents (Elt F) → (⟨S2x1x1x64, .f32⟩ : BufTy).Contents (Elt F)),
    unary main_v8 main_v9 (Host.sqrt : (⟨S2x1x1x64, .f32⟩ : BufTy).Contents (Elt F) → (⟨S2x1x1x64, .f32⟩ : BufTy).Contents (Elt F)),
    unary main_v9 main_v10 (broadcastInDim S2x1024x128x64 ![0, 1, 2, 3] bcast_S2x1x1x64_S2x1024x128x64_0_1_2_3 : (⟨S2x1x1x64, .f32⟩ : BufTy).Contents (Elt F) → (⟨S2x1024x128x64, .f32⟩ : BufTy).Contents (Elt F)),
    binary main_v6 main_v10 main_v11 (Host.divf : (⟨S2x1024x128x64, .f32⟩ : BufTy).Contents (Elt F) → (⟨S2x1024x128x64, .f32⟩ : BufTy).Contents (Elt F) → (⟨S2x1024x128x64, .f32⟩ : BufTy).Contents (Elt F)),
    unary main_v11 main_v12 (Host.negf : (⟨S2x1024x128x64, .f32⟩ : BufTy).Contents (Elt F) → (⟨S2x1024x128x64, .f32⟩ : BufTy).Contents (Elt F)),
    unary main_v12 main_v13 (Host.exp : (⟨S2x1024x128x64, .f32⟩ : BufTy).Contents (Elt F) → (⟨S2x1024x128x64, .f32⟩ : BufTy).Contents (Elt F)),
    nullary main_cst_2 (constant S_ .f32 0x3F800000#32),
    unary main_cst_2 main_v14 (broadcastInDim S2x1024x128x64 ![] bcast_S_S2x1024x128x64 : (⟨S_, .f32⟩ : BufTy).Contents (Elt F) → (⟨S2x1024x128x64, .f32⟩ : BufTy).Contents (Elt F)),
    binary main_v14 main_v13 main_v15 (addf : (⟨S2x1024x128x64, .f32⟩ : BufTy).Contents (Elt F) → (⟨S2x1024x128x64, .f32⟩ : BufTy).Contents (Elt F) → (⟨S2x1024x128x64, .f32⟩ : BufTy).Contents (Elt F)),
    binary main_v11 main_v15 main_v16 (Host.divf : (⟨S2x1024x128x64, .f32⟩ : BufTy).Contents (Elt F) → (⟨S2x1024x128x64, .f32⟩ : BufTy).Contents (Elt F) → (⟨S2x1024x128x64, .f32⟩ : BufTy).Contents (Elt F)),
    reshape main_v16 main_v17 rfl shapeCasts_S2x1024x128x64_S262144x64,
    binary main_v17 main_arg1 main_v18 ((fun l r => Host.dotGeneral dot_S262144x64_S64x128_S262144x128_1_0_0_1_n_n none l r) : (⟨S262144x64, .f32⟩ : BufTy).Contents (Elt F) → (⟨S64x128, .f32⟩ : BufTy).Contents (Elt F) → (⟨S262144x128, .f32⟩ : BufTy).Contents (Elt F)),
    reshape main_v18 main_v19 rfl shapeCasts_S262144x128_S2x1024x128x128,
    unary main_v19 main_v20 ((truncf .bf16 · bitsLt_bf16_f32) : (⟨S2x1024x128x128, .f32⟩ : BufTy).Contents (Elt F) → (⟨S2x1024x128x128, .bf16⟩ : BufTy).Contents (Elt F)) ]

set_option maxRecDepth 2048 in
/-- The program is that straight line: the two functions unfolded at their calls, sequencing reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., nullary_bufs_sub .., unary_bufs_sub ..,
    binary_bufs_sub .., binary_bufs_sub .., reshape_bufs_sub .., binary_bufs_sub .., reshape_bufs_sub .., unary_bufs_sub ..⟩

attribute [local irreducible] Host.reduceAdd in
set_option maxRecDepth 8192 in
set_option maxHeartbeats 800000 in
/-- What the result buffer holds after the line is the composed term: each operation's value is read at the
    buffer it writes, every other buffer keeps what it held, and the transports along a buffer's type are the
    identity at these literal buffers. -/
theorem out_eq (V : Valuation τ sig (Elt F)) :
    after ops V (main_v20 : DevRef τ sig) = refOut (V (main_arg0 : DevRef τ sig)) (V (main_arg1 : DevRef τ sig)) := by
  after_results_simp
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- On the one device, for any float values, from any memory with zero counters: every weakly fair execution of
    the reference terminates with the result buffer at the composed term of the two argument arrays as they were
    at launch, and the two arguments unchanged. -/
theorem run (m' : (ℓ : Loc nD τ sig) → Buf (Elt F) ℓ) (g' : Dev nD → PrngReg) :
    θ_run (defs (F := F)) (onTc (τ := τ) (main (F := F))) ⟨m', fun _ => 0, g'⟩ (fun r => ∀ c : Dev nD,
      r.2.mem ((c.tc : Thread nD τ).loc main_v20) = refOut (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c => ⟨(h c main_v20).trans (out_eq _), (h c main_arg0).trans (arg0_eq _),
      (h c main_arg1).trans (arg1_eq _)⟩)
    (run_seq scopedRefs_eq scopedSems_eq defs main (fun _ => ops) main_eq (fun _ => ops_sub) m' g')

end Cert.ReferenceIdeal.RefValue

end
-- ==== Proof.Spec.lean ====
/-
  The function both programs compute, over the reals.

  A batch of two images, 1024 rows by 128 columns, 64 channels: `X b h w k`. For each image `b` and channel `k`
  the mean and the (biased) variance are taken over all 1024 · 128 = 131072 positions; every entry is centred and
  divided by the square root of (variance + ε); the result `y` is passed through `y ↦ y / (1 + e^(-y))`; and the
  64 channels at a position are mixed by the 64 × 128 matrix `W`.

  On eight devices the rows are cut into eight bands of 128; device `c` holds band `c`. A band's contribution to
  the statistics is its own sum and its own sum of squares; the whole statistics are the sums of the eight bands',
  and the variance is then `E[x²] - (E[x])²`.
-/
import Idealize.ShloMosaic.PureOps.Ideal

noncomputable section

open scoped BigOperators

namespace Cert.Spec

open Idealize.ShloMosaic

/-- How many positions a channel's statistics run over: 1024 · 128. -/
def cnt : ℝ := 131072

/-- The variance offset ε: the real number the single-precision word `0x3727C5AC` denotes (about 1e-5). -/
def eps : ℝ := (Ideal.ofBits .f32 0x3727C5AC#32).toReal

/-- A whole input: image, row, column, channel. -/
abbrev Whole := Fin 2 → Fin 1024 → Fin 128 → Fin 64 → ℝ
/-- One device's band of rows. -/
abbrev Band := Fin 2 → Fin 128 → Fin 128 → Fin 64 → ℝ
/-- The mixing matrix: channel in, channel out. -/
abbrev Mix := Fin 64 → Fin 128 → ℝ

/-- Row `h` of band `c` is row `128 · c + h` of the whole. -/
def row (c : Fin 8) (h : Fin 128) : Fin 1024 := ⟨128 * c.val + h.val, by omega⟩

/-- Band `c` of a whole input. -/
def band (X : Whole) (c : Fin 8) : Band := fun b h w k => X b (row c h) w k

/-- The mean of channel `k` of image `b` over all positions. -/
def mean (X : Whole) (b : Fin 2) (k : Fin 64) : ℝ := (∑ h : Fin 1024, ∑ w : Fin 128, X b h w k) / cnt

/-- The biased variance of channel `k` of image `b`: the mean of the squared deviations. -/
def var (X : Whole) (b : Fin 2) (k : Fin 64) : ℝ :=
  (∑ h : Fin 1024, ∑ w : Fin 128, (X b h w k - mean X b k) * (X b h w k - mean X b k)) / cnt

/-- An entry centred and scaled by its channel's statistics. -/
def normed (X : Whole) (b : Fin 2) (h : Fin 1024) (w : Fin 128) (k : Fin 64) : ℝ :=
  (X b h w k - mean X b k) / Real.sqrt (var X b k + eps)

/-- The activation `y / (1 + e^(-y))` of the normalised entry. -/
def act (X : Whole) (b : Fin 2) (h : Fin 1024) (w : Fin 128) (k : Fin 64) : ℝ :=
  normed X b h w k / (1 + Real.exp (-(normed X b h w k)))

/-- The result: at every position the 64 activations mixed by `W`. -/
def out (X : Whole) (W : Mix) (b : Fin 2) (h : Fin 1024) (w : Fin 128) (n : Fin 128) : ℝ :=
  ∑ k : Fin 64, act X b h w k * W k n

/-- A band's sum of channel `k` of image `b`. -/
def bandSum (x : Band) (b : Fin 2) (k : Fin 64) : ℝ := ∑ h : Fin 128, ∑ w : Fin 128, x b h w k

/-- A band's sum of squares of channel `k` of image `b`. -/
def bandSq (x : Band) (b : Fin 2) (k : Fin 64) : ℝ := ∑ h : Fin 128, ∑ w : Fin 128, x b h w k * x b h w k

end Cert.Spec

end
-- ==== Proof.Consts.lean ====
/-
  The four single-precision words the reference spells, as the real numbers they denote: the variance offset ε,
  the count of positions 131072 = 2^17, and one. A word with sign 0, exponent field E (neither 0 nor 255) and
  fraction field T denotes (2^23 + T) · 2^(E - 150).
-/
import proofs.«900776_g7700000000000777_dist_diff_noisepred_hshard_i_b2_h128_w128_c64_v7x_i8_bf16_1_alg».proof.Proof.Spec
import Idealize.ShloMosaic.PureOps.Ideal

noncomputable section

namespace Cert.Consts

open Idealize.ShloMosaic

/-- The offset's word has exponent field 110 and fraction field 2606508: it denotes 10995116 · 2^(-40). -/
theorem eps_word : Ideal.ofBits .f32 0x3727C5AC#32 = (((10995116 : ℝ) * (2 : ℝ) ^ (-40 : Int) : ℝ) : EReal) := by
  simp [Ideal.ofBits, Ideal.ieee, -EReal.coe_mul]

/-- the real the word denotes -/
theorem eps_spec : Ideal.ofBits .f32 0x3727C5AC#32 = ((Cert.Spec.eps : ℝ) : EReal) := by
  unfold Cert.Spec.eps
  rw [eps_word, EReal.toReal_coe]

/-- The offset is a positive real. -/
theorem eps_pos : 0 < Cert.Spec.eps := by
  unfold Cert.Spec.eps
  rw [eps_word, EReal.toReal_coe]
  positivity

/-- The count's word has exponent field 144 and fraction field 0: it denotes 2^23 · 2^(-6) = 131072. -/
theorem cnt_spec : Ideal.ofBits .f32 0x48000000#32 = ((Cert.Spec.cnt : ℝ) : EReal) := by
  unfold Cert.Spec.cnt
  simp [Ideal.ofBits, Ideal.ieee, -EReal.coe_mul]; norm_num

/-- The word of one: exponent field 127, fraction field 0. -/
theorem one_spec : Ideal.ofBits .f32 0x3F800000#32 = ((1 : ℝ) : EReal) := by
  simp [Ideal.ofBits, Ideal.ieee, -EReal.coe_mul]; norm_num

end Cert.Consts

end
-- ==== Proof.RefValue.lean ====
/-
  The reference's result read at one position, over real inputs.

  The reference is a composition of array operations; fed real numbers it never leaves the reals, and at each stage
  the entry at a position is the corresponding quantity of the specification: the sum over rows and columns divided
  by the count is the mean; the same sum of squared deviations divided by the count is the variance (the count being
  positive, the guarded branch is the quotient); a centred entry divided by the square root of (variance + ε), a
  positive number, is the normalised entry; y / (1 + e^(-y)) has a positive denominator; and flattening the positions
  to rows, multiplying by the matrix and laying the rows out again is, position by position, the sum over the 64
  channels of activation times weight.
-/
import proofs.«900776_g7700000000000777_dist_diff_noisepred_hshard_i_b2_h128_w128_c64_v7x_i8_bf16_1_alg».proof.Proof.Spec
import proofs.«900776_g7700000000000777_dist_diff_noisepred_hshard_i_b2_h128_w128_c64_v7x_i8_bf16_1_alg».proof.Proof.RefTerm
import proofs.«900776_g7700000000000777_dist_diff_noisepred_hshard_i_b2_h128_w128_c64_v7x_i8_bf16_1_alg».proof.Proof.Gen.ReferenceIdeal
import proofs.«900776_g7700000000000777_dist_diff_noisepred_hshard_i_b2_h128_w128_c64_v7x_i8_bf16_1_alg».proof.Proof.Consts
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws

noncomputable section

open scoped BigOperators

namespace Cert.ReferenceIdeal.RefValue

open Idealize.ShloMosaic Idealize.ShloMosaic.ValueIdx Cert.ReferenceIdeal
open Cert.ReferenceIdeal.Facts₀ Cert.ReferenceIdeal.Facts

/-! ## Real arrays as arrays of extended reals -/

/-- A whole real input, entry by entry an extended real. -/
abbrev liftX (X : Cert.Spec.Whole) : FVec Ideal S2x1024x128x64 .f32 :=
  fun i => ((X (i 0) (i 1) (i 2) (i 3) : ℝ) : EReal)

/-- A real mixing matrix, entry by entry an extended real. -/
abbrev liftW (W : Cert.Spec.Mix) : FVec Ideal S64x128 .f32 := fun i => ((W (i 0) (i 1) : ℝ) : EReal)

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- The same for a double sum over rows and columns. -/
theorem coe_sum2 (f : Fin 1024 → Fin 128 → ℝ) :
    (∑ h : Fin 1024, ∑ w : Fin 128, ((f h w : ℝ) : EReal)) = ((∑ h : Fin 1024, ∑ w : Fin 128, f h w : ℝ) : EReal) := by
  rw [coe_sum]
  exact Finset.sum_congr rfl fun h _ => (coe_sum _ _).symm

theorem cnt_pos : 0 < Cert.Spec.cnt := by unfold Cert.Spec.cnt; norm_num
theorem cnt_ne : Cert.Spec.cnt ≠ 0 := ne_of_gt cnt_pos

/-! ## The sum over rows and columns -/

/-- Dropping the row and the column of a position keeps its image … -/
theorem drop_image (hr : S2x1024x128x64.ReducesTo [1, 2] S2x64) (i : S2x1024x128x64.Idx) :
    (hr.drop i 0).val = (i 0).val := Shape.ReducesTo.drop_apply_val_of_eq hr i 0 0

/-- … and its channel. -/
theorem drop_channel (hr : S2x1024x128x64.ReducesTo [1, 2] S2x64) (i : S2x1024x128x64.Idx) :
    (hr.drop i 1).val = (i 3).val := Shape.ReducesTo.drop_apply_val_of_eq hr i 1 3

/-- The positions that drop to (image b, channel k) are exactly the (b, h, w, k): summing over them is the double sum
    over rows h and columns w. -/
theorem sum_rows_cols (hr : S2x1024x128x64.ReducesTo [1, 2] S2x64) (x : S2x1024x128x64.Idx → EReal) (b : Fin 2) (k : Fin 64)
    [DecidablePred fun i : S2x1024x128x64.Idx => hr.drop i = ix2 b k] :
    (∑ i ∈ Finset.univ.filter (fun i : S2x1024x128x64.Idx => hr.drop i = ix2 b k), x i)
      = ∑ h : Fin 1024, ∑ w : Fin 128, x (ix4 b h w k) := by
  symm
  rw [← Fintype.sum_prod_type (fun p : Fin 1024 × Fin 128 => x (ix4 b p.1 p.2 k))]
  refine Finset.sum_bij (fun p _ => ix4 b p.1 p.2 k) ?_ ?_ ?_ ?_
  · intro p _
    rw [Finset.mem_filter]
    refine ⟨Finset.mem_univ _, ?_⟩
    funext a
    apply Fin.ext
    match a with
    | ⟨0, _⟩ => exact drop_image hr _
    | ⟨1, _⟩ => exact drop_channel hr _
  · intro p _ q _ hpq
    have h1 := congrFun hpq 1
    have h2 := congrFun hpq 2
    exact Prod.ext h1 h2
  · intro i hi
    rw [Finset.mem_filter] at hi
    have e0 : (i 0).val = b.val := by rw [← drop_image hr i, hi.2]
    have e3 : (i 3).val = k.val := by rw [← drop_channel hr i, hi.2]
    refine ⟨(i 1, i 2), Finset.mem_univ _, ?_⟩
    funext a
    apply Fin.ext
    match a with
    | ⟨0, _⟩ => exact e0.symm
    | ⟨1, _⟩ => rfl
    | ⟨2, _⟩ => rfl
    | ⟨3, _⟩ => exact e3.symm
  · intro p _
    rfl

/-- The reference's sum over axes 1 and 2 from the zero word, at (b, k): the double sum over rows and columns. -/
theorem reduce_apply (x : FVec Ideal S2x1024x128x64 .f32) (b : Fin 2) (k : Fin 64) :
    Host.reduceAdd x (constant (F := Ideal) S_ .f32 0x00000000#32) reducesTo_S2x1024x128x64_S2x64_d1_2 h_S_ (ix2 b k)
      = ∑ h : Fin 1024, ∑ w : Fin 128, x (ix4 b h w k) := by
  rw [hostReduceAdd_apply]
  unfold Ideal.hostReduceAdd
  rw [constant_apply, Ideal.ofBits_zero_f32, zero_add]
  exact sum_rows_cols _ x b k

/-! ## Broadcasts read at a position -/

/-- A [2,64] array of per-channel sums laid out as [2,1,1,64]. -/
theorem bcast_sums_apply (v : FVec Ideal S2x64 .f32) (b : Fin 2) (k : Fin 64) :
    broadcastInDim S2x1x1x64 ![0, 3] bcast_S2x64_S2x1x1x64_0_3 v (ix4 b 0 0 k) = v (ix2 b k) :=
  broadcastInDim_apply _ _ v _ _ (fun a => by
    match a with
    | ⟨0, _⟩ => rfl
    | ⟨1, _⟩ => rfl)

/-- A [2,1,1,64] array of statistics repeated over all positions. -/
theorem bcast_stats_apply (v : FVec Ideal S2x1x1x64 .f32) (b : Fin 2) (h : Fin 1024) (w : Fin 128) (k : Fin 64) :
    broadcastInDim S2x1024x128x64 ![0, 1, 2, 3] bcast_S2x1x1x64_S2x1024x128x64_0_1_2_3 v (ix4 b h w k) = v (ix4 b 0 0 k) :=
  broadcastInDim_apply _ _ v _ _ (fun a => by
    match a with
    | ⟨0, _⟩ => rfl
    | ⟨1, _⟩ => rfl
    | ⟨2, _⟩ => rfl
    | ⟨3, _⟩ => rfl)

/-! ## The stages -/

/-- The mean. -/
theorem meanTerm_apply (X : Cert.Spec.Whole) (b : Fin 2) (k : Fin 64) :
    meanTerm (F := Ideal) (liftX X) (ix4 b 0 0 k) = ((Cert.Spec.mean X b k : ℝ) : EReal) := by
  unfold meanTerm
  rw [hostDivf_apply, broadcastInDim_scalar_apply, constant_apply, Cert.Consts.cnt_spec, bcast_sums_apply, reduce_apply,
    Ideal.div_coe cnt_ne]
  show (∑ h : Fin 1024, ∑ w : Fin 128, ((X b h w k : ℝ) : EReal)) * _ = _
  rw [coe_sum2 (fun h w => X b h w k), ← EReal.coe_mul]
  unfold Cert.Spec.mean
  rw [mul_one_div]

/-- The count, as the variance's callee receives it: 131072 − 0. -/
theorem countTerm_apply (i : S_.Idx) : countTerm (F := Ideal) i = ((Cert.Spec.cnt : ℝ) : EReal) := by
  unfold countTerm
  rw [subf_apply, constant_apply, Cert.Consts.cnt_spec, sitofp_apply]
  show ((Cert.Spec.cnt : ℝ) : EReal) - (((0#32 : BitVec 32).toInt : ℝ) : EReal) = _
  simp

/-- The count is above zero: the guard is the bit 1. -/
theorem count_guard : Ideal.cmp .ogt ((Cert.Spec.cnt : ℝ) : EReal) 0 = 1#1 := by
  have h : (0 : EReal) < ((Cert.Spec.cnt : ℝ) : EReal) := EReal.coe_pos.mpr cnt_pos
  simp [Ideal.cmp, h]

/-- A centred entry. -/
theorem centred_apply (X : Cert.Spec.Whole) (b : Fin 2) (h : Fin 1024) (w : Fin 128) (k : Fin 64) :
    subf (liftX X) (broadcastInDim S2x1024x128x64 ![0, 1, 2, 3] bcast_S2x1x1x64_S2x1024x128x64_0_1_2_3
        (meanTerm (F := Ideal) (liftX X))) (ix4 b h w k)
      = ((X b h w k - Cert.Spec.mean X b k : ℝ) : EReal) := by
  rw [subf_apply, bcast_stats_apply, meanTerm_apply, EReal.coe_sub]

/-- The variance. -/
theorem varTerm_apply (X : Cert.Spec.Whole) (b : Fin 2) (k : Fin 64) :
    varTerm (F := Ideal) (liftX X) (ix4 b 0 0 k) = ((Cert.Spec.var X b k : ℝ) : EReal) := by
  simp only [varTerm]
  rw [select_apply, broadcastInDim_scalar_apply, cmpf_apply, Ideal.cmpf_def, countTerm_apply, constant_apply,
    Ideal.ofBits_zero_f32, count_guard, select_one, hostDivf_apply, broadcastInDim_scalar_apply, countTerm_apply,
    bcast_sums_apply, reduce_apply, Ideal.div_coe cnt_ne]
  have hsq : ∀ (h : Fin 1024) (w : Fin 128),
      mulf (subf (liftX X) (broadcastInDim S2x1024x128x64 ![0, 1, 2, 3] bcast_S2x1x1x64_S2x1024x128x64_0_1_2_3
          (meanTerm (F := Ideal) (liftX X))))
        (subf (liftX X) (broadcastInDim S2x1024x128x64 ![0, 1, 2, 3] bcast_S2x1x1x64_S2x1024x128x64_0_1_2_3
          (meanTerm (F := Ideal) (liftX X)))) (ix4 b h w k)
        = (((X b h w k - Cert.Spec.mean X b k) * (X b h w k - Cert.Spec.mean X b k) : ℝ) : EReal) := by
    intro h w
    rw [mulf_apply, centred_apply, EReal.coe_mul]
  rw [Finset.sum_congr rfl fun h _ => Finset.sum_congr rfl fun w _ => hsq h w,
    coe_sum2 (fun h w => (X b h w k - Cert.Spec.mean X b k) * (X b h w k - Cert.Spec.mean X b k)), ← EReal.coe_mul]
  unfold Cert.Spec.var
  rw [mul_one_div]

/-- The variance is a mean of squares, so it is not negative … -/
theorem var_nonneg (X : Cert.Spec.Whole) (b : Fin 2) (k : Fin 64) : 0 ≤ Cert.Spec.var X b k := by
  unfold Cert.Spec.var
  exact div_nonneg (Finset.sum_nonneg fun h _ => Finset.sum_nonneg fun w _ => mul_self_nonneg _) cnt_pos.le

/-- … and with the offset added it is positive. -/
theorem var_eps_pos (X : Cert.Spec.Whole) (b : Fin 2) (k : Fin 64) : 0 < Cert.Spec.var X b k + Cert.Spec.eps :=
  add_pos_of_nonneg_of_pos (var_nonneg X b k) Cert.Consts.eps_pos

/-- A normalised entry: the square root is of a positive real, so it is a nonzero real and the quotient is the reals'. -/
theorem normedTerm_apply (X : Cert.Spec.Whole) (b : Fin 2) (h : Fin 1024) (w : Fin 128) (k : Fin 64) :
    normedTerm (F := Ideal) (liftX X) (ix4 b h w k) = ((Cert.Spec.normed X b h w k : ℝ) : EReal) := by
  unfold normedTerm
  rw [hostDivf_apply, centred_apply, bcast_stats_apply]
  show Ideal.div _ (Ideal.sqrt (varTerm (F := Ideal) (liftX X) (ix4 b 0 0 k) + Ideal.ofBits .f32 0x3727C5AC#32)) = _
  rw [varTerm_apply, Cert.Consts.eps_spec, ← EReal.coe_add, Ideal.sqrt_coe, if_neg (not_lt.mpr (var_eps_pos X b k).le),
    Ideal.div_coe (ne_of_gt (Real.sqrt_pos.mpr (var_eps_pos X b k))), ← EReal.coe_mul]
  unfold Cert.Spec.normed
  rw [mul_one_div]

/-- An activation: 1 + e^(-y) is a positive real. -/
theorem actTerm_apply (X : Cert.Spec.Whole) (b : Fin 2) (h : Fin 1024) (w : Fin 128) (k : Fin 64) :
    actTerm (F := Ideal) (liftX X) (ix4 b h w k) = ((Cert.Spec.act X b h w k : ℝ) : EReal) := by
  unfold actTerm
  rw [hostDivf_apply]
  show Ideal.div (normedTerm (F := Ideal) (liftX X) (ix4 b h w k))
      (Ideal.ofBits .f32 0x3F800000#32 + Ideal.exp (-(normedTerm (F := Ideal) (liftX X) (ix4 b h w k)))) = _
  rw [normedTerm_apply, Cert.Consts.one_spec, ← EReal.coe_neg, Ideal.exp_coe, ← EReal.coe_add,
    Ideal.div_coe (ne_of_gt (add_pos_of_pos_of_nonneg one_pos (Real.exp_pos _).le)), ← EReal.coe_mul]
  unfold Cert.Spec.act
  rw [mul_one_div]

/-! ## Flattening the positions to rows, and back -/

/-- Position (b, h, w) as a row of the flattened array: (1024 b + h) · 128 + w. -/
def rowOf (b : Fin 2) (h : Fin 1024) (w : Fin 128) : Fin 262144 :=
  ⟨(b.val * 1024 + h.val) * 128 + w.val, by omega⟩

/-- The flattened array at (row of (b, h, w), k) is the array at (b, h, w, k): same place in row-major order. -/
theorem flatten_apply (v : FVec Ideal S2x1024x128x64 .f32) (b : Fin 2) (h : Fin 1024) (w : Fin 128) (k : Fin 64) :
    shapeCast S262144x64 v shapeCasts_S2x1024x128x64_S262144x64 (ix2 (rowOf b h w) k) = v (ix4 b h w k) :=
  shapeCast_apply v _ _ _ (by rw [Shape.rowMajor_val_four, Shape.rowMajor_val_two]; rfl)

/-- The rows laid out as positions again. -/
theorem unflatten_apply (v : FVec Ideal S262144x128 .f32) (b : Fin 2) (h : Fin 1024) (w : Fin 128) (n : Fin 128) :
    shapeCast S2x1024x128x128 v shapeCasts_S262144x128_S2x1024x128x128 (ix4 b h w n) = v (ix2 (rowOf b h w) n) :=
  shapeCast_apply v _ _ _ (by rw [Shape.rowMajor_val_four, Shape.rowMajor_val_two]; rfl)

/-! ## The result -/

theorem refOut_apply (X : Cert.Spec.Whole) (W : Cert.Spec.Mix) (b : Fin 2) (h : Fin 1024) (w : Fin 128) (n : Fin 128) :
    refOut (F := Ideal) (fun i => ((X (i 0) (i 1) (i 2) (i 3) : ℝ) : EReal)) (fun i => ((W (i 0) (i 1) : ℝ) : EReal)) (ix4 b h w n)
      = ((Cert.Spec.out X W b h w n : ℝ) : EReal) := by
  show refOut (F := Ideal) (liftX X) (liftW W) (ix4 b h w n) = _
  unfold refOut
  rw [truncf_apply, unflatten_apply]
  show Host.dotGeneral (DotDims.plain 262144 64 128) none _ _ (ix2 (rowOf b h w) n) = _
  rw [StackMember.dotGeneral_plain_apply]
  have hk : ∀ k : Fin 64,
      shapeCast S262144x64 (actTerm (F := Ideal) (liftX X)) shapeCasts_S2x1024x128x64_S262144x64 (ix2 (rowOf b h w) k)
          * liftW W (ix2 k n)
        = ((Cert.Spec.act X b h w k * W k n : ℝ) : EReal) := by
    intro k
    rw [flatten_apply, actTerm_apply, EReal.coe_mul]
  rw [Finset.sum_congr rfl fun k _ => hk k, ← coe_sum]
  rfl

end Cert.ReferenceIdeal.RefValue

end
-- ==== Proof.KSpec.lean ====
/-
  What each device's result buffer holds after the kernel, as a pure term of the eight devices' input bands and the
  mixing matrix: a device's scratch ends with, in slot `j`, the statistics (per image and channel the band's sum,
  then its sum of squares) of the device `j` places further round the ring of eight — slot 0 its own —, and the
  result is the body's last payload of the device's own band, that scratch and the matrix.
-/
import proofs.«900776_g7700000000000777_dist_diff_noisepred_hshard_i_b2_h128_w128_c64_v7x_i8_bf16_1_alg».proof.Proof.Gen.KernelIdeal.Skeleton
import Idealize.ShloMosaic.Lib.ValueIdx

noncomputable section

namespace Cert.KernelIdeal.KSpec

open Idealize.ShloMosaic Idealize.ShloMosaic.ValueIdx Cert.KernelIdeal Cert.KernelIdeal.Gen

variable {F : FTy → Type} [FloatOps F]

/-- The device `j` places after `c` on the ring of eight. -/
def peer (c : Dev nD) (j : Fin 8) : Dev nD := ⟨(c.val + j.val) % 8, Nat.mod_lt _ (by decide)⟩

/-- A band's statistics as the body stores them in slot 0 of its scratch: rows 0–1 the sums, rows 2–3 the sums of
    squares, per channel. -/
def stats (x : Vec F S2x128x128x64 .f32) : FVec F S1x4x64 .f32 := k0_pay2 x

/-- Device `c`'s scratch after the exchange: slot `j` holds the statistics of `peer c j`. -/
def gathered (x : Dev nD → Vec F S2x128x128x64 .f32) (c : Dev nD) : Vec F S8x4x64 .f32 :=
  fun i => stats (x (peer c (i 0))) (ix3 0 (i 1) (i 2))

/-- Device `c`'s result. -/
def kout (x : Dev nD → Vec F S2x128x128x64 .f32) (wp : Vec F S64x128 .f32) (c : Dev nD) : FVec F S2x128x128x128 .bf16 :=
  k0_pay3 (k0_pay1 (x c)) (gathered x c) wp

end Cert.KernelIdeal.KSpec

end
-- ==== Proof.SpecLaws.lean ====
/-
  Laws of the real-valued specification: the whole statistics are assembled from the eight bands' partial sums,
  the variance is the mean of squares minus the square of the mean, and two reindexings of finite sums
  (cutting 1024 rows into eight bands of 128; rotating the eight bands).
-/
import proofs.«900776_g7700000000000777_dist_diff_noisepred_hshard_i_b2_h128_w128_c64_v7x_i8_bf16_1_alg».proof.Proof.Spec
import Mathlib.Algebra.BigOperators.Fin
import Mathlib.Data.Fintype.BigOperators
import Mathlib.Algebra.Order.BigOperators.Ring.Finset
import Mathlib.Tactic.FieldSimp
import Mathlib.Tactic.Ring
import Mathlib.Tactic.NormNum

noncomputable section

open scoped BigOperators

namespace Cert.Spec

/-- The number of positions is positive. -/
theorem cnt_pos : 0 < cnt := by
  unfold cnt; norm_num

/-- Rotating the eight bands by `c` is a bijection of the eight bands; its inverse rotates back. -/
def rot (c : Fin 8) : Fin 8 ≃ Fin 8 where
  toFun j := ⟨(c.val + j.val) % 8, Nat.mod_lt _ (by decide)⟩
  invFun j := ⟨(j.val + 8 - c.val) % 8, Nat.mod_lt _ (by decide)⟩
  left_inv j := by
    apply Fin.ext
    show ((c.val + j.val) % 8 + 8 - c.val) % 8 = j.val
    have hc := c.isLt
    have hj := j.isLt
    omega
  right_inv j := by
    apply Fin.ext
    show (c.val + (j.val + 8 - c.val) % 8) % 8 = j.val
    have hc := c.isLt
    have hj := j.isLt
    omega

/-- A sum over the eight bands does not depend on where the walk round the ring starts. -/
theorem sum_ring (c : Fin 8) (f : Fin 8 → ℝ) :
    ∑ j : Fin 8, f ⟨(c.val + j.val) % 8, Nat.mod_lt _ (by decide)⟩ = ∑ c' : Fin 8, f c' :=
  (rot c).sum_comp f

/-- A pair (band, row within the band) names exactly one of the 1024 rows: quotient and remainder by 128. -/
def rowEquiv : Fin 8 × Fin 128 ≃ Fin 1024 where
  toFun p := row p.1 p.2
  invFun h := (⟨h.val / 128, by have := h.isLt; omega⟩, ⟨h.val % 128, Nat.mod_lt _ (by decide)⟩)
  left_inv p := by
    rcases p with ⟨c, h⟩
    have hc := c.isLt
    have hh := h.isLt
    apply Prod.ext
    · apply Fin.ext
      show (128 * c.val + h.val) / 128 = c.val
      omega
    · apply Fin.ext
      show (128 * c.val + h.val) % 128 = h.val
      omega
  right_inv h := by
    apply Fin.ext
    show 128 * (h.val / 128) + h.val % 128 = h.val
    omega

/-- A sum over the 1024 rows is the sum over the eight bands of the sums over each band's 128 rows. -/
theorem rows_split (f : Fin 1024 → ℝ) :
    ∑ h : Fin 1024, f h = ∑ c : Fin 8, ∑ h : Fin 128, f (row c h) := by
  rw [← rowEquiv.sum_comp f, Fintype.sum_prod_type]
  rfl

/-- The mean is the sum of the eight bands' sums over the number of positions. -/
theorem mean_bands (X : Whole) (b : Fin 2) (k : Fin 64) :
    mean X b k = (∑ c : Fin 8, bandSum (band X c) b k) / cnt := by
  unfold mean
  rw [rows_split (fun h => ∑ w : Fin 128, X b h w k)]
  rfl

/-- The variance is the mean of the squares (assembled from the eight bands' sums of squares) minus the square
of the mean: expand `(x - μ)²`, and use that the sum of the entries is `μ` times their number. -/
theorem var_bands (X : Whole) (b : Fin 2) (k : Fin 64) :
    var X b k = (∑ c : Fin 8, bandSq (band X c) b k) / cnt - mean X b k * mean X b k := by
  have hS2 : (∑ c : Fin 8, bandSq (band X c) b k)
      = ∑ h : Fin 1024, ∑ w : Fin 128, X b h w k * X b h w k := by
    rw [rows_split (fun h => ∑ w : Fin 128, X b h w k * X b h w k)]
    rfl
  have hc : cnt ≠ 0 := ne_of_gt cnt_pos
  have hS1 : (∑ h : Fin 1024, ∑ w : Fin 128, X b h w k) = mean X b k * cnt := by
    unfold mean
    field_simp
  rw [hS2]
  unfold var
  generalize mean X b k = μ at hS1 ⊢
  have hexp : ∑ h : Fin 1024, ∑ w : Fin 128, (X b h w k - μ) * (X b h w k - μ)
      = (∑ h : Fin 1024, ∑ w : Fin 128, X b h w k * X b h w k)
        - 2 * μ * (∑ h : Fin 1024, ∑ w : Fin 128, X b h w k) + cnt * (μ * μ) := by
    have hsq : ∀ (h : Fin 1024) (w : Fin 128),
        (X b h w k - μ) * (X b h w k - μ) = X b h w k * X b h w k - 2 * μ * X b h w k + μ * μ := by
      intro h w; ring
    simp_rw [hsq, Finset.sum_add_distrib, Finset.sum_sub_distrib, ← Finset.mul_sum, Finset.sum_const,
      Finset.card_univ, Fintype.card_fin, nsmul_eq_mul]
    unfold cnt
    push_cast
    ring
  rw [hexp, hS1]
  field_simp
  ring

/-- A mean of squares is nonnegative. -/
theorem var_nonneg (X : Whole) (b : Fin 2) (k : Fin 64) : 0 ≤ var X b k := by
  unfold var
  exact div_nonneg
    (Finset.sum_nonneg fun h _ => Finset.sum_nonneg fun w _ => mul_self_nonneg _)
    (le_of_lt cnt_pos)

end Cert.Spec

end
-- ==== Proof.KValue.lean ====
/-
  The kernel's result read at an index, over real inputs, at the ideal values.

  Each device holds a band of 128 rows of the two images. Its statistics are, per image and channel, the band's sum
  and its sum of squares; after the exchange a device's scratch holds the eight bands' statistics, and their sum over
  the eight slots is the whole image's sum and sum of squares whatever device takes it, the ring of eight being all
  of the devices. Divided by the count 131072 these are the mean and the mean square, whose difference from the
  mean squared is the variance; it is nonnegative, so with the positive offset the reciprocal square root is the
  real one. An entry centred and scaled is the normalised entry, times its logistic it is the activation, and the
  product with the mixing matrix over the flattened positions sums the 64 channels: at position (b, h, w) of device
  c's band and output channel n this is the function's value at row 128 · c + h of the whole.
-/
import proofs.«900776_g7700000000000777_dist_diff_noisepred_hshard_i_b2_h128_w128_c64_v7x_i8_bf16_1_alg».proof.Proof.Spec
import proofs.«900776_g7700000000000777_dist_diff_noisepred_hshard_i_b2_h128_w128_c64_v7x_i8_bf16_1_alg».proof.Proof.KSpec
import proofs.«900776_g7700000000000777_dist_diff_noisepred_hshard_i_b2_h128_w128_c64_v7x_i8_bf16_1_alg».proof.Proof.SpecLaws
import proofs.«900776_g7700000000000777_dist_diff_noisepred_hshard_i_b2_h128_w128_c64_v7x_i8_bf16_1_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KSpec

open Idealize.ShloMosaic Idealize.ShloMosaic.ValueIdx Cert.KernelIdeal Cert.KernelIdeal.Gen

/-! ## Finite sums of reals inside the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ## A band's statistics -/

/-- The sum over rows and columns: the indices of a `[2,128,128,64]` array that keep image `b` and channel `k` are
    the pairs (row, column), so the sum over them is the double sum. -/
theorem reduce12_apply (x : S2x128x128x64.Idx → EReal) (hr : S2x128x128x64.Reduces [1, 2] S2x64)
    (hφ : FKind.Formats .f32) (hacc : (0x00000000#32 : BitVec 32) = FKind.add.neutral .f32 hφ) (b : Fin 2) (k : Fin 64) :
    multiReduction (F := Ideal) .add [1, 2] S2x64 x 0x00000000#32 hr hφ hacc (ix2 b k)
      = ∑ h : Fin 128, ∑ w : Fin 128, x (ix4 b h w k) := by
  show ∑ i ∈ Finset.univ.filter (fun i => hr.drop i = ix2 b k), x i = _
  have key : ∀ i : S2x128x128x64.Idx, hr.drop i = ix2 b k → ix4 b (i 1) (i 2) k = i := by
    intro i hi
    have h0 : (i 0).val = b.val := (hr.drop_apply_val_of_eq i 0 0).symm.trans (congrArg (fun j : S2x64.Idx => (j 0).val) hi)
    have h3 : (i 3).val = k.val := (hr.drop_apply_val_of_eq i 1 3).symm.trans (congrArg (fun j : S2x64.Idx => (j 1).val) hi)
    funext a
    match a with
    | ⟨0, _⟩ => exact Fin.ext h0.symm
    | ⟨1, _⟩ => rfl
    | ⟨2, _⟩ => rfl
    | ⟨3, _⟩ => exact Fin.ext h3.symm
  rw [← Fintype.sum_prod_type' (fun (h : Fin 128) (w : Fin 128) => x (ix4 b h w k))]
  refine Finset.sum_nbij' (fun i => ((i 1 : Fin 128), (i 2 : Fin 128))) (fun p => ix4 b p.1 p.2 k) ?_ ?_ ?_ ?_ ?_
  · intro i _; exact Finset.mem_univ _
  · intro p _
    refine Finset.mem_filter.2 ⟨Finset.mem_univ _, ?_⟩
    funext a
    match a with
    | ⟨0, _⟩ => exact Fin.ext (hr.drop_apply_val_of_eq (ix4 b p.1 p.2 k) 0 0)
    | ⟨1, _⟩ => exact Fin.ext (hr.drop_apply_val_of_eq (ix4 b p.1 p.2 k) 1 3)
  · intro i hi; exact key i (Finset.mem_filter.1 hi).2
  · intro p _; rfl
  · intro i hi; exact congrArg x (key i (Finset.mem_filter.1 hi).2).symm

/-- Row `b` of the four rows of statistics: the sums. -/
abbrev lo (b : Fin 2) : Fin 4 := ⟨b.val, by omega⟩
/-- Row `2 + b`: the sums of squares. -/
abbrev hi (b : Fin 2) : Fin 4 := ⟨2 + b.val, by omega⟩

/-- The body's first payload is its operand. -/
theorem pay1_eq (x : S2x128x128x64.Idx → EReal) : k0_pay1 (F := Ideal) x = x := shapeCast_self x _

/-- Rows 0–1 of a band's statistics: per image and channel the sum over the band's rows and columns. -/
theorem stats_lo (x : S2x128x128x64.Idx → EReal) (b : Fin 2) (k : Fin 64) :
    stats (F := Ideal) x (ix3 0 (lo b) k) = ∑ h : Fin 128, ∑ w : Fin 128, x (ix4 b h w k) := by
  unfold stats k0_pay2
  refine (shapeCast_ab_1ab_apply _ _ 0 (lo b) k).trans ?_
  refine (concatenate_pair_apply_left (t := S4x64) (s₁ := S2x64) (s₂ := S2x64) (0 : Fin 2) _ _ _ (ix2 (lo b) k) rfl (ix2 b k)
    (fun a => match a with | ⟨0, _⟩ => rfl | ⟨1, _⟩ => rfl)).trans ?_
  refine (reduce12_apply _ _ _ _ b k).trans ?_
  rw [pay1_eq]

/-- Rows 2–3: the sums of the squares. -/
theorem stats_hi (x : S2x128x128x64.Idx → EReal) (b : Fin 2) (k : Fin 64) :
    stats (F := Ideal) x (ix3 0 (hi b) k) = ∑ h : Fin 128, ∑ w : Fin 128, x (ix4 b h w k) * x (ix4 b h w k) := by
  unfold stats k0_pay2
  refine (shapeCast_ab_1ab_apply _ _ 0 (hi b) k).trans ?_
  refine (concatenate_pair_apply_right (t := S4x64) (s₁ := S2x64) (s₂ := S2x64) (0 : Fin 2) _ _ _ (ix2 (hi b) k) rfl rfl (ix2 b k)
    (fun a => match a with
      | ⟨0, _⟩ => fun hne => absurd rfl hne
      | ⟨1, _⟩ => fun _ => rfl)
    (by show b.val + 2 = 2 + b.val; omega)).trans ?_
  refine (reduce12_apply _ _ _ _ b k).trans ?_
  rw [pay1_eq]
  rfl

/-- Over a band of reals the sums are the reals' `bandSum`. -/
theorem stats_sum (x : Cert.Spec.Band) (b : Fin 2) (k : Fin 64) :
    stats (F := Ideal) (fun i => ((x (i 0) (i 1) (i 2) (i 3) : ℝ) : EReal)) (ix3 0 (lo b) k)
      = ((Cert.Spec.bandSum x b k : ℝ) : EReal) := by
  refine (stats_lo _ b k).trans ?_
  unfold Cert.Spec.bandSum
  rw [coe_sum]
  refine Finset.sum_congr rfl fun h _ => ?_
  rw [coe_sum]

/-- Over a band of reals the sums of squares are the reals' `bandSq`. -/
theorem stats_sq (x : Cert.Spec.Band) (b : Fin 2) (k : Fin 64) :
    stats (F := Ideal) (fun i => ((x (i 0) (i 1) (i 2) (i 3) : ℝ) : EReal)) (ix3 0 (hi b) k)
      = ((Cert.Spec.bandSq x b k : ℝ) : EReal) := by
  refine (stats_hi _ b k).trans ?_
  unfold Cert.Spec.bandSq
  rw [coe_sum]
  refine Finset.sum_congr rfl fun h _ => ?_
  rw [coe_sum]
  exact Finset.sum_congr rfl fun w _ => (EReal.coe_mul _ _).symm

/-! ## The eight slots of the scratch, summed -/

/-- The index of slot `j`, row `r`, channel `k` is the reduced index `(r, k)` with `j` put back on the slot axis. -/
theorem lift0_eq (h : S8x4x64.Reduces [0] S4x64) (r : Fin 4) (k : Fin 64) (j : Fin 8) :
    h.lift (ix2 r k) j = ix3 j r k := by
  funext a
  match a with
  | ⟨0, _⟩ => exact Fin.ext rfl
  | ⟨1, _⟩ => exact Fin.ext rfl
  | ⟨2, _⟩ => exact Fin.ext rfl

/-- The sum over the eight slots, at row `r` and channel `k`, is the sum of the eight peers' statistics there. -/
theorem slots_apply (x : Dev nD → S2x128x128x64.Idx → EReal) (c : Dev nD) (h : S8x4x64.Reduces [0] S4x64)
    (hφ : FKind.Formats .f32) (hacc : (0x00000000#32 : BitVec 32) = FKind.add.neutral .f32 hφ) (r : Fin 4) (k : Fin 64) :
    multiReduction (F := Ideal) .add [0] S4x64 (gathered (F := Ideal) x c) 0x00000000#32 h hφ hacc (ix2 r k)
      = ∑ j : Fin 8, stats (F := Ideal) (x (peer c j)) (ix3 0 r k) := by
  refine (Ideal.multiReduction_add_single (gathered (F := Ideal) x c) _ h hφ hacc (ix2 r k)).trans ?_
  refine Finset.sum_congr rfl fun j _ => ?_
  rw [lift0_eq h r k j]
  rfl

/-- The devices' bands of a whole input, as the kernel's arguments. -/
abbrev bands (X : Cert.Spec.Whole) : Dev nD → S2x128x128x64.Idx → EReal :=
  fun c' i => ((Cert.Spec.band X c' (i 0) (i 1) (i 2) (i 3) : ℝ) : EReal)

/-- Rows 0–1 of the summed scratch: the whole sums, whatever device sums them. -/
theorem slots_sum (X : Cert.Spec.Whole) (c : Dev nD) (h : S8x4x64.Reduces [0] S4x64)
    (hφ : FKind.Formats .f32) (hacc : (0x00000000#32 : BitVec 32) = FKind.add.neutral .f32 hφ) (b : Fin 2) (k : Fin 64) :
    multiReduction (F := Ideal) .add [0] S4x64 (gathered (F := Ideal) (bands X) c) 0x00000000#32 h hφ hacc (ix2 (lo b) k)
      = ((∑ c' : Fin 8, Cert.Spec.bandSum (Cert.Spec.band X c') b k : ℝ) : EReal) := by
  refine (slots_apply (bands X) c h hφ hacc (lo b) k).trans ?_
  rw [← Cert.Spec.sum_ring c (fun c' => Cert.Spec.bandSum (Cert.Spec.band X c') b k), coe_sum]
  exact Finset.sum_congr rfl fun j _ => stats_sum (Cert.Spec.band X (peer c j)) b k

/-- Rows 2–3 of the summed scratch: the whole sums of squares. -/
theorem slots_sq (X : Cert.Spec.Whole) (c : Dev nD) (h : S8x4x64.Reduces [0] S4x64)
    (hφ : FKind.Formats .f32) (hacc : (0x00000000#32 : BitVec 32) = FKind.add.neutral .f32 hφ) (b : Fin 2) (k : Fin 64) :
    multiReduction (F := Ideal) .add [0] S4x64 (gathered (F := Ideal) (bands X) c) 0x00000000#32 h hφ hacc (ix2 (hi b) k)
      = ((∑ c' : Fin 8, Cert.Spec.bandSq (Cert.Spec.band X c') b k : ℝ) : EReal) := by
  refine (slots_apply (bands X) c h hφ hacc (hi b) k).trans ?_
  rw [← Cert.Spec.sum_ring c (fun c' => Cert.Spec.bandSq (Cert.Spec.band X c') b k), coe_sum]
  exact Finset.sum_congr rfl fun j _ => stats_sq (Cert.Spec.band X (peer c j)) b k

/-! ## The layout operations of the last payload, read at an index -/

section Layout
variable {α : Type}

/-- Rows 0–1 of the four rows. -/
theorem slice_lo (X : S4x64.Idx → α) (h : S4x64.Slices ![0, 0] S2x64) (b : Fin 2) (k : Fin 64) :
    extractStridedSlice S2x64 ![0, 0] X h (ix2 b k) = X (ix2 (lo b) k) :=
  slice2_axis0_apply 0 X h b k (lo b) (Nat.zero_add _).symm

/-- Rows 2–3 of the four rows. -/
theorem slice_hi (X : S4x64.Idx → α) (h : S4x64.Slices ![2, 0] S2x64) (b : Fin 2) (k : Fin 64) :
    extractStridedSlice S2x64 ![2, 0] X h (ix2 b k) = X (ix2 (hi b) k) :=
  slice2_axis0_apply 2 X h b k (hi b) rfl

/-- A per-(image, channel) value spread over every row and column reads, anywhere, its value at (image, channel). -/
theorem spread_apply (v : S2x64.Idx → α) (h1 : S2x64.ShapeCasts S2x1x1x64) (h2 : S2x1x1x64.Broadcasts S2x128x128x64)
    (b : Fin 2) (h : Fin 128) (w : Fin 128) (k : Fin 64) :
    broadcastTo S2x128x128x64 (shapeCast S2x1x1x64 v h1) h2 (ix4 b h w k) = v (ix2 b k) := by
  refine (broadcastTo_apply _ h2 (ix4 b h w k) (ix4 b (0 : Fin 1) (0 : Fin 1) k) fun a => ?_).trans ?_
  · match a with
    | ⟨0, _⟩ => rfl
    | ⟨1, _⟩ => rfl
    | ⟨2, _⟩ => rfl
    | ⟨3, _⟩ => rfl
  · refine shapeCast_apply v h1 _ (ix2 b k) ?_
    rw [Shape.rowMajor_val_two, Shape.rowMajor_val_four]
    show b.val * 64 + k.val = ((b.val * 1 + 0) * 1 + 0) * 64 + k.val
    omega

/-- The flat position of (image `b`, row `h`, column `w`) among the 2 · 128 · 128 positions. -/
abbrev flat (b : Fin 2) (h : Fin 128) (w : Fin 128) : Fin 32768 :=
  ⟨(b.val * 128 + h.val) * 128 + w.val, by have := b.isLt; have := h.isLt; have := w.isLt; omega⟩

/-- The positions flattened: row `flat b h w` of the `[32768, 64]` matrix is position `(b, h, w)`. -/
theorem flatten_apply (v : S2x128x128x64.Idx → α) (hc : S2x128x128x64.ShapeCasts S32768x64)
    (b : Fin 2) (h : Fin 128) (w : Fin 128) (k : Fin 64) :
    shapeCast S32768x64 v hc (ix2 (flat b h w) k) = v (ix4 b h w k) := by
  refine shapeCast_apply v hc _ (ix4 b h w k) ?_
  rw [Shape.rowMajor_val_two, Shape.rowMajor_val_four]
  rfl

/-- The rows laid out again: position `(b, h, w)` is row `flat b h w` of the `[32768, 128]` matrix. -/
theorem unflatten_apply (v : S32768x128.Idx → α) (hc : S32768x128.ShapeCasts S2x128x128x128)
    (b : Fin 2) (h : Fin 128) (w : Fin 128) (n : Fin 128) :
    shapeCast S2x128x128x128 v hc (ix4 b h w n) = v (ix2 (flat b h w) n) := by
  refine shapeCast_apply v hc _ (ix2 (flat b h w) n) ?_
  rw [Shape.rowMajor_val_two, Shape.rowMajor_val_four]
  rfl

end Layout

/-! ## The product with the mixing matrix -/

/-- The product contracts one axis … -/
theorem dot_rank : dot_S32768x64_S64x128_S32768x128_1_0_0_1_n_n.contr.rank = 1 := rfl
/-- … the 64 channels. -/
theorem dot_size : dot_S32768x64_S64x128_S32768x128_1_0_0_1_n_n.contr.size ⟨0, by rw [dot_rank]; exact Nat.one_pos⟩ = 64 := rfl

/-- The left operand is read at the result's row … -/
theorem lhs_dot_0 (j : S32768x128.Idx) (q : dot_S32768x64_S64x128_S32768x128_1_0_0_1_n_n.contr.Idx) :
    (dot_S32768x64_S64x128_S32768x128_1_0_0_1_n_n.lhsIdx j q 0).val = (j 0).val := rfl
/-- … and the contracted channel; -/
theorem lhs_dot_1 (j : S32768x128.Idx) (q : dot_S32768x64_S64x128_S32768x128_1_0_0_1_n_n.contr.Idx) :
    (dot_S32768x64_S64x128_S32768x128_1_0_0_1_n_n.lhsIdx j q 1).val = (q ⟨0, by rw [dot_rank]; exact Nat.one_pos⟩).val :=
  DotDims.lhsIdx_val_of_single _ rfl j q
/-- the right operand at the contracted channel … -/
theorem rhs_dot_0 (j : S32768x128.Idx) (q : dot_S32768x64_S64x128_S32768x128_1_0_0_1_n_n.contr.Idx) :
    (dot_S32768x64_S64x128_S32768x128_1_0_0_1_n_n.rhsIdx j q 0).val = (q ⟨0, by rw [dot_rank]; exact Nat.one_pos⟩).val :=
  DotDims.rhsIdx_val_of_single _ rfl j q
/-- … and the result's column. -/
theorem rhs_dot_1 (j : S32768x128.Idx) (q : dot_S32768x64_S64x128_S32768x128_1_0_0_1_n_n.contr.Idx) :
    (dot_S32768x64_S64x128_S32768x128_1_0_0_1_n_n.rhsIdx j q 1).val = (j 1).val := rfl

/-- The product into a zero accumulator, at row `p` and column `n`: the sum over the 64 channels. -/
theorem mix_apply (lhs : FVec Ideal S32768x64 .bf16) (rhs : FVec Ideal S64x128 .bf16) (p : Fin 32768) (n : Fin 128) :
    matmul (F := Ideal) dot_S32768x64_S64x128_S32768x128_1_0_0_1_n_n none lhs rhs
        (constant (F := Ideal) S32768x128 .f32 0x00000000#32) (ix2 p n)
      = ∑ k : Fin 64, lhs (ix2 p k) * rhs (ix2 k n) := by
  refine (Ideal.matmul_constant_zero_apply dot_S32768x64_S64x128_S32768x128_1_0_0_1_n_n none lhs rhs (ix2 p n)).trans ?_
  refine (Equiv.sum_comp (contrEquiv1 dot_S32768x64_S64x128_S32768x128_1_0_0_1_n_n 64 dot_rank dot_size).symm _).symm.trans ?_
  refine Finset.sum_congr rfl fun k _ => ?_
  have hk := contrEquiv1_symm_val dot_S32768x64_S64x128_S32768x128_1_0_0_1_n_n 64 dot_rank dot_size k
  have el : dot_S32768x64_S64x128_S32768x128_1_0_0_1_n_n.lhsIdx (ix2 p n)
      ((contrEquiv1 dot_S32768x64_S64x128_S32768x128_1_0_0_1_n_n 64 dot_rank dot_size).symm k) = ix2 p k := by
    funext a
    refine Fin.ext ?_
    match a with
    | ⟨0, _⟩ => exact lhs_dot_0 _ _
    | ⟨1, _⟩ => exact (lhs_dot_1 _ _).trans hk
  have er : dot_S32768x64_S64x128_S32768x128_1_0_0_1_n_n.rhsIdx (ix2 p n)
      ((contrEquiv1 dot_S32768x64_S64x128_S32768x128_1_0_0_1_n_n 64 dot_rank dot_size).symm k) = ix2 k n := by
    funext a
    refine Fin.ext ?_
    match a with
    | ⟨0, _⟩ => exact (rhs_dot_0 _ _).trans hk
    | ⟨1, _⟩ => exact rhs_dot_1 _ _
  rw [el, er]

/-! ## The last payload, read at an index -/

/-- The mean the payload takes from the summed scratch `S`: rows 0–1 over the count. -/
def kMean (S : S4x64.Idx → EReal) (b : Fin 2) (k : Fin 64) : EReal :=
  Ideal.div (S (ix2 (lo b) k)) (Ideal.ofBits .f32 0x48000000#32)

/-- The reciprocal root it takes: of rows 2–3 over the count, less the mean squared, plus the offset. -/
def kRstd (S : S4x64.Idx → EReal) (b : Fin 2) (k : Fin 64) : EReal :=
  Ideal.rsqrt (Ideal.div (S (ix2 (hi b) k)) (Ideal.ofBits .f32 0x48000000#32) - kMean S b k * kMean S b k
    + Ideal.ofBits .f32 0x3727C5AC#32)

/-- An entry of the band centred and scaled by them. -/
def kNorm (v : S2x128x128x64.Idx → EReal) (S : S4x64.Idx → EReal) (b : Fin 2) (h w : Fin 128) (k : Fin 64) : EReal :=
  (v (ix4 b h w k) - kMean S b k) * kRstd S b k

/-- The row of means, read at (image, channel). -/
theorem mean_apply (S : S4x64.Idx → EReal) (hs : S4x64.Slices ![0, 0] S2x64) (b : Fin 2) (k : Fin 64) :
    divf (F := Ideal) (φ := .f32) (extractStridedSlice S2x64 ![0, 0] S hs)
        (broadcast S2x64 (Scalar.ofBits (F := Ideal) .f32 0x48000000#32)) (ix2 b k) = kMean S b k := by
  show Ideal.div (extractStridedSlice S2x64 ![0, 0] S hs (ix2 b k)) _ = _
  rw [slice_lo]
  rfl

/-- The row of reciprocal roots, read at (image, channel). -/
theorem rstd_apply (S : S4x64.Idx → EReal) (hs0 : S4x64.Slices ![0, 0] S2x64) (hs2 : S4x64.Slices ![2, 0] S2x64)
    (b : Fin 2) (k : Fin 64) :
    rsqrt (F := Ideal) (φ := .f32)
      (addf
        (subf
          (divf (extractStridedSlice S2x64 ![2, 0] S hs2) (broadcast S2x64 (Scalar.ofBits (F := Ideal) .f32 0x48000000#32)))
          (mulf
            (divf (extractStridedSlice S2x64 ![0, 0] S hs0) (broadcast S2x64 (Scalar.ofBits (F := Ideal) .f32 0x48000000#32)))
            (divf (extractStridedSlice S2x64 ![0, 0] S hs0) (broadcast S2x64 (Scalar.ofBits (F := Ideal) .f32 0x48000000#32)))))
        (broadcast S2x64 (Scalar.ofBits (F := Ideal) .f32 0x3727C5AC#32))) (ix2 b k) = kRstd S b k := by
  show Ideal.rsqrt (Ideal.div (extractStridedSlice S2x64 ![2, 0] S hs2 (ix2 b k)) _
      - Ideal.div (extractStridedSlice S2x64 ![0, 0] S hs0 (ix2 b k)) _
          * Ideal.div (extractStridedSlice S2x64 ![0, 0] S hs0 (ix2 b k)) _ + _) = _
  rw [slice_lo, slice_hi]
  rfl

/-- Narrowing the format is the identity on extended reals. -/
theorem narrow_apply {s : Shape} (a : s.Idx → EReal) (hlt : FTy.bits .bf16 < FTy.bits .f32) (i : s.Idx) :
    truncf (F := Ideal) (φ := .f32) .bf16 a hlt i = a i := rfl

/-- The centring, the scaling and the activation are entry by entry. -/
theorem act_apply (v m r : S2x128x128x64.Idx → EReal) (i : S2x128x128x64.Idx) :
    mulf (F := Ideal) (φ := .f32) (mulf (subf v m) r) (logistic (mulf (subf v m) r)) i
      = ((v i - m i) * r i) * Ideal.logistic ((v i - m i) * r i) := rfl

/-- The payload at position `(b, h, w)` and output channel `n`: the sum over the channels of the normalised entry times
    its logistic times the matrix entry, the statistics taken from the scratch's eight slots summed. -/
theorem pay3_apply (v96 : S2x128x128x64.Idx → EReal) (v307 : S8x4x64.Idx → EReal) (wp : S64x128.Idx → EReal)
    (hr : S8x4x64.Reduces [0] S4x64) (hφ : FKind.Formats .f32)
    (hacc : (0x00000000#32 : BitVec 32) = FKind.add.neutral .f32 hφ) (b : Fin 2) (h w n : Fin 128) :
    k0_pay3 (F := Ideal) v96 v307 wp (ix4 b h w n)
      = ∑ k : Fin 64,
          kNorm v96 (multiReduction (F := Ideal) .add [0] S4x64 v307 0x00000000#32 hr hφ hacc) b h w k
            * Ideal.logistic (kNorm v96 (multiReduction (F := Ideal) .add [0] S4x64 v307 0x00000000#32 hr hφ hacc) b h w k)
            * wp (ix2 k n) := by
  unfold k0_pay3 kNorm
  refine (narrow_apply _ _ (ix4 b h w n)).trans ?_
  refine (unflatten_apply _ _ b h w n).trans ?_
  refine (mix_apply _ _ (flat b h w) n).trans ?_
  refine Finset.sum_congr rfl fun k _ => ?_
  refine congrArg₂ (· * ·) ?_ ((narrow_apply _ _ (ix2 k n)).trans (congrFun (shapeCast_self wp _) (ix2 k n)))
  refine (narrow_apply _ _ (ix2 (flat b h w) k)).trans ?_
  refine (flatten_apply _ _ b h w k).trans ?_
  refine (act_apply _ _ _ (ix4 b h w k)).trans ?_
  refine congrArg (fun y : EReal => y * Ideal.logistic y) ?_
  refine congrArg₂ (fun m r : EReal => (v96 (ix4 b h w k) - m) * r) ?_ ?_
  · exact (spread_apply _ _ _ b h w k).trans (mean_apply _ _ b k)
  · exact (spread_apply _ _ _ b h w k).trans (rstd_apply _ _ _ b k)

/-! ## The statistics and the activation, over the reals -/

/-- A real over the count's word is the real quotient. -/
theorem div_cnt (s : ℝ) :
    Ideal.div (s : EReal) (Ideal.ofBits .f32 0x48000000#32) = ((s / Cert.Spec.cnt : ℝ) : EReal) := by
  rw [Cert.Consts.cnt_spec, Ideal.div_coe Cert.Spec.cnt_pos.ne', ← EReal.coe_mul, mul_one_div]

/-- Over a real sum in rows 0–1 the payload's mean is the real quotient. -/
theorem kMean_coe (S : S4x64.Idx → EReal) (b : Fin 2) (k : Fin 64) (s : ℝ) (hlo : S (ix2 (lo b) k) = (s : EReal)) :
    kMean S b k = ((s / Cert.Spec.cnt : ℝ) : EReal) := by
  unfold kMean
  rw [hlo, div_cnt]

/-- Over real sums, and a positive variance plus offset, the payload's reciprocal root is the real one. -/
theorem kRstd_coe (S : S4x64.Idx → EReal) (b : Fin 2) (k : Fin 64) (s q : ℝ) (hlo : S (ix2 (lo b) k) = (s : EReal))
    (hhi : S (ix2 (hi b) k) = (q : EReal))
    (hpos : 0 < q / Cert.Spec.cnt - s / Cert.Spec.cnt * (s / Cert.Spec.cnt) + Cert.Spec.eps) :
    kRstd S b k
      = (((Real.sqrt (q / Cert.Spec.cnt - s / Cert.Spec.cnt * (s / Cert.Spec.cnt) + Cert.Spec.eps))⁻¹ : ℝ) : EReal) := by
  unfold kRstd
  rw [kMean_coe S b k s hlo, hhi, div_cnt, Cert.Consts.eps_spec, ← EReal.coe_mul, ← EReal.coe_sub, ← EReal.coe_add,
    Ideal.rsqrt_coe, if_neg (not_lt.2 hpos.le), if_neg hpos.ne']

/-- One term of the product: over the whole sums in the scratch, the normalised entry of the band times its logistic
    times the matrix entry is the real activation times the matrix entry. -/
theorem summand_coe (X : Cert.Spec.Whole) (W : Cert.Spec.Mix) (c : Dev nD) (b : Fin 2) (h w n : Fin 128) (k : Fin 64)
    (S : S4x64.Idx → EReal)
    (hlo : S (ix2 (lo b) k) = ((∑ c' : Fin 8, Cert.Spec.bandSum (Cert.Spec.band X c') b k : ℝ) : EReal))
    (hhi : S (ix2 (hi b) k) = ((∑ c' : Fin 8, Cert.Spec.bandSq (Cert.Spec.band X c') b k : ℝ) : EReal)) :
    kNorm (bands X c) S b h w k * Ideal.logistic (kNorm (bands X c) S b h w k) * ((W k n : ℝ) : EReal)
      = ((Cert.Spec.act X b (Cert.Spec.row c h) w k * W k n : ℝ) : EReal) := by
  have hpos : 0 < Cert.Spec.var X b k + Cert.Spec.eps :=
    add_pos_of_nonneg_of_pos (Cert.Spec.var_nonneg X b k) Cert.Consts.eps_pos
  have hm := kMean_coe S b k _ hlo
  rw [← Cert.Spec.mean_bands] at hm
  have hr := kRstd_coe S b k _ _ hlo hhi (by rw [← Cert.Spec.mean_bands, ← Cert.Spec.var_bands]; exact hpos)
  rw [← Cert.Spec.mean_bands, ← Cert.Spec.var_bands] at hr
  have hn : kNorm (bands X c) S b h w k = ((Cert.Spec.normed X b (Cert.Spec.row c h) w k : ℝ) : EReal) := by
    unfold kNorm
    rw [hm, hr]
    show (((X b (Cert.Spec.row c h) w k : ℝ) : EReal) - _) * _ = _
    rw [← EReal.coe_sub, ← EReal.coe_mul]
    unfold Cert.Spec.normed
    rw [div_eq_mul_inv]
  rw [hn, Ideal.logistic_coe, ← EReal.coe_mul, ← EReal.coe_mul]
  unfold Cert.Spec.act
  rw [div_eq_mul_inv]

/-! ## The kernel's result -/

/-- Device `c`'s result at `(b, h, w, n)` is the function's value at row `128 · c + h` of the whole. -/
theorem kout_apply (X : Cert.Spec.Whole) (W : Cert.Spec.Mix) (c : Dev nD) (b : Fin 2) (h : Fin 128) (w : Fin 128) (n : Fin 128) :
    kout (F := Ideal) (fun c' i => ((Cert.Spec.band X c' (i 0) (i 1) (i 2) (i 3) : ℝ) : EReal))
        (fun i => ((W (i 0) (i 1) : ℝ) : EReal)) c (ix4 b h w n)
      = ((Cert.Spec.out X W b (Cert.Spec.row c h) w n : ℝ) : EReal) := by
  show k0_pay3 (F := Ideal) (k0_pay1 (F := Ideal) (bands X c)) (gathered (F := Ideal) (bands X) c)
      (fun i => ((W (i 0) (i 1) : ℝ) : EReal)) (ix4 b h w n) = _
  rw [pay1_eq]
  refine (pay3_apply _ _ _ reduces_S8x4x64_S4x64 (.inl rfl) rfl b h w n).trans ?_
  unfold Cert.Spec.out
  rw [coe_sum]
  refine Finset.sum_congr rfl fun k _ => ?_
  exact summand_coe X W c b h w n k _ (slots_sum X c reduces_S8x4x64_S4x64 (.inl rfl) rfl b k)
    (slots_sq X c reduces_S8x4x64_S4x64 (.inl rfl) rfl b k)

end Cert.KernelIdeal.KSpec

end
-- ==== Proof.Bridge.lean ====
/-
  From the claim's hypotheses to the value equation.

  The precondition says that on every device the conjunction, over all entries of both inputs, of "the absolute value
  is strictly below +∞" is true; so every input entry is a real number. The agreement hypothesis says device `c`'s
  first input is block `c` (rows `128 · c` to `128 · c + 127`) of the reference's whole input and its second input
  is the reference's matrix. Hence the whole input and the matrix are arrays of reals `X` and `W`, device `c`'s band is
  the band `c` of `X`, and the two per-entry value theorems (each device's result at row `h` is the specification's
  output at row `128 · c + h`; the reference's result is the specification's output) make the device's result equal to
  block `c` of the reference's result.
-/
import proofs.«900776_g7700000000000777_dist_diff_noisepred_hshard_i_b2_h128_w128_c64_v7x_i8_bf16_1_alg».proof.Defs
import proofs.«900776_g7700000000000777_dist_diff_noisepred_hshard_i_b2_h128_w128_c64_v7x_i8_bf16_1_alg».proof.Proof.Spec
import proofs.«900776_g7700000000000777_dist_diff_noisepred_hshard_i_b2_h128_w128_c64_v7x_i8_bf16_1_alg».proof.Proof.KSpec
import proofs.«900776_g7700000000000777_dist_diff_noisepred_hshard_i_b2_h128_w128_c64_v7x_i8_bf16_1_alg».proof.Proof.RefTerm
import proofs.«900776_g7700000000000777_dist_diff_noisepred_hshard_i_b2_h128_w128_c64_v7x_i8_bf16_1_alg».proof.Proof.RefValue
import proofs.«900776_g7700000000000777_dist_diff_noisepred_hshard_i_b2_h128_w128_c64_v7x_i8_bf16_1_alg».proof.Proof.KValue
import proofs.«900776_g7700000000000777_dist_diff_noisepred_hshard_i_b2_h128_w128_c64_v7x_i8_bf16_1_alg».proof.Proof.Gen.KernelIdeal
import proofs.«900776_g7700000000000777_dist_diff_noisepred_hshard_i_b2_h128_w128_c64_v7x_i8_bf16_1_alg».proof.Proof.Gen.ReferenceIdeal
import proofs.«900776_g7700000000000777_dist_diff_noisepred_hshard_i_b2_h128_w128_c64_v7x_i8_bf16_1_alg».proof.Proof.Gen.Pre_finite_inputs_Kernel
import Idealize.ShloMosaic.Lib.Layout
import Idealize.ShloMosaic.Lib.ValueIdx
import Idealize.ShloMosaic.Lib.ReduceAll
import Idealize.ShloMosaic.Lib.Pipeline.Value
import Idealize.ShloMosaic.PureOps.Ideal

noncomputable section

open Idealize.ShloMosaic Idealize.ShloMosaic.ValueIdx Idealize.SL.Sem

namespace Cert.Bridge

/-- The scalar shape has exactly one index. -/
instance : Subsingleton (⟨0, ![]⟩ : Shape).Idx := ⟨fun a b => funext fun d => d.elim0⟩

/-- The single-precision word `0x7F800000` denotes `+∞`. -/
theorem inf_word : Ideal.ofBits .f32 0x7F800000#32 = (⊤ : EReal) := by
  simp [Ideal.ofBits, Ideal.ieee]

/-- An extended real whose absolute value `max x (-x)` is strictly below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- If "every entry's absolute value is below `+∞`", reduced by conjunction over all axes to one bit, is true,
then every entry is a real number. -/
theorem finite_of_all {s : Shape} {axes : List (Fin s.rank)} (x : FVec Ideal s .f32)
    (hb : (⟨0, ![]⟩ : Shape).BroadcastsInDim s (![] : Fin 0 → Fin s.rank)) (init : IVec (⟨0, ![]⟩ : Shape) 1)
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          init hr hu ix0 = 1#1)
    (i : s.Idx) : ∃ r : ℝ, x i = (r : EReal) := by
  have hi := Host.reduce_andi_all _ init hr hu ix0 e i
  rw [cmpf_apply, broadcastInDim_apply ![] hb _ i ix0 (fun a => a.elim0), constant_apply, inf_word] at hi
  apply real_of_abs_lt_top
  show max (x i) (-(x i)) < ⊤
  by_contra hn
  have : FloatOps.cmpf (F := Ideal) .olt (Host.absf x i) ⊤ = 0#1 := by
    show BitVec.ofBool (decide (max (x i) (-(x i)) < ⊤)) = 0#1
    rw [decide_eq_false hn]; rfl
  rw [this] at hi
  exact absurd hi (by decide)

/-- Where entry (b, h, w, k) of band `c` lies in the whole array: at row `128 · c + h`, the other coordinates
unchanged. -/
theorem idx_band {n3 : Nat} (ht : Layout.Tiles ⟨4, ![2, 128, 128, n3]⟩ ⟨4, ![2, 1024, 128, n3]⟩ 1 8)
    (c : Fin 8) (b : Fin 2) (h : Fin 128) (w : Fin 128) (k : Fin n3) :
    ht.idx c (ix4 b h w k) = ix4 b (Cert.Spec.row c h) w k := by
  funext d
  match d with
  | ⟨0, _⟩ => exact Fin.ext rfl
  | ⟨1, _⟩ =>
    apply Fin.ext
    show c.val * 128 + h.val = 128 * c.val + h.val
    omega
  | ⟨2, _⟩ => exact Fin.ext rfl
  | ⟨3, _⟩ => exact Fin.ext rfl

/-- Every entry of the whole array lies in exactly one band: the band is the row's quotient by 128, the row within
the band its remainder. -/
theorem whole_idx {n3 : Nat} (ht : Layout.Tiles ⟨4, ![2, 128, 128, n3]⟩ ⟨4, ![2, 1024, 128, n3]⟩ 1 8)
    (i : (⟨4, ![2, 1024, 128, n3]⟩ : Shape).Idx) :
    ∃ (c : Fin 8) (j : (⟨4, ![2, 128, 128, n3]⟩ : Shape).Idx), i = ht.idx c j := by
  have h1 : (i 1).val < 1024 := (i 1).isLt
  refine ⟨⟨(i 1).val / 128, by omega⟩, ix4 (i 0) ⟨(i 1).val % 128, Nat.mod_lt _ (by decide)⟩ (i 2) (i 3), ?_⟩
  have hrow : (i 1 : Fin 1024) = Cert.Spec.row ⟨(i 1).val / 128, by omega⟩ ⟨(i 1).val % 128, Nat.mod_lt _ (by decide)⟩ := by
    apply Fin.ext
    show (i 1).val = 128 * ((i 1).val / 128) + (i 1).val % 128
    omega
  refine ((eq_ix4 i).trans ?_).trans (idx_band ht _ _ _ _ _).symm
  exact congrArg (fun r : Fin 1024 => ix4 (i 0) r (i 2) (i 3)) hrow

/-- The value equation on arrays of reals cut into bands: if every device's band is its block of a whole array,
and all entries of the bands and of the matrix are real numbers, then each device's result is its block of the
reference's result. -/
theorem block_eq_of_finite
    (A : Dev Cert.KernelIdeal.nD → Vec Ideal Cert.KernelIdeal.S2x128x128x64 .f32)
    (B : Vec Ideal Cert.KernelIdeal.S64x128 .f32)
    (A' : FVec Ideal Cert.ReferenceIdeal.S2x1024x128x64 .f32)
    (hA : ∀ c, A c = Layout.block ⟨4, ![2, 128, 128, 64]⟩ ⟨4, ![2, 1024, 128, 64]⟩ 1 8 c A')
    (hfA : ∀ c i, ∃ r : ℝ, A c i = (r : EReal)) (hfB : ∀ i, ∃ r : ℝ, B i = (r : EReal))
    (c : Dev Cert.KernelIdeal.nD) :
    Cert.KernelIdeal.KSpec.kout (F := Ideal) A B c
      = Layout.block ⟨4, ![2, 128, 128, 128]⟩ ⟨4, ![2, 1024, 128, 128]⟩ 1 8 c
          (Cert.ReferenceIdeal.RefValue.refOut (F := Ideal) A' B) := by
  -- the whole input and the matrix are arrays of reals
  obtain ⟨X, rfl⟩ : ∃ X : Cert.Spec.Whole, A' = fun i => ((X (i 0) (i 1) (i 2) (i 3) : ℝ) : EReal) := by
    refine ⟨fun b h w k => (A' (ix4 b h w k)).toReal, funext fun i => ?_⟩
    obtain ⟨c', j, hij⟩ := whole_idx (by decide) i
    obtain ⟨r, hr⟩ := hfA c' j
    rw [hA c', Layout.block_apply, ← hij] at hr
    have h2 : A' (ix4 (i 0) (i 1) (i 2) (i 3)) = (r : EReal) := (congrArg A' (eq_ix4 i)).symm.trans hr
    show A' i = (((A' (ix4 (i 0) (i 1) (i 2) (i 3))).toReal : ℝ) : EReal)
    rw [h2, hr, EReal.toReal_coe]
  obtain ⟨W, rfl⟩ : ∃ W : Cert.Spec.Mix, B = fun i => ((W (i 0) (i 1) : ℝ) : EReal) := by
    refine ⟨fun k n => (B (ix2 k n)).toReal, funext fun i => ?_⟩
    obtain ⟨r, hr⟩ := hfB i
    have h2 : B (ix2 (i 0) (i 1)) = (r : EReal) := (congrArg B (eq_ix2 i)).symm.trans hr
    show B i = (((B (ix2 (i 0) (i 1))).toReal : ℝ) : EReal)
    rw [h2, hr, EReal.toReal_coe]
  -- each device's band is the band of the whole
  obtain rfl : A = fun c' i => ((Cert.Spec.band X c' (i 0) (i 1) (i 2) (i 3) : ℝ) : EReal) := by
    funext c' i
    rw [hA c', Layout.block_apply]
    obtain ⟨b, h, w, k, rfl⟩ : ∃ b h w k, i = ix4 b h w k := ⟨_, _, _, _, eq_ix4 i⟩
    rw [idx_band]
    rfl
  funext j
  obtain ⟨b, h, w, n, rfl⟩ : ∃ b h w n, j = ix4 b h w n := ⟨_, _, _, _, eq_ix4 j⟩
  rw [Cert.KernelIdeal.KSpec.kout_apply, Layout.block_apply, idx_band, Cert.ReferenceIdeal.RefValue.refOut_apply]

/-- From the claim's hypotheses to the value equation: the precondition makes every input entry of every device a
real number, the agreement hypothesis makes each device's band its block of the reference's whole input and the
matrix a copy, and so each device's result is its block of the reference's result. -/
theorem block_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨4, ![2, 128, 128, 64]⟩ ⟨4, ![2, 1024, 128, 64]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev Cert.KernelIdeal.nD) :
    Cert.KernelIdeal.KSpec.kout (F := Ideal)
        (fun c' => m ((c'.tc : Thread Cert.KernelIdeal.nD Cert.KernelIdeal.τ).loc Cert.KernelIdeal.main_arg0))
        (m ((c.tc : Thread Cert.KernelIdeal.nD Cert.KernelIdeal.τ).loc Cert.KernelIdeal.main_arg1)) c
      = Layout.block ⟨4, ![2, 128, 128, 128]⟩ ⟨4, ![2, 1024, 128, 128]⟩ 1 8 c
          (Cert.ReferenceIdeal.RefValue.refOut (F := Ideal)
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) := by
  -- the precondition, one device at a time: both conjuncts of the printed predicate hold
  have hfin : ∀ c' : Dev Cert.KernelIdeal.nD,
      (∀ i, ∃ r : ℝ, m ((c'.tc : Thread Cert.KernelIdeal.nD Cert.KernelIdeal.τ).loc Cert.KernelIdeal.main_arg0) i = (r : EReal))
      ∧ (∀ i, ∃ r : ℝ, m ((c'.tc : Thread Cert.KernelIdeal.nD Cert.KernelIdeal.τ).loc Cert.KernelIdeal.main_arg1) i = (r : EReal)) := by
    intro c'
    have h1 := congrFun (hpre c') ValueIdx.ix0
    dsimp only [Cert.Pre_finite_inputs_Kernel.fn] at h1
    obtain ⟨e0, e1⟩ := IntOp.andi_eq_one.1 h1
    exact ⟨fun i => finite_of_all _ _ _ _ _ e0 i, fun i => finite_of_all _ _ _ _ _ e1 i⟩
  rw [← (hagree c).2]
  exact block_eq_of_finite _ _ _ (fun c' => (hagree c').1) (fun c' => (hfin c').1) (hfin c).2 c

end Cert.Bridge

end
-- ==== Proof.KProto.lean ====
/-
  The exchange of statistics among the eight devices, as a protocol.

  Every device `c` first tells each of the seven others, on that device's barrier semaphore, that it is inside the
  kernel; the signal it sends to the device `i + 1` places before it grants that device the slot of `c`'s scratch the
  device will write. It then stores its own statistics in slot 0, waits for the seven signals addressed to it, and
  copies slot 0 into one slot of each of the seven others: to the device `i + 1` places after it, into that device's
  slot `7 - i`, crediting its own send semaphore `i + 1` and the target's receive semaphore `7 - i`. It waits for the
  seven copies addressed to it (slot `i + 1` from the device `i + 1` places after it), reads all eight slots, computes,
  and last waits for its own seven copies to have left.
-/
import proofs.«900776_g7700000000000777_dist_diff_noisepred_hshard_i_b2_h128_w128_c64_v7x_i8_bf16_1_alg».proof.Proof.KSpec
import proofs.«900776_g7700000000000777_dist_diff_noisepred_hshard_i_b2_h128_w128_c64_v7x_i8_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.KProto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

/-! ## The ring of eight -/

/-- The device `i + 1` places after `c`. -/
def pr (c : Dev nD) (i : Fin 7) : Dev nD := ⟨(c.val + i.val + 1) % 8, Nat.mod_lt _ (by decide)⟩
/-- Seven offsets mirrored: `i + 1` places one way is `7 - i` places the other. -/
def rev (i : Fin 7) : Fin 7 := ⟨6 - i.val, by omega⟩
/-- The device `i + 1` places before `c`. -/
def pl (c : Dev nD) (i : Fin 7) : Dev nD := pr c (rev i)

theorem rev_rev (i : Fin 7) : rev (rev i) = i := by revert i; decide
theorem pl_pr (c : Dev nD) (i : Fin 7) : pl (pr c i) i = c := by revert c i; decide
theorem pr_pl (c : Dev nD) (i : Fin 7) : pr (pl c i) i = c := by revert c i; decide
theorem pr_ne (c : Dev nD) (i : Fin 7) : pr c i ≠ c := by revert c i; decide
theorem pr_inj (c : Dev nD) (i j : Fin 7) (h : pr c i = pr c j) : i = j := by revert c i j; decide
theorem pr_eq_peer (c : Dev nD) (i : Fin 7) : pr c i = peer c ⟨i.val + 1, by omega⟩ := by revert c i; decide

/-- The kernel's `device_id` chains: the k-th signal and the k-th copy both name the device `k` places after. -/
theorem dev1_eq (c : Dev nD) : (⟨k0_dev1 c, k0_dev1_lt c⟩ : Dev nD) = pr c 0 := by revert c; decide +kernel
theorem dev2_eq (c : Dev nD) : (⟨k0_dev2 c, k0_dev2_lt c⟩ : Dev nD) = pr c 1 := by revert c; decide +kernel
theorem dev3_eq (c : Dev nD) : (⟨k0_dev3 c, k0_dev3_lt c⟩ : Dev nD) = pr c 2 := by revert c; decide +kernel
theorem dev4_eq (c : Dev nD) : (⟨k0_dev4 c, k0_dev4_lt c⟩ : Dev nD) = pr c 3 := by revert c; decide +kernel
theorem dev5_eq (c : Dev nD) : (⟨k0_dev5 c, k0_dev5_lt c⟩ : Dev nD) = pr c 4 := by revert c; decide +kernel
theorem dev6_eq (c : Dev nD) : (⟨k0_dev6 c, k0_dev6_lt c⟩ : Dev nD) = pr c 5 := by revert c; decide +kernel
theorem dev7_eq (c : Dev nD) : (⟨k0_dev7 c, k0_dev7_lt c⟩ : Dev nD) = pr c 6 := by revert c; decide +kernel
theorem dev8_eq (c : Dev nD) : (⟨k0_dev8 c, k0_dev8_lt c⟩ : Dev nD) = pr c 0 := by revert c; decide +kernel
theorem dev9_eq (c : Dev nD) : (⟨k0_dev9 c, k0_dev9_lt c⟩ : Dev nD) = pr c 1 := by revert c; decide +kernel
theorem dev10_eq (c : Dev nD) : (⟨k0_dev10 c, k0_dev10_lt c⟩ : Dev nD) = pr c 2 := by revert c; decide +kernel
theorem dev11_eq (c : Dev nD) : (⟨k0_dev11 c, k0_dev11_lt c⟩ : Dev nD) = pr c 3 := by revert c; decide +kernel
theorem dev12_eq (c : Dev nD) : (⟨k0_dev12 c, k0_dev12_lt c⟩ : Dev nD) = pr c 4 := by revert c; decide +kernel
theorem dev13_eq (c : Dev nD) : (⟨k0_dev13 c, k0_dev13_lt c⟩ : Dev nD) = pr c 5 := by revert c; decide +kernel
theorem dev14_eq (c : Dev nD) : (⟨k0_dev14 c, k0_dev14_lt c⟩ : Dev nD) = pr c 6 := by revert c; decide +kernel

/-! ## The scratch, its slots, the semaphores -/

/-- The scratch of eight slots, each 4 rows (two sums, two sums of squares) by 64 channels. -/
abbrev scr : Memref sig .tc .vmem S8x4x64 .f32 := Memref.whole cc0_scratch0

theorem slot_inb (s : Fin 8) : ∀ a, (![s.val, 0, 0] : Fin 3 → Nat) a + S1x4x64.size a ≤ S8x4x64.size a := by
  revert s; decide
/-- Slot `s` of the scratch, as the body's copies address it. -/
abbrev slotM (s : Fin 8) : Memref sig .tc .vmem S4x64 .f32 :=
  (scr.slice (Rect.unit (s := S8x4x64) ![s.val, 0, 0] S1x4x64.size (slot_inb s)) (fun _ => rfl)).squeeze S4x64 squeezes_S1x4x64_S4x64

theorem sem_inb (k : Fin 8) : ∀ a, (![k.val] : Fin 1 → Nat) a + S1.size a ≤ S8.size a := by revert k; decide
/-- The runtime's barrier semaphore; the send semaphores 1–7 and the receive semaphores 1–7 of the scratch arrays. -/
abbrev barS : Sem sig := (SemArray.scalar (sig.barrier 0 rfl) : Sems sig S_).sem
abbrev sendS (i : Fin 7) : DmaSem sig :=
  ((cc0_scratch1.slice (Rect.unit (s := S8) ![i.val + 1] S1.size (sem_inb ⟨i.val + 1, by omega⟩))).squeeze S_ squeezes_S1_S_).sem
abbrev recvS (i : Fin 7) : DmaSem sig :=
  ((cc0_scratch2.slice (Rect.unit (s := S8) ![i.val + 1] S1.size (sem_inb ⟨i.val + 1, by omega⟩))).squeeze S_ squeezes_S1_S_).sem

abbrev barCell (c : Dev nD) : GSem nD τ sig := ((c : Thread nD τ), .reg barS)
abbrev sendCell (c : Dev nD) (i : Fin 7) : GSem nD τ sig := ((c : Thread nD τ), .dma (sendS i))
abbrev recvCell (c : Dev nD) (i : Fin 7) : GSem nD τ sig := ((c : Thread nD τ), .dma (recvS i))

/-- What one copy of a slot credits. -/
abbrev N : ℕ := (slotM 0).view.dmaCredit
theorem N_pos : 0 < N := View.dmaCredit_pos _ (by decide)

/-! ## The resource algebra: the pipeline library's copy and the exchange's (duties named by an offset 0–6) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Contents -/

/-- Device `c`'s band and its copy of the matrix, as the pipeline stages them. -/
def xstg (c : Dev nD) : (cc0_stg0_0 : Ref sig .tc).ty.Contents (Elt F) := iblk m c 0 t0_0
def wstg (c : Dev nD) : (cc0_stg1_0 : Ref sig .tc).ty.Contents (Elt F) := iblk m c 1 t0_0

/-- What device `c`'s scratch holds once the exchange is over: slot `j` the statistics of the device `j` places after. -/
def gath (c : Dev nD) : Buf (Elt F) ((c : Thread nD τ).loc cc0_scratch0) := gathered (fun c' => xstg m c') c

/-- Device `c`'s result block. -/
def outAt (c : Dev nD) : (cc0_stg2_0 : Ref sig .tc).ty.Contents (Elt F) := k0_pay3 (k0_pay1 (xstg m c)) (gath m c) (wstg m c)

/-- Slot `i + 1`. -/
def slotOf (i : Fin 7) : Fin 8 := ⟨i.val + 1, by omega⟩

/-- Slot `s` of device `c`'s scratch held at share `q` with the buffer's contents `f` there. -/
def slotPts (c : Dev nD) (s : Fin 8) (q : PosShare TreeShare) (f : Buf (Elt F) ((c : Thread nD τ).loc cc0_scratch0)) : sProp 𝕄 :=
  (slotM s).view.loc (c : Thread nD τ) ↦[(slotM s).view.set]{q} f

/-- Slot 0 is read by the seven copies and, while they are in flight, by the body's one read of the whole scratch: its
    full share is halved, the right half kept for that read, the left half cut into seven for the copies. -/
def remL : ℕ → PosShare TreeShare
  | 0 => fullShare.left
  | n + 1 => (remL n).right
/-- The share copy `i` reads slot 0 through. -/
def shS (i : Fin 7) : PosShare TreeShare := if i.val < 6 then (remL i.val).left else remL 6
/-- The share the body's read of the whole scratch goes through. -/
abbrev shR : PosShare TreeShare := fullShare.right
theorem full_split : fullShare ∈ fullShare.left ·? shR := PosShare.mem_left_op_right _
theorem remL_split (n : ℕ) : remL n ∈ (remL n).left ·? remL (n + 1) := PosShare.mem_left_op_right (remL n)

/-! ## The schedule -/

/-- Which copy a DMA semaphore of the scratch arrays serves: `(false, i)` send semaphore `i + 1`, `(true, i)` receive
    semaphore `i + 1`. -/
def xferIdx : SemLoc sig → Option (Bool × Fin 7)
  | .dma s => if h : 4 ≤ s.val ∧ s.val ≤ 10 then some (false, ⟨s.val - 4, by omega⟩)
      else if h : 12 ≤ s.val ∧ s.val ≤ 18 then some (true, ⟨s.val - 12, by omega⟩) else none
  | _ => none

theorem xferIdx_send (i : Fin 7) : xferIdx (.dma (sendS i)) = some (false, i) := by revert i; decide
theorem xferIdx_recv (i : Fin 7) : xferIdx (.dma (recvS i)) = some (true, i) := by revert i; decide
theorem xferIdx_bar : xferIdx (.reg barS) = none := rfl

/-- What the device `i + 1` places after `c` hands `c` with its entry signal: the slot of its scratch that `c` will
    write, and that it has reached round 0 of the receive cell that write credits. -/
def barPay (c : Dev nD) (i : Fin 7) : sProp 𝕄 :=
  iprop((∃ f, slotPts (pr c i) (slotOf (rev i)) fullShare f) ∗ reached ER (recvCell (pr c i) (rev i)) 0)
/-- A landed copy: slot `i + 1` holding the sender's statistics. -/
def recvPay (c : Dev nD) (i : Fin 7) : sProp 𝕄 := slotPts c (slotOf i) fullShare (gath m c)
/-- A departed copy: the share of slot 0 it read through. -/
def sendPay (c : Dev nD) (i : Fin 7) : sProp 𝕄 := slotPts c 0 (shS i) (gath m c)

abbrev IsBar (g : GSem nD τ sig) : Prop := g.1.2 = .tc ∧ g.2 = .reg barS
abbrev IsXfer (g : GSem nD τ sig) : Prop := g.1.2 = .tc ∧ (xferIdx g.2).isSome = true

/-- One round: a barrier cell has seven duties of one unit, one per other device; a send or receive cell one duty of a
    slot's credit. -/
def Rd : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match xferIdx g.2 with
      | some (true, i) => recvPay m g.1.1 i
      | some (false, i) => sendPay m g.1.1 i
      | none => iprop(emp)
  amount_pos g _ _ _ := by
    by_cases h : g.2 = .reg barS
    · rw [if_pos h]; exact Nat.one_pos
    · rw [if_neg h]; exact N_pos

/-! ## What each device owes at launch; the levels -/

/-- The units device `c` will pay: a slot's credit on the receive cell of each copy it makes, one unit on each other
    device's barrier cell. Listed so that the body's order peels them from the end: signals 1–7, then copies 1–7. -/
def owedList (c : Dev nD) : List (CellTallies nD τ sig Unit) :=
  [tallyAt (recvCell (pr c 6) (rev 6)) () N, tallyAt (recvCell (pr c 5) (rev 5)) () N, tallyAt (recvCell (pr c 4) (rev 4)) () N,
   tallyAt (recvCell (pr c 3) (rev 3)) () N, tallyAt (recvCell (pr c 2) (rev 2)) () N, tallyAt (recvCell (pr c 1) (rev 1)) () N,
   tallyAt (recvCell (pr c 0) (rev 0)) () N,
   tallyAt (barCell (pr c 6)) () 1, tallyAt (barCell (pr c 5)) () 1, tallyAt (barCell (pr c 4)) () 1, tallyAt (barCell (pr c 3)) () 1,
   tallyAt (barCell (pr c 2)) () 1, tallyAt (barCell (pr c 1)) () 1, tallyAt (barCell (pr c 0)) () 1]
/-- What is still owed when `n` of the fourteen remain. -/
def owedAt (c : Dev nD) (n : ℕ) : CellTallies nD τ sig Unit := ((owedList c).take n).foldl (· + ·) 0
def O₀ (c : Dev nD) : CellTallies nD τ sig Unit := owedAt c 14

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else match xferIdx g.2 with | some (true, _) => 2 | _ => 0

/-! ## The ghost state a device's body starts from -/

variable (K : GSem nD τ sig → ℕ)

/-- The cells' invariants device `c`'s body opens, under the names the launch allocated them at: its own fifteen, the
    other devices' barrier cells (its signals) and the receive cells its copies credit. -/
def invs (c : Dev nD) : sProp 𝕄 :=
  iprop(cellInv ER (Rd m) (K (barCell c)) (barCell c)
    ∗ (bigSep Finset.univ fun i : Fin 7 => cellInv ER (Rd m) (K (sendCell c i)) (sendCell c i))
    ∗ (bigSep Finset.univ fun i : Fin 7 => cellInv ER (Rd m) (K (recvCell c i)) (recvCell c i))
    ∗ (bigSep Finset.univ fun i : Fin 7 => cellInv ER (Rd m) (K (barCell (pr c i))) (barCell (pr c i)))
    ∗ (bigSep Finset.univ fun i : Fin 7 => cellInv ER (Rd m) (K (recvCell (pr c i) (rev i))) (recvCell (pr c i) (rev i))))

/-- The exchange's ghost state device `c` starts from: the invariants; its positions at round 0 of its fifteen cells;
    round 0 reached on the cells it pays and on its own send and receive cells; the twenty-one duty tokens it pays
    with. -/
def ghost (c : Dev nD) : sProp 𝕄 :=
  iprop(invs m K c
    ∗ atPos ER (barCell c) 0 ∅ 0
    ∗ (bigSep Finset.univ fun i : Fin 7 => atPos ER (sendCell c i) 0 ∅ 0)
    ∗ (bigSep Finset.univ fun i : Fin 7 => atPos ER (recvCell c i) 0 ∅ 0)
    ∗ (bigSep Finset.univ fun i : Fin 7 => reached ER (barCell (pr c i)) 0)
    ∗ (bigSep Finset.univ fun i : Fin 7 => reached ER (recvCell (pr c i) (rev i)) 0)
    ∗ (bigSep Finset.univ fun i : Fin 7 => reached ER (sendCell c i) 0)
    ∗ (bigSep Finset.univ fun i : Fin 7 => reached ER (recvCell c i) 0)
    ∗ (bigSep Finset.univ fun i : Fin 7 => dutyTok ER (barCell (pr c i)) 0 (rev i))
    ∗ (bigSep Finset.univ fun i : Fin 7 => dutyTok ER (recvCell (pr c i) (rev i)) 0 (0 : Fin 7))
    ∗ (bigSep Finset.univ fun i : Fin 7 => dutyTok ER (sendCell c i) 0 (0 : Fin 7)))

/-- The two semaphores of the scratch arrays the kernel never uses (index 0 of each), at zero throughout. -/
def idleSems (c : Dev nD) : sProp 𝕄 :=
  iprop(semVal ((c : Thread nD τ), SemLoc.dma (⟨3, by decide⟩ : DmaSem sig)) 0 ∗ semVal ((c : Thread nD τ), SemLoc.dma (⟨11, by decide⟩ : DmaSem sig)) 0)

/-- What device `c`'s body starts from: that at some names, its credit tokens (its barrier's seven units, each receive
    cell's credit), the level facts. -/
def start (c : Dev nD) : sProp 𝕄 :=
  iprop((∃ K, ghost m K c) ∗ idleSems c ∗ cred (tallyAt (barCell c) () 7)
    ∗ (bigSep Finset.univ fun i : Fin 7 => cred (tallyAt (recvCell c i) () N)) ∗ levAts L lv)

def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrAny c)
/-- After the point: the scratch whole again, holding the gathered statistics; the fourteen own cells closed, their
    counters at zero; the two idle semaphores. -/
def Φ₁ (c : Dev nD) : sProp 𝕄 :=
  iprop((((c : Thread nD τ).loc cc0_scratch0) ↦{fullShare} gath m c) ∗ idleSems c
    ∗ (bigSep Finset.univ fun i : Fin 7 => semVal (sendCell c i) 0) ∗ (bigSep Finset.univ fun i : Fin 7 => semVal (recvCell c i) 0))

/-- The pipeline's proof data: the two inputs stay as staged, the result block is `outAt`. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.KProto

end
-- ==== Proof.KFinal.lean ====
/-
  The arrays after the run, read back as plain terms.

  The kernel's one region runs on a grid of a single point with three windows, each the whole of its array: the two
  arguments are fetched at the point and never written back, the result is written back at the point. So an argument
  array ends as it was launched, and the result array ends as the block the body left: the last payload of the
  device's band, of the statistics the eight devices exchanged and of the matrix.
-/
import proofs.«900776_g7700000000000777_dist_diff_noisepred_hshard_i_b2_h128_w128_c64_v7x_i8_bf16_1_alg».proof.Proof.KProto
import Idealize.ShloMosaic.Lib.Pipeline.Value
import Idealize.ShloMosaic.Lib.Pipeline.Cells

noncomputable section

namespace Cert.KernelIdeal.KProto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## A window's one block is its whole array -/

/-- The block of window 0 at the one point starts at offset zero on every axis. -/
theorem off0_zero : (fun a => (win0_0.index t0_0) a * main_arg0.ty.shape.size a) = fun _ => 0 :=
  funext fun a => Nat.zero_mul _
theorem off1_zero : (fun a => (win0_1.index t0_0) a * main_arg1.ty.shape.size a) = fun _ => 0 :=
  funext fun a => Nat.zero_mul _
theorem off2_zero : (fun a => (win0_2.index t0_0) a * main_v1.ty.shape.size a) = fun _ => 0 :=
  funext fun a => Nat.zero_mul _

/-- Device `c`'s staged band is its argument array as launched: the block read is the whole array. -/
theorem xstg_eq (m : (ℓ : Loc nD τ sig) → Buf (Elt F) ℓ) (c : Dev nD) :
    xstg m c = m ((c : Thread nD τ).loc main_arg0) := by
  unfold xstg iblk
  exact Memref.read_access_unit_zero (Elt F) main_arg0 off0_zero (fun a => by show 0 * _ + _ ≤ _; omega) _

/-- Device `c`'s staged matrix is its argument array as launched. -/
theorem wstg_eq (m : (ℓ : Loc nD τ sig) → Buf (Elt F) ℓ) (c : Dev nD) :
    wstg m c = m ((c : Thread nD τ).loc main_arg1) := by
  unfold wstg iblk
  exact Memref.read_access_unit_zero (Elt F) main_arg1 off1_zero (fun a => by show 0 * _ + _ ≤ _; omega) _

/-! ## The arrays after the last point -/

/-- An argument's array is never written back. -/
theorem final_arg0 (m : (ℓ : Loc nD τ sig) → Buf (Elt F) ℓ) (c : Dev nD) :
    (dats m 0 c).arrAt (0 : Fin cfg0.W) cfg0.N = m ((c : Thread nD τ).loc main_arg0) :=
  (dats m 0 c).arrAt_in (0 : Fin cfg0.W) rfl _

theorem final_arg1 (m : (ℓ : Loc nD τ sig) → Buf (Elt F) ℓ) (c : Dev nD) :
    (dats m 0 c).arrAt (1 : Fin cfg0.W) cfg0.N = m ((c : Thread nD τ).loc main_arg1) :=
  (dats m 0 c).arrAt_in (1 : Fin cfg0.W) rfl _

/-- The statistics device `c` ends with, over the argument arrays as launched. -/
theorem gath_eq (m : (ℓ : Loc nD τ sig) → Buf (Elt F) ℓ) (c : Dev nD) :
    gath m c = gathered (fun c' => m ((c' : Thread nD τ).loc main_arg0)) c := by
  unfold gath
  rw [show (fun c' => xstg m c') = fun c' : Dev nD => m ((c' : Thread nD τ).loc main_arg0) from funext (xstg_eq m)]

/-- The block the body leaves for the result, over the argument arrays as launched. -/
theorem outAt_eq (m : (ℓ : Loc nD τ sig) → Buf (Elt F) ℓ) (c : Dev nD) :
    outAt m c = kout (fun c' => m ((c' : Thread nD τ).loc main_arg0)) (m ((c : Thread nD τ).loc main_arg1)) c := by
  unfold outAt kout
  rw [gath_eq, xstg_eq, wstg_eq]

/-- The result array after the run: the one write-back, at the one point, covers the whole array with the block the
    body left. -/
theorem final_out (m : (ℓ : Loc nD τ sig) → Buf (Elt F) ℓ) (c : Dev nD) :
    (dats m 0 c).arrAt (2 : Fin cfg0.W) cfg0.N
      = Cert.KernelIdeal.KSpec.kout (fun c' => m ((c' : Thread nD τ).loc main_arg0)) (m ((c : Thread nD τ).loc main_arg1)) c := by
  rw [show cfg0.N = (t0_0 : Fin cfg0.N).val + 1 from rfl, (dats m 0 c).arrAt_succ (2 : Fin cfg0.W) t0_0,
    flush0_2 t0_0, if_pos rfl]
  have h : ((cfg0.win (2 : Fin cfg0.W)).blk t0_0).view.write (Elt F) ((dats m 0 c).arrAt (2 : Fin cfg0.W) (t0_0 : Fin cfg0.N).val)
      ((dats m 0 c).flushed (2 : Fin cfg0.W) t0_0) Finset.univ = outAt m c :=
    Memref.write_access_unit_zero_univ (Elt F) main_v1 off2_zero (fun a => by show 0 * _ + _ ≤ _; omega) _ _
  exact h.trans (outAt_eq m c)

/-- info: 'Cert.KernelIdeal.KProto.final_out' depends on axioms: [propext, Classical.choice, Quot.sound] -/
#guard_msgs in #print axioms final_out

end Cert.KernelIdeal.KProto

end
-- ==== Proof.KTables.lean ====
/-
  The exchange's schedule read cell by cell, what a device still owes after each of its fourteen payments, and the
  levels that order the waits.

  A device has fifteen cells: its barrier cell, whose one round has seven duties of one unit (one per other device),
  and seven send and seven receive cells, whose one round has a single duty of a slot's credit. A device owes fourteen
  payments: a slot's credit on the receive cell of each of its seven copies, and one unit on each other device's barrier
  cell. Barrier cells sit at level 1, receive cells at level 2, every other cell at level 0: a wait on a staging or
  send cell is below everything owed, and at its barrier wait a device owes receive credits only.
-/
import proofs.«900776_g7700000000000777_dist_diff_noisepred_hshard_i_b2_h128_w128_c64_v7x_i8_bf16_1_alg».proof.Proof.KProto

noncomputable section

namespace Cert.KernelIdeal.KProto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## Seven things side by side -/

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The cells are distinct -/

theorem send_ne_bar (i : Fin 7) : (SemLoc.dma (sendS i) : SemLoc sig) ≠ .reg barS := fun h => by cases h
theorem recv_ne_bar (i : Fin 7) : (SemLoc.dma (recvS i) : SemLoc sig) ≠ .reg barS := fun h => by cases h

/-- A send semaphore and a receive semaphore serve different copies' ends … -/
theorem sendS_ne_recvS (i j : Fin 7) : sendS i ≠ recvS j := fun h => by
  have e := xferIdx_send i
  rw [h, xferIdx_recv j] at e
  cases e
/-- … and two send semaphores, or two receive semaphores, of different index differ. -/
theorem sendS_inj {i j : Fin 7} (h : sendS i = sendS j) : i = j := by
  have e := xferIdx_send i
  rw [h, xferIdx_send j] at e
  exact (Prod.mk.inj (Option.some.inj e)).2.symm
theorem recvS_inj {i j : Fin 7} (h : recvS i = recvS j) : i = j := by
  have e := xferIdx_recv i
  rw [h, xferIdx_recv j] at e
  exact (Prod.mk.inj (Option.some.inj e)).2.symm

theorem sendCell_ne_recvCell (c c' : Dev nD) (i j : Fin 7) : sendCell c i ≠ recvCell c' j :=
  fun h => sendS_ne_recvS i j (SemLoc.dma.inj (congrArg Prod.snd h))
theorem sendCell_ne_barCell (c c' : Dev nD) (i : Fin 7) : sendCell c i ≠ barCell c' :=
  fun h => send_ne_bar i (congrArg Prod.snd h)
theorem recvCell_ne_barCell (c c' : Dev nD) (i : Fin 7) : recvCell c i ≠ barCell c' :=
  fun h => recv_ne_bar i (congrArg Prod.snd h)
theorem sendCell_inj {c c' : Dev nD} {i j : Fin 7} (h : sendCell c i = sendCell c' j) : c = c' ∧ i = j :=
  ⟨congrArg (fun g : GSem nD τ sig => g.1.1) h, sendS_inj (SemLoc.dma.inj (congrArg Prod.snd h))⟩
theorem recvCell_inj {c c' : Dev nD} {i j : Fin 7} (h : recvCell c i = recvCell c' j) : c = c' ∧ i = j :=
  ⟨congrArg (fun g : GSem nD τ sig => g.1.1) h, recvS_inj (SemLoc.dma.inj (congrArg Prod.snd h))⟩
theorem barCell_inj {c c' : Dev nD} (h : barCell c = barCell c') : c = c' :=
  congrArg (fun g : GSem nD τ sig => g.1.1) h

theorem not_bar_send (c : Dev nD) (i : Fin 7) : ¬ IsBar (sendCell c i) := fun h => send_ne_bar i h.2
theorem not_bar_recv (c : Dev nD) (i : Fin 7) : ¬ IsBar (recvCell c i) := fun h => recv_ne_bar i h.2
theorem xfer_send (c : Dev nD) (i : Fin 7) : IsXfer (sendCell c i) := ⟨rfl, by rw [xferIdx_send]; rfl⟩
theorem xfer_recv (c : Dev nD) (i : Fin 7) : IsXfer (recvCell c i) := ⟨rfl, by rw [xferIdx_recv]; rfl⟩

/-! ## The schedule, cell by cell -/

theorem duties_bar (m : (ℓ : Loc nD τ sig) → Buf (Elt F) ℓ) (c : Dev nD) : (Rd (F := F) m).duties (barCell c) 0 = Finset.univ := by
  dsimp only [Rd]; exact if_pos ⟨rfl, rfl, rfl⟩
theorem duties_send (m : (ℓ : Loc nD τ sig) → Buf (Elt F) ℓ) (c : Dev nD) (i : Fin 7) : (Rd (F := F) m).duties (sendCell c i) 0 = {0} := by
  dsimp only [Rd]; rw [if_neg (fun h => not_bar_send c i h.2)]; exact if_pos ⟨rfl, xfer_send c i⟩
theorem duties_recv (m : (ℓ : Loc nD τ sig) → Buf (Elt F) ℓ) (c : Dev nD) (i : Fin 7) : (Rd (F := F) m).duties (recvCell c i) 0 = {0} := by
  dsimp only [Rd]; rw [if_neg (fun h => not_bar_recv c i h.2)]; exact if_pos ⟨rfl, xfer_recv c i⟩
theorem duties_later (m : (ℓ : Loc nD τ sig) → Buf (Elt F) ℓ) (g : GSem nD τ sig) : ∀ r, 1 ≤ r → (Rd (F := F) m).duties g r = ∅ :=
  fun r hr => by dsimp only [Rd]; rw [if_neg fun h => by omega, if_neg fun h => by omega]

theorem amount_bar (m : (ℓ : Loc nD τ sig) → Buf (Elt F) ℓ) (c : Dev nD) (d : Fin 7) : (Rd (F := F) m).amount (barCell c) 0 d = 1 := by
  dsimp only [Rd]; exact if_pos rfl
theorem amount_send (m : (ℓ : Loc nD τ sig) → Buf (Elt F) ℓ) (c : Dev nD) (i d : Fin 7) : (Rd (F := F) m).amount (sendCell c i) 0 d = N := by
  dsimp only [Rd]; exact if_neg (send_ne_bar i)
theorem amount_recv (m : (ℓ : Loc nD τ sig) → Buf (Elt F) ℓ) (c : Dev nD) (i d : Fin 7) : (Rd (F := F) m).amount (recvCell c i) 0 d = N := by
  dsimp only [Rd]; exact if_neg (recv_ne_bar i)

theorem expect_bar (m : (ℓ : Loc nD τ sig) → Buf (Elt F) ℓ) (c : Dev nD) : (Rd (F := F) m).expect (barCell c) 0 = 7 := by
  unfold Schedule.expect Schedule.amountOf
  rw [duties_bar, Finset.sum_congr rfl fun d _ => amount_bar m c d, Finset.sum_const, Finset.card_univ, Fintype.card_fin,
    smul_eq_mul]
theorem expect_send (m : (ℓ : Loc nD τ sig) → Buf (Elt F) ℓ) (c : Dev nD) (i : Fin 7) : (Rd (F := F) m).expect (sendCell c i) 0 = N := by
  unfold Schedule.expect Schedule.amountOf; rw [duties_send, Finset.sum_singleton, amount_send]
theorem expect_recv (m : (ℓ : Loc nD τ sig) → Buf (Elt F) ℓ) (c : Dev nD) (i : Fin 7) : (Rd (F := F) m).expect (recvCell c i) 0 = N := by
  unfold Schedule.expect Schedule.amountOf; rw [duties_recv, Finset.sum_singleton, amount_recv]

theorem payload_bar (m : (ℓ : Loc nD τ sig) → Buf (Elt F) ℓ) (c : Dev nD) (d : Fin 7) : (Rd (F := F) m).payload (barCell c) 0 d = barPay c d := by
  dsimp only [Rd]; rw [if_pos rfl]
theorem payload_send (m : (ℓ : Loc nD τ sig) → Buf (Elt F) ℓ) (c : Dev nD) (i d : Fin 7) : (Rd (F := F) m).payload (sendCell c i) 0 d = sendPay m c i := by
  dsimp only [Rd]; rw [if_neg (send_ne_bar i)]; simp only [xferIdx_send]
theorem payload_recv (m : (ℓ : Loc nD τ sig) → Buf (Elt F) ℓ) (c : Dev nD) (i d : Fin 7) : (Rd (F := F) m).payload (recvCell c i) 0 d = recvPay m c i := by
  dsimp only [Rd]; rw [if_neg (recv_ne_bar i)]; simp only [xferIdx_recv]

/-- The rest of the barrier cell's round, no duty taken: the seven entry payloads. -/
theorem rest_bar (m : (ℓ : Loc nD τ sig) → Buf (Elt F) ℓ) (c : Dev nD) :
    bigSep ((Rd (F := F) m).duties (barCell c) 0 \ ∅) (fun d => (Rd (F := F) m).payload (barCell c) 0 d)
      = iprop(barPay c 0 ∗ barPay c 1 ∗ barPay c 2 ∗ barPay c 3 ∗ barPay c 4 ∗ barPay c 5 ∗ barPay c 6) := by
  rw [Finset.sdiff_empty, duties_bar, bigSep_fin7]
  simp only [payload_bar]
theorem rest_send (m : (ℓ : Loc nD τ sig) → Buf (Elt F) ℓ) (c : Dev nD) (i : Fin 7) :
    bigSep ((Rd (F := F) m).duties (sendCell c i) 0 \ ∅) (fun d => (Rd (F := F) m).payload (sendCell c i) 0 d) = sendPay m c i := by
  rw [Finset.sdiff_empty, duties_send, bigSep_singleton, payload_send]
theorem rest_recv (m : (ℓ : Loc nD τ sig) → Buf (Elt F) ℓ) (c : Dev nD) (i : Fin 7) :
    bigSep ((Rd (F := F) m).duties (recvCell c i) 0 \ ∅) (fun d => (Rd (F := F) m).payload (recvCell c i) 0 d) = recvPay m c i := by
  rw [Finset.sdiff_empty, duties_recv, bigSep_singleton, payload_recv]

instance Rd_payload_storable (m : (ℓ : Loc nD τ sig) → Buf (Elt F) ℓ) (g : GSem nD τ sig) (r : ℕ) (d : Fin 7) :
    BI.Storable (upEmb : UEmb _ 𝕄) ((Rd (F := F) m).payload g r d) := by
  dsimp only [Rd]
  unfold barPay recvPay sendPay slotPts
  (repeat' split) <;> infer_instance

/-! ## What is still owed -/

theorem owedAt_0 (c : Dev nD) : owedAt c 0 = 0 := rfl
theorem owedAt_1 (c : Dev nD) : owedAt c 1 = owedAt c 0 + tallyAt (recvCell (pr c 6) (rev 6)) () N := rfl
theorem owedAt_2 (c : Dev nD) : owedAt c 2 = owedAt c 1 + tallyAt (recvCell (pr c 5) (rev 5)) () N := rfl
theorem owedAt_3 (c : Dev nD) : owedAt c 3 = owedAt c 2 + tallyAt (recvCell (pr c 4) (rev 4)) () N := rfl
theorem owedAt_4 (c : Dev nD) : owedAt c 4 = owedAt c 3 + tallyAt (recvCell (pr c 3) (rev 3)) () N := rfl
theorem owedAt_5 (c : Dev nD) : owedAt c 5 = owedAt c 4 + tallyAt (recvCell (pr c 2) (rev 2)) () N := rfl
theorem owedAt_6 (c : Dev nD) : owedAt c 6 = owedAt c 5 + tallyAt (recvCell (pr c 1) (rev 1)) () N := rfl
theorem owedAt_7 (c : Dev nD) : owedAt c 7 = owedAt c 6 + tallyAt (recvCell (pr c 0) (rev 0)) () N := rfl
theorem owedAt_8 (c : Dev nD) : owedAt c 8 = owedAt c 7 + tallyAt (barCell (pr c 6)) () 1 := rfl
theorem owedAt_9 (c : Dev nD) : owedAt c 9 = owedAt c 8 + tallyAt (barCell (pr c 5)) () 1 := rfl
theorem owedAt_10 (c : Dev nD) : owedAt c 10 = owedAt c 9 + tallyAt (barCell (pr c 4)) () 1 := rfl
theorem owedAt_11 (c : Dev nD) : owedAt c 11 = owedAt c 10 + tallyAt (barCell (pr c 3)) () 1 := rfl
theorem owedAt_12 (c : Dev nD) : owedAt c 12 = owedAt c 11 + tallyAt (barCell (pr c 2)) () 1 := rfl
theorem owedAt_13 (c : Dev nD) : owedAt c 13 = owedAt c 12 + tallyAt (barCell (pr c 1)) () 1 := rfl
theorem owedAt_14 (c : Dev nD) : owedAt c 14 = owedAt c 13 + tallyAt (barCell (pr c 0)) () 1 := rfl

/-- The fourteen payments: the seven receive credits, then the seven barrier units. -/
theorem owedList_eq (c : Dev nD) :
    owedList c = ([6, 5, 4, 3, 2, 1, 0] : List (Fin 7)).map (fun i => tallyAt (recvCell (pr c i) (rev i)) () N)
      ++ ([6, 5, 4, 3, 2, 1, 0] : List (Fin 7)).map (fun i => tallyAt (barCell (pr c i)) () 1) := rfl
/-- The first seven are the receive credits. -/
theorem owedList_take7 (c : Dev nD) :
    (owedList c).take 7 = ([6, 5, 4, 3, 2, 1, 0] : List (Fin 7)).map (fun i => tallyAt (recvCell (pr c i) (rev i)) () N) := rfl

/-- A tally at one cell is positive at that cell only. -/
theorem eq_of_tallyAt_pos {g₀ g : GSem nD τ sig} {k : ℕ} {u : Unit} (h : 0 < tallyAt g₀ () k g u) : g = g₀ := by
  rw [tallyAt_apply] at h
  by_contra hn
  rw [if_neg (fun h' => hn h'.1)] at h
  exact Nat.lt_irrefl 0 h

/-- A sum of tallies is positive only where one of them, or what the sum started from, is. -/
theorem foldl_pos {P : GSem nD τ sig → Prop} (l : List (CellTallies nD τ sig Unit)) (acc : CellTallies nD τ sig Unit)
    (hacc : ∀ (g : GSem nD τ sig) (u : Unit), 0 < acc g u → P g)
    (hl : ∀ t ∈ l, ∀ (g : GSem nD τ sig) (u : Unit), 0 < t g u → P g) :
    ∀ (g : GSem nD τ sig) (u : Unit), 0 < (l.foldl (· + ·) acc) g u → P g := by
  induction l generalizing acc with
  | nil => exact hacc
  | cons t l ih =>
    rw [List.foldl_cons]
    refine ih (acc + t) (fun g u h => ?_) (fun t' ht' => hl t' (List.mem_cons_of_mem _ ht'))
    rw [Pi.add_apply, Finsupp.add_apply] at h
    by_cases ha : 0 < acc g u
    · exact hacc g u ha
    · exact hl t (List.mem_cons_self ..) g u (by omega)

theorem owed_pos {c : Dev nD} {n : ℕ} (hn : n ≤ 14) {g : GSem nD τ sig} {u : Unit} (h : 0 < owedAt c n g u) :
    (∃ i : Fin 7, g = recvCell (pr c i) (rev i)) ∨ (∃ i : Fin 7, g = barCell (pr c i)) := by
  refine foldl_pos (P := fun g => (∃ i : Fin 7, g = recvCell (pr c i) (rev i)) ∨ (∃ i : Fin 7, g = barCell (pr c i)))
    ((owedList c).take n) 0 (fun g u h0 => absurd h0 (Nat.lt_irrefl 0)) (fun t ht g u hg => ?_) g u h
  have ht' := List.mem_of_mem_take ht
  rw [owedList_eq, List.mem_append, List.mem_map, List.mem_map] at ht'
  rcases ht' with ⟨i, _, rfl⟩ | ⟨i, _, rfl⟩
  · exact Or.inl ⟨i, eq_of_tallyAt_pos hg⟩
  · exact Or.inr ⟨i, eq_of_tallyAt_pos hg⟩

/-- With at most seven payments left, only receive credits are owed. -/
theorem owed_pos_recv {c : Dev nD} {n : ℕ} (hn : n ≤ 7) {g : GSem nD τ sig} {u : Unit} (h : 0 < owedAt c n g u) :
    ∃ i : Fin 7, g = recvCell (pr c i) (rev i) := by
  refine foldl_pos (P := fun g => ∃ i : Fin 7, g = recvCell (pr c i) (rev i))
    ((owedList c).take n) 0 (fun g u h0 => absurd h0 (Nat.lt_irrefl 0)) (fun t ht g u hg => ?_) g u h
  have ht' := List.take_subset_take_left (owedList c) hn ht
  rw [owedList_take7, List.mem_map] at ht'
  obtain ⟨i, _, rfl⟩ := ht'
  exact ⟨i, eq_of_tallyAt_pos hg⟩

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (i : Fin 7) (u : Unit) : lv (recvCell c i) u = 2 := by
  dsimp only [lv]; rw [if_neg (recv_ne_bar i)]; simp only [xferIdx_recv]
theorem lv_send (c : Dev nD) (i : Fin 7) (u : Unit) : lv (sendCell c i) u = 0 := by
  dsimp only [lv]; rw [if_neg (send_ne_bar i)]; simp only [xferIdx_send]
theorem lv_stage (c : Dev nD) (q : DmaSem sig) (hq : xferIdx (SemLoc.dma q) = none) (u : Unit) :
    lv ((c : Thread nD τ), SemLoc.dma q) u = 0 := by
  dsimp only [lv]; rw [if_neg (fun h => by cases h)]; simp only [hq]

/-- A staging semaphore sits at level 0, below everything owed. -/
theorem mayWait_stage (c : Dev nD) (q : DmaSem sig) (hq : xferIdx (SemLoc.dma q) = none) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases owed_pos (le_refl 14) hg with ⟨i, rfl⟩ | ⟨i, rfl⟩ <;> exact Finset.mem_singleton_self _)
      (fun p hp => by rw [Finset.mem_singleton.mp hp]; exact le_of_eq (lv_stage c q hq ()))
      (fun g u hg => by
        rcases owed_pos (le_refl 14) hg with ⟨i, rfl⟩ | ⟨i, rfl⟩
        · rw [lv_recv]; decide
        · rw [lv_bar]; decide)
  · rw [MayWait_zero]; iintro -; iempintro

/-- At its barrier wait a device owes only the seven receive credits, which sit above barrier cells. -/
theorem mayWait_bar (c : Dev nD) :
    (levAts L lv : sProp 𝕄) ⊢ MayWait (c : Thread nD τ) (.reg barS) () (owedAt c 7) :=
  MayOwe.of_cut (L := L) (lev := lv) 1
    (fun p hp => by rw [Finset.mem_singleton.mp hp, L_tc]; exact Finset.mem_singleton_self _)
    (fun g u hg => by
      obtain ⟨i, rfl⟩ := owed_pos_recv (le_refl 7) hg
      exact Finset.mem_singleton_self _)
    (fun p hp => by rw [Finset.mem_singleton.mp hp]; exact le_of_eq (lv_bar c ()))
    (fun g u hg => by
      obtain ⟨i, rfl⟩ := owed_pos_recv (le_refl 7) hg
      rw [lv_recv]; decide)

/-- info: 'Cert.KernelIdeal.KProto.mayWait_bar' depends on axioms: [propext, Classical.choice, Quot.sound] -/
#guard_msgs in #print axioms mayWait_bar

/-- info: 'Cert.KernelIdeal.KProto.mayWait_stage' depends on axioms: [propext, Classical.choice, Quot.sound] -/
#guard_msgs in #print axioms mayWait_stage

/-- info: 'Cert.KernelIdeal.KProto.rest_bar' depends on axioms: [propext, Classical.choice, Quot.sound] -/
#guard_msgs in #print axioms rest_bar

end Cert.KernelIdeal.KProto

end
-- ==== Proof.KCredit.lean ====
/-
  The launch credit of the exchange among the eight devices.

  At launch every device owes each of the seven others one unit on that device's barrier cell and one slot's credit
  on the receive cell of the copy it will make into that device's scratch. Summed over the eight devices, the units
  owed to device `c`'s own cells are: seven on its barrier cell (one from every other device), and one slot's credit
  on each of its seven receive cells (receive cell `i` is credited by the device `i + 1` places after `c`, and by no
  other). These are the credit tokens the launch deals device `c`.
-/
import proofs.«900776_g7700000000000777_dist_diff_noisepred_hshard_i_b2_h128_w128_c64_v7x_i8_bf16_1_alg».proof.Proof.KProto
import Mathlib.Algebra.BigOperators.Fin
import Mathlib.Tactic.Abel

noncomputable section

namespace Cert.KernelIdeal.KProto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## Telling the cells apart -/

/-- A copy's semaphore is never the barrier semaphore. -/
theorem dma_ne_bar (s : DmaSem sig) : (SemLoc.dma s : SemLoc sig) ≠ .reg barS := fun h => by cases h

/-- Two barrier cells are the same cell exactly when they are the same device's. -/
theorem bar_eq_iff {a b : Dev nD} : Iff (barCell a = barCell b) (a = b) :=
  ⟨fun h => Fin.ext (congrArg (fun g : GSem nD τ sig => g.1.1.val) h), fun h => h ▸ rfl⟩

/-- The seven receive semaphores are distinct. -/
theorem recvS_injective {i j : Fin 7} (h : recvS i = recvS j) : i = j := by
  have e : (some (true, i) : Option (Bool × Fin 7)) = some (true, j) :=
    (xferIdx_recv i).symm.trans ((congrArg (fun s : DmaSem sig => xferIdx (.dma s)) h).trans (xferIdx_recv j))
  exact (Prod.mk.inj (Option.some.inj e)).2

/-- Two receive cells are the same cell exactly when device and offset agree. -/
theorem recv_eq_iff {a b : Dev nD} {i j : Fin 7} : Iff (recvCell a i = recvCell b j) (a = b ∧ i = j) :=
  ⟨fun h => ⟨Fin.ext (congrArg (fun g : GSem nD τ sig => g.1.1.val) h), recvS_injective (SemLoc.dma.inj (congrArg Prod.snd h))⟩,
    fun h => by obtain ⟨rfl, rfl⟩ := h; rfl⟩

/-! ## One owed tally read at one cell -/

theorem recvT_bar (a c : Dev nD) (j : Fin 7) (n : ℕ) :
    (tallyAt (recvCell a j) () n : CellTallies nD τ sig Unit) (barCell c) () = 0 := by
  rw [tallyAt_ne_cell (fun h => dma_ne_bar (recvS j) (congrArg Prod.snd h).symm), Finsupp.zero_apply]

theorem barT_recv (a c : Dev nD) (i : Fin 7) (n : ℕ) :
    (tallyAt (barCell a) () n : CellTallies nD τ sig Unit) (recvCell c i) () = 0 := by
  rw [tallyAt_ne_cell (fun h => dma_ne_bar (recvS i) (congrArg Prod.snd h)), Finsupp.zero_apply]

theorem barT_bar (a c : Dev nD) (n : ℕ) :
    (tallyAt (barCell a) () n : CellTallies nD τ sig Unit) (barCell c) () = if c = a then n else 0 := by
  rw [tallyAt_apply]
  by_cases h : c = a
  · subst h; rw [if_pos ⟨rfl, rfl⟩, if_pos rfl]
  · rw [if_neg (fun h1 => h (bar_eq_iff.mp h1.1)), if_neg h]

theorem recvT_recv (a c : Dev nD) (j i : Fin 7) (n : ℕ) :
    (tallyAt (recvCell a j) () n : CellTallies nD τ sig Unit) (recvCell c i) () = if c = a ∧ i = j then n else 0 := by
  rw [tallyAt_apply]
  by_cases h : c = a ∧ i = j
  · obtain ⟨rfl, rfl⟩ := h; rw [if_pos ⟨rfl, rfl⟩, if_pos ⟨rfl, rfl⟩]
  · rw [if_neg (fun h1 => h (recv_eq_iff.mp h1.1)), if_neg h]

/-! ## What a device owes, and what all devices together owe one cell -/

/-- What device `d` owes at launch: a slot's credit on the receive cell of each of its seven copies and one unit on
    each other device's barrier cell. -/
theorem O₀_eq (d : Dev nD) :
    O₀ d = (∑ i : Fin 7, tallyAt (recvCell (pr d i) (rev i)) () N) + ∑ i : Fin 7, tallyAt (barCell (pr d i)) () 1 := by
  rw [Fin.sum_univ_seven, Fin.sum_univ_seven]
  show (0 : CellTallies nD τ sig Unit) + tallyAt (recvCell (pr d 6) (rev 6)) () N + tallyAt (recvCell (pr d 5) (rev 5)) () N + tallyAt (recvCell (pr d 4) (rev 4)) () N + tallyAt (recvCell (pr d 3) (rev 3)) () N + tallyAt (recvCell (pr d 2) (rev 2)) () N + tallyAt (recvCell (pr d 1) (rev 1)) () N + tallyAt (recvCell (pr d 0) (rev 0)) () N + tallyAt (barCell (pr d 6)) () 1 + tallyAt (barCell (pr d 5)) () 1 + tallyAt (barCell (pr d 4)) () 1 + tallyAt (barCell (pr d 3)) () 1 + tallyAt (barCell (pr d 2)) () 1 + tallyAt (barCell (pr d 1)) () 1 + tallyAt (barCell (pr d 0)) () 1 = _
  abel

/-- Device `d` owes device `c`'s barrier cell one unit if it is another device, nothing if it is `c` itself: the seven
    devices `d` signals are exactly the seven others. -/
theorem owed_bar (d c : Dev nD) : O₀ d (barCell c) () = if d ≠ c then 1 else 0 := by
  simp only [O₀_eq, Pi.add_apply, Finsupp.add_apply, Finset.sum_apply, Finsupp.finsetSum_apply, recvT_bar, barT_bar,
    Finset.sum_const_zero, Nat.zero_add]
  revert c d; decide

/-- Device `d` owes device `c`'s receive cell `i` a slot's credit exactly when `d` is the device `i + 1` places after
    `c`: `d`'s copy to the device `j + 1` places after it credits that device's receive cell `6 - j`. -/
theorem owed_recv (d c : Dev nD) (i : Fin 7) : O₀ d (recvCell c i) () = if d = pr c i then N else 0 := by
  simp only [O₀_eq, Pi.add_apply, Finsupp.add_apply, Finset.sum_apply, Finsupp.finsetSum_apply, recvT_recv, barT_recv,
    Finset.sum_const_zero, Nat.add_zero]
  have key : ∀ j : Fin 7, Iff (c = pr d j ∧ i = rev j) (j = rev i ∧ d = pr c i) := by revert c d i; decide
  by_cases h : d = pr c i
  · rw [if_pos h, Finset.sum_congr rfl (fun j _ => if_congr ((key j).trans (and_iff_left h)) rfl rfl),
      Finset.sum_ite_eq' Finset.univ (rev i) (fun _ => N), if_pos (Finset.mem_univ _)]
  · rw [if_neg h]
    exact Finset.sum_eq_zero fun j _ => if_neg fun hj => h ((key j).mp hj).2

/-- All devices together owe a device's barrier cell seven units. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- All devices together owe each receive cell of a device one slot's credit. -/
theorem launch_recv (c : Dev nD) (i : Fin 7) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (pr c i) fun _ => N, if_pos (Finset.mem_univ _)]

/-! ## The credit tokens a device is dealt -/

omit [FloatOps F] in
/-- Out of the credit the launch deals device `c`, one token per semaphore of its core: the barrier's seven units and
    each receive cell's slot credit (the seven receive semaphores being distinct and none the barrier's). -/
theorem creds (c : Dev nD) :
    (Pipeline.launchCred O₀ c : sProp 𝕄) ⊢ iprop(cred (tallyAt (barCell c) () 7) ∗ (bigSep Finset.univ fun i : Fin 7 => cred (tallyAt (recvCell c i) () N))) := by
  unfold Pipeline.launchCred
  rw [bigSep_univ_at _ (SemLoc.reg barS), launch_bar]
  refine sep_mono_right ?_
  have hR : (bigSep Finset.univ fun i : Fin 7 => (cred (tallyAt (recvCell c i) () N) : sProp 𝕄))
      = bigSep ((Finset.univ : Finset (Fin 7)).image fun i => (SemLoc.dma (recvS i) : SemLoc sig))
          (fun sm => cred (tallyOn ((c.tc : Thread nD τ), sm) (launchCredit (Pipeline.owing O₀) 0 ((c.tc : Thread nD τ), sm)))) := by
    rw [bigSep_image_of_injOn (fun i _ j _ h => recvS_injective (SemLoc.dma.inj h))]
    exact bigSep_congr fun i _ => by rw [launch_recv]
  rw [hR]
  exact bigSep_subset fun sm h => by
    obtain ⟨i, _, rfl⟩ := Finset.mem_image.mp h
    exact Finset.mem_erase.mpr ⟨dma_ne_bar _, Finset.mem_univ _⟩

/-- info: 'Cert.KernelIdeal.KProto.creds' depends on axioms: [propext, Classical.choice, Quot.sound] -/
#guard_msgs in #print axioms creds

end Cert.KernelIdeal.KProto

end
-- ==== Proof.KGhost.lean ====
/-
  The launch of the exchange, first part: its ghost state.

  The launch element of the exchange's algebra holds, for every device, its barrier cell, its seven send cells and its
  seven receive cells at round 0 with the owner's position there, and one token per duty: seven on the barrier cell,
  one on each send and each receive cell. The cells' counters at zero come from the launch: the fourteen used DMA
  semaphores of the two scratch arrays among the kernel's own sixteen, the barrier semaphore as the one semaphore that
  is not scoped. With them every cell's invariant is allocated, for all devices under one update; the tokens of a
  device's own cells are then dealt to the devices that pay them: the barrier token of duty `d` and the receive token
  of cell `d` go to the device `d + 1` places after, which is the device for which this one lies `7 - d` places
  after. Index 0 of each scratch semaphore array is never used and is carried along at zero.
-/
import proofs.«900776_g7700000000000777_dist_diff_noisepred_hshard_i_b2_h128_w128_c64_v7x_i8_bf16_1_alg».proof.Proof.KProto
import proofs.«900776_g7700000000000777_dist_diff_noisepred_hshard_i_b2_h128_w128_c64_v7x_i8_bf16_1_alg».proof.Proof.KTables

noncomputable section

namespace Cert.KernelIdeal.KProto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## The kernel's own semaphores, the unscoped one -/

/-- The sixteen scoped DMA semaphores of the two scratch arrays: of each array the unused index 0, then the seven used. -/
abbrev OwnIx : Type := (Unit ⊕ Fin 7) ⊕ (Unit ⊕ Fin 7)
abbrev osem : OwnIx → SemLoc sig
  | .inl (.inl _) => .dma (⟨3, by decide⟩ : DmaSem sig)
  | .inl (.inr i) => .dma (sendS i)
  | .inr (.inl _) => .dma (⟨11, by decide⟩ : DmaSem sig)
  | .inr (.inr i) => .dma (recvS i)

theorem ownSemFacts : Pipeline.OwnSemFacts cfg0.spec osem := by decide

theorem share_eq (m : (ℓ : Loc nD τ sig) → Buf (Elt F) ℓ) (c : Dev nD) (w : Fin cfg0.W) : (dats m 0 c).share w = fullShare := by
  unfold Dat.share; split <;> rfl

/-- A device's own fifteen cells: the barrier cell, the send cells, the receive cells. -/
abbrev CellIx : Type := Unit ⊕ (Fin 7 ⊕ Fin 7)
abbrev csem : CellIx → SemLoc sig
  | .inl _ => .reg barS
  | .inr (.inl i) => .dma (sendS i)
  | .inr (.inr i) => .dma (recvS i)
abbrev kcell (ck : Dev nD × CellIx) : GSem nD τ sig := ((ck.1 : Thread nD τ), csem ck.2)

theorem csem_injective : Function.Injective csem := by
  intro k k' h
  have hx : xferIdx (csem k) = xferIdx (csem k') := congrArg xferIdx h
  rcases k with _ | i | i <;> rcases k' with _ | j | j
  · rfl
  · rw [show csem (.inr (.inl j)) = .dma (sendS j) from rfl, xferIdx_send] at hx; cases hx
  · rw [show csem (.inr (.inr j)) = .dma (recvS j) from rfl, xferIdx_recv] at hx; cases hx
  · rw [show csem (.inr (.inl i)) = .dma (sendS i) from rfl, xferIdx_send] at hx; cases hx
  · rw [show csem (.inr (.inl i)) = .dma (sendS i) from rfl, show csem (.inr (.inl j)) = .dma (sendS j) from rfl, xferIdx_send, xferIdx_send] at hx
    cases hx; rfl
  · rw [show csem (.inr (.inl i)) = .dma (sendS i) from rfl, show csem (.inr (.inr j)) = .dma (recvS j) from rfl, xferIdx_send, xferIdx_recv] at hx
    cases hx
  · rw [show csem (.inr (.inr i)) = .dma (recvS i) from rfl, xferIdx_recv] at hx; cases hx
  · rw [show csem (.inr (.inr i)) = .dma (recvS i) from rfl, show csem (.inr (.inl j)) = .dma (sendS j) from rfl, xferIdx_recv, xferIdx_send] at hx
    cases hx
  · rw [show csem (.inr (.inr i)) = .dma (recvS i) from rfl, show csem (.inr (.inr j)) = .dma (recvS j) from rfl, xferIdx_recv, xferIdx_recv] at hx
    cases hx; rfl

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All devices' cells of the exchange. -/
def ringCells : Finset (GSem nD τ sig) := Finset.univ.map ⟨kcell, kcell_injective⟩

/-- The duty tokens of a device's own cells, as minted: the barrier's seven, each send cell's, each receive cell's. -/
abbrev TokIx : Type := Fin 7 ⊕ (Fin 7 ⊕ Fin 7)
abbrev tokCell : TokIx → CellIx
  | .inl _ => .inl ()
  | .inr x => .inr x
abbrev tokDuty : TokIx → Fin 7
  | .inl d => d
  | .inr _ => 0
abbrev tokOf (cj : Dev nD × TokIx) : GSem nD τ sig × ℕ × Fin 7 := (kcell (cj.1, tokCell cj.2), 0, tokDuty cj.2)

theorem tokOf_injective : Function.Injective (tokOf : Dev nD × TokIx → GSem nD τ sig × ℕ × Fin 7) := by
  rintro ⟨c, j⟩ ⟨c', j'⟩ h
  have hk : (c, tokCell j) = (c', tokCell j') := kcell_injective (congrArg (fun x : GSem nD τ sig × ℕ × Fin 7 => x.1) h)
  have hd : tokDuty j = tokDuty j' := congrArg (fun x : GSem nD τ sig × ℕ × Fin 7 => x.2.2) h
  have hc : c = c' := congrArg Prod.fst hk
  have ht : tokCell j = tokCell j' := congrArg Prod.snd hk
  subst hc
  have hj : j = j' := by
    rcases j with d | x <;> rcases j' with d' | x'
    · exact congrArg Sum.inl hd
    · exact absurd ht (fun h => by cases h)
    · exact absurd ht (fun h => by cases h)
    · exact congrArg Sum.inr (Sum.inr.inj ht)
  rw [hj]

def ringToks : Finset (GSem nD τ sig × ℕ × Fin 7) := Finset.univ.map ⟨tokOf, tokOf_injective⟩

/-- The launch element: the pipeline library's, and the exchange's. -/
def u₀ : UU :=
  (initOf (Pipeline.cells cfgs cellOf_inj) (Pipeline.launchToks cfgs cellOf_inj), initOf ringCells ringToks)

omit [FloatOps F] in
/-- Fifteen cells conjoined: the barrier cell, the send cells, the receive cells. -/
theorem bigSep_cellIx (Φ : CellIx → sProp 𝕄) :
    bigSep Finset.univ Φ = iprop(Φ (.inl ()) ∗ (bigSep Finset.univ fun i : Fin 7 => Φ (.inr (.inl i))) ∗ (bigSep Finset.univ fun i : Fin 7 => Φ (.inr (.inr i)))) := by
  rw [bigSep_univ_sum, bigSep_univ_sum, bigSep_univ_of_subsingleton ()]
  rfl

/-! ## What the launch element deals -/

/-- The duty tokens of device `c`'s own cells. -/
def toks (c : Dev nD) : sProp 𝕄 :=
  iprop((bigSep Finset.univ fun d : Fin 7 => dutyTok ER (barCell c) 0 d)
    ∗ (bigSep Finset.univ fun i : Fin 7 => dutyTok ER (sendCell c i) 0 (0 : Fin 7))
    ∗ (bigSep Finset.univ fun i : Fin 7 => dutyTok ER (recvCell c i) 0 (0 : Fin 7)))

/-- What the launch element deals device `c`. -/
def G (m : (ℓ : Loc nD τ sig) → Buf (Elt F) ℓ) (c : Dev nD) : sProp 𝕄 :=
  iprop((bigSep Finset.univ fun k : CellIx => roundState ER (Rd m) (kcell (c, k)) 0)
    ∗ (bigSep Finset.univ fun k : CellIx => iprop(atPos ER (kcell (c, k)) 0 ∅ 0 ∗ reached ER (kcell (c, k)) 0)) ∗ toks c)

/-- What the global step makes of it, beside the two idle semaphores. -/
def G' (m : (ℓ : Loc nD τ sig) → Buf (Elt F) ℓ) (c : Dev nD) : sProp 𝕄 := iprop((∃ K, ghost m K c) ∗ idleSems c)

omit [FloatOps F] in
theorem bigSep_ringCells (Φ : GSem nD τ sig → sProp 𝕄) :
    bigSep ringCells Φ = bigSep Finset.univ fun c : Dev nD => bigSep Finset.univ fun k : CellIx => Φ (kcell (c, k)) := by
  unfold ringCells; rw [bigSep_map, bigSep_univ_prod]; rfl

omit [FloatOps F] in
theorem bigSep_ringToks :
    bigSep ringToks (fun x => (dutyTok ER x.1 x.2.1 x.2.2 : sProp 𝕄)) = bigSep Finset.univ fun c : Dev nD => toks c := by
  unfold ringToks; rw [bigSep_map, bigSep_univ_prod]
  exact bigSep_congr fun c _ => by unfold toks; rw [bigSep_univ_sum, bigSep_univ_sum]; rfl

theorem fund_ring (m : (ℓ : Loc nD τ sig) → Buf (Elt F) ℓ) :
    BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst' := (Entails.of_eq (bigSep_ringCells fun g => roundState ER (Rd m) g 0)) $$ Hst
  ihave Hat' := (Entails.of_eq (bigSep_ringCells fun g => atPos ER g 0 ∅ 0)) $$ Hat
  ihave Hr' := (Entails.of_eq (bigSep_ringCells fun g => reached ER g 0)) $$ Hr
  ihave Htok' := (Entails.of_eq bigSep_ringToks) $$ Htok
  unfold G; simp only [bigSep_sep']
  isplitl [Hst']; · iexact Hst'
  isplitl [Hat' Hr']
  · isplitl [Hat'] <;> iassumption
  iexact Htok'

/-! ## The cells' invariants allocated -/

omit [FloatOps F] in
/-- The kernel's own semaphores at zero: of each scratch array the idle one and the seven used; -/
theorem ownSems0_eq (c : Dev nD) : (Pipeline.ownSems0 (Ix := Unit) (Name := ℕ) (U := UU) (Lvl := ℕ) (Val := Elt F) (τ := τ) osem c : sProp 𝕄)
    = iprop((semVal ((c : Thread nD τ), SemLoc.dma (⟨3, by decide⟩ : DmaSem sig)) 0 ∗ bigSep Finset.univ fun i : Fin 7 => semVal (sendCell c i) 0)
        ∗ (semVal ((c : Thread nD τ), SemLoc.dma (⟨11, by decide⟩ : DmaSem sig)) 0 ∗ bigSep Finset.univ fun i : Fin 7 => semVal (recvCell c i) 0)) := by
  unfold Pipeline.ownSems0
  rw [bigSep_univ_sum, bigSep_univ_sum, bigSep_univ_sum, bigSep_univ_of_subsingleton (), bigSep_univ_of_subsingleton ()]
  rfl

omit [FloatOps F] in
/-- the barrier semaphore the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CellIx => semVal (kcell (c, k)) 0) ∗ idleSems c) : sProp 𝕄) := by
  rw [ownSems0_eq, unscopedSems0_eq, bigSep_cellIx]
  unfold idleSems
  iintro ⟨⟨⟨H3, HS⟩, H11, HV⟩, HB⟩
  isplitl [HB HS HV]
  · isplitl [HB]; · iexact HB
    isplitl [HS] <;> iassumption
  · isplitl [H3] <;> iassumption

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (Rd m) κ (kcell (c, k))))
          ∗ (bigSep Finset.univ fun k : CellIx => iprop(atPos ER (kcell (c, k)) 0 ∅ 0 ∗ reached ER (kcell (c, k)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : CellIx => semVal (kcell (c, k)) 0) ∗ bigSep Finset.univ fun k : CellIx => roundState ER (Rd m) (kcell (c, k)) 0)
      ⊢ (|={Set.univ}=> bigSep Finset.univ fun k : CellIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ## The records every device reads; what stays with each -/

/-- Every cell's invariant at its name, and round 0 of every cell reached. -/
def records (m : (ℓ : Loc nD τ sig) → Buf (Elt F) ℓ) (K : GSem nD τ sig → ℕ) : sProp 𝕄 :=
  iprop((bigSep Finset.univ fun ck : Dev nD × CellIx => cellInv ER (Rd m) (K (kcell ck)) (kcell ck))
    ∗ bigSep Finset.univ fun ck : Dev nD × CellIx => reached ER (kcell ck) 0)

instance records_persistent (m : (ℓ : Loc nD τ sig) → Buf (Elt F) ℓ) (K : GSem nD τ sig → ℕ) : BI.Persistent (records m K) := by unfold records; infer_instance

theorem inv_at (m : (ℓ : Loc nD τ sig) → Buf (Elt F) ℓ) (K : GSem nD τ sig → ℕ) (ck : Dev nD × CellIx) :
    (bigSep Finset.univ fun ck : Dev nD × CellIx => (cellInv ER (Rd m) (K (kcell ck)) (kcell ck) : sProp 𝕄)) ⊢ cellInv ER (Rd m) (K (kcell ck)) (kcell ck) :=
  bigSep_elim (Finset.mem_univ ck)
omit [FloatOps F] in
theorem reached_at (ck : Dev nD × CellIx) :
    (bigSep Finset.univ fun ck : Dev nD × CellIx => (reached ER (kcell ck) 0 : sProp 𝕄)) ⊢ reached ER (kcell ck) 0 :=
  bigSep_elim (Finset.mem_univ ck)

theorem invs_of (m : (ℓ : Loc nD τ sig) → Buf (Elt F) ℓ) (K : GSem nD τ sig → ℕ) (c : Dev nD) :
    (bigSep Finset.univ fun ck : Dev nD × CellIx => (cellInv ER (Rd m) (K (kcell ck)) (kcell ck) : sProp 𝕄)) ⊢ invs m K c := by
  unfold invs
  iintro #HI
  isplitr; · iapply (inv_at m K (c, .inl ())); iexact HI
  isplitr; · iapply (bigSep_intro_persistent fun (i : Fin 7) _ => inv_at m K (c, .inr (.inl i))); iexact HI
  isplitr; · iapply (bigSep_intro_persistent fun (i : Fin 7) _ => inv_at m K (c, .inr (.inr i))); iexact HI
  isplitr; · iapply (bigSep_intro_persistent fun (i : Fin 7) _ => inv_at m K (pr c i, .inl ())); iexact HI
  iapply (bigSep_intro_persistent fun (i : Fin 7) _ => inv_at m K (pr c i, .inr (.inr (rev i)))); iexact HI

/-- The tokens of the duties device `c` pays: one on each other device's barrier cell, one on the receive cell of each
    copy it makes, one on each of its own send cells. -/
def payToks (c : Dev nD) : sProp 𝕄 :=
  iprop((bigSep Finset.univ fun i : Fin 7 => dutyTok ER (barCell (pr c i)) 0 (rev i))
    ∗ (bigSep Finset.univ fun i : Fin 7 => dutyTok ER (recvCell (pr c i) (rev i)) 0 (0 : Fin 7))
    ∗ (bigSep Finset.univ fun i : Fin 7 => dutyTok ER (sendCell c i) 0 (0 : Fin 7)))
/-- What stays with device `c`: its positions, and those tokens. -/
def linear (c : Dev nD) : sProp 𝕄 :=
  iprop((atPos ER (barCell c) 0 ∅ 0 ∗ (bigSep Finset.univ fun i : Fin 7 => atPos ER (sendCell c i) 0 ∅ 0)
      ∗ (bigSep Finset.univ fun i : Fin 7 => atPos ER (recvCell c i) 0 ∅ 0)) ∗ payToks c)

theorem ghost_intro (m : (ℓ : Loc nD τ sig) → Buf (Elt F) ℓ) (K : GSem nD τ sig → ℕ) (c : Dev nD) : iprop(records m K ∗ linear c) ⊢ ghost m K c := by
  unfold records linear payToks ghost
  iintro ⟨⟨#HI, #HR⟩, ⟨HaB, HaS, HaV⟩, HtB, HtV, HtS⟩
  isplitr; · iapply (invs_of m K c); iexact HI
  isplitl [HaB]; · iexact HaB
  isplitl [HaS]; · iexact HaS
  isplitl [HaV]; · iexact HaV
  isplitr; · iapply (bigSep_intro_persistent fun (i : Fin 7) _ => reached_at (F := F) (pr c i, .inl ())); iexact HR
  isplitr; · iapply (bigSep_intro_persistent fun (i : Fin 7) _ => reached_at (F := F) (pr c i, .inr (.inr (rev i)))); iexact HR
  isplitr; · iapply (bigSep_intro_persistent fun (i : Fin 7) _ => reached_at (F := F) (c, .inr (.inl i))); iexact HR
  isplitr; · iapply (bigSep_intro_persistent fun (i : Fin 7) _ => reached_at (F := F) (c, .inr (.inr i))); iexact HR
  isplitl [HtB]; · iexact HtB
  isplitl [HtV]; · iexact HtV
  iexact HtS

theorem G'_intro (m : (ℓ : Loc nD τ sig) → Buf (Elt F) ℓ) (K : GSem nD τ sig → ℕ) (c : Dev nD) : iprop(records m K ∗ linear c ∗ idleSems c) ⊢ G' m c := by
  unfold G'
  iintro ⟨#HR, HL, HI⟩
  isplitl [HL]
  · iexists K
    iapply (ghost_intro m K c)
    isplitr; · iexact HR
    iexact HL
  · iexact HI

/-! ## The tokens dealt around -/

/-- The device `i + 1` places after, with the offset mirrored: applied twice it is the identity. -/
def deal : Dev nD × Fin 7 ≃ Dev nD × Fin 7 where
  toFun x := (pr x.1 x.2, rev x.2)
  invFun x := (pr x.1 x.2, rev x.2)
  left_inv x := Prod.ext (pl_pr x.1 x.2) (rev_rev x.2)
  right_inv x := Prod.ext (pl_pr x.1 x.2) (rev_rev x.2)

omit [FloatOps F] in
theorem deal_bar : (bigSep Finset.univ fun c : Dev nD => bigSep Finset.univ fun d : Fin 7 => (dutyTok ER (barCell c) 0 d : sProp 𝕄))
    = bigSep Finset.univ fun c : Dev nD => bigSep Finset.univ fun i : Fin 7 => dutyTok ER (barCell (pr c i)) 0 (rev i) :=
  (bigSep_univ_prod (fun x : Dev nD × Fin 7 => (dutyTok ER (barCell x.1) 0 x.2 : sProp 𝕄))).symm.trans
    ((bigSep_univ_equiv deal _).trans (bigSep_univ_prod _))
omit [FloatOps F] in
theorem deal_recv : (bigSep Finset.univ fun c : Dev nD => bigSep Finset.univ fun i : Fin 7 => (dutyTok ER (recvCell c i) 0 (0 : Fin 7) : sProp 𝕄))
    = bigSep Finset.univ fun c : Dev nD => bigSep Finset.univ fun i : Fin 7 => dutyTok ER (recvCell (pr c i) (rev i)) 0 (0 : Fin 7) :=
  (bigSep_univ_prod (fun x : Dev nD × Fin 7 => (dutyTok ER (recvCell x.1 x.2) 0 (0 : Fin 7) : sProp 𝕄))).symm.trans
    ((bigSep_univ_equiv deal _).trans (bigSep_univ_prod _))

omit [FloatOps F] in
/-- A barrier cell's token of duty `d` and the token of receive cell `d` go to the device `d + 1` places after. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', deal_bar, deal_recv]
  iintro ⟨H1, H2, H3⟩
  isplitl [H1]; · iexact H1
  isplitl [H3]; · iexact H3
  iexact H2

omit [FloatOps F] in
theorem linear_at (c : Dev nD) :
    iprop((bigSep Finset.univ fun k : CellIx => (atPos ER (kcell (c, k)) 0 ∅ 0 : sProp 𝕄)) ∗ payToks c ∗ idleSems c)
      ⊢ (iprop(linear c ∗ idleSems c) : sProp 𝕄) := by
  unfold linear; rw [bigSep_cellIx]
  iintro ⟨HA, HP, HI⟩
  isplitl [HA HP]
  · isplitl [HA] <;> iassumption
  iexact HI

omit [FloatOps F] in
theorem linear_intro :
    iprop((bigSep Finset.univ fun c : Dev nD => bigSep Finset.univ fun k : CellIx => (atPos ER (kcell (c, k)) 0 ∅ 0 : sProp 𝕄))
        ∗ (bigSep Finset.univ fun c : Dev nD => payToks c) ∗ (bigSep Finset.univ fun c : Dev nD => idleSems c))
      ⊢ bigSep Finset.univ fun c : Dev nD => (iprop(linear c ∗ idleSems c) : sProp 𝕄) := by
  rw [← bigSep_sep', ← bigSep_sep']
  exact bigSep_mono fun c _ => linear_at c

theorem regroup (m : (ℓ : Loc nD τ sig) → Buf (Elt F) ℓ) :
    (bigSep Finset.univ fun c : Dev nD => iprop((bigSep Finset.univ fun k : CellIx => iprop(∃ κ : ℕ, cellInv ER (Rd m) κ (kcell (c, k))))
          ∗ (bigSep Finset.univ fun k : CellIx => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × CellIx => iprop(∃ κ : ℕ, cellInv ER (Rd m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok, Hidle⟩
  ihave HI1 := (Entails.of_eq (bigSep_map (s := Finset.univ) ⟨kcell, kcell_injective⟩ (Φ := fun g : GSem nD τ sig => iprop(∃ κ : ℕ, cellInv ER (Rd m) κ g))).symm) $$ HI
  ihave HK := (BI.bigSep_exists_pi (Finset.univ.map ⟨kcell, kcell_injective⟩) (fun (g : GSem nD τ sig) (κ : ℕ) => (cellInv ER (Rd m) κ g : sProp 𝕄))) $$ HI1
  icases HK with ⟨%K, HI2⟩
  ihave HI3 := (Entails.of_eq (bigSep_map (s := Finset.univ) ⟨kcell, kcell_injective⟩ (Φ := fun g : GSem nD τ sig => (cellInv ER (Rd m) (K g) g : sProp 𝕄)))) $$ HI2
  icases HI3 with #HI3
  ihave Htk := (toks_around (F := F)) $$ Htok
  iapply (bigSep_with_persistent (R := records m K) fun c _ => G'_intro m K c)
  isplitr
  · unfold records; isplitl; · iexact HI3
    iexact HR
  · iapply (linear_intro (F := F))
    isplitl [Hat]; · iexact Hat
    isplitl [Htk]; · iexact Htk
    iexact Hidle

/-- The global step: own and unscoped semaphores of every device at once. -/
theorem glob (m : (ℓ : Loc nD τ sig) → Buf (Elt F) ℓ) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.KProto.glob' depends on axioms: [propext, Classical.choice, Quot.sound] -/
#guard_msgs in #print axioms glob

end Cert.KernelIdeal.KProto

end
-- ==== Proof.KSlots.lean ====
/-
  The scratch buffer as eight slot regions. The scratch has shape [8,4,64]; slot s is the rectangle of the indices
  whose first coordinate is s, seen at shape [4,64]. The eight slots are pairwise disjoint and cover the buffer, so
  the buffer held whole is the eight slots held side by side; a slot held at a share splits along the share; and a
  slot's assertion depends on the contents only at the slot's own indices. Then the values: slot j of a device's
  gathered scratch is the statistics of the device j places after it, so what a device stores in its own slot 0, and
  what its copy i lands in slot 7 - i of the device i + 1 places after it, are those devices' gathered contents there.
-/
import proofs.«900776_g7700000000000777_dist_diff_noisepred_hshard_i_b2_h128_w128_c64_v7x_i8_bf16_1_alg».proof.Proof.KProto
import Idealize.ShloMosaic.Lib.Pipeline.Value
import Idealize.ShloMosaic.Lib.ValueLayout

noncomputable section

namespace Cert.KernelIdeal.KProto

open Cert.KernelIdeal Cert.KernelIdeal.Gen Cert.KernelIdeal.KSpec

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## Where a slot sits in the buffer -/

/-- A slot's view is a view of the scratch buffer itself. -/
theorem slot_loc (c : Dev nD) (s : Fin 8) : (slotM s).view.loc (c : Thread nD τ) = (c : Thread nD τ).loc cc0_scratch0 := rfl

/-- Row r, channel k of slot s is the buffer's element (s, r, k). -/
theorem slot_emb (s : Fin 8) (r : Fin 4) (k : Fin 64) : (slotM s).view.emb (ix2 r k) = ix3 s r k := by
  show (Rect.unit (s := S8x4x64) ![s.val, 0, 0] S1x4x64.size (slot_inb s)).emb
      (Shape.reshapeEquiv squeezes_S1x4x64_S4x64.numel_eq (ix2 r k)) = ix3 s r k
  rw [reshapeEquiv_ix2_1ab]
  funext a
  match a with
  | ⟨0, _⟩ => exact Fin.ext (by show s.val + 1 * 0 = s.val; omega)
  | ⟨1, _⟩ => exact Fin.ext (by show 0 + 1 * r.val = r.val; omega)
  | ⟨2, _⟩ => exact Fin.ext (by show 0 + 1 * k.val = k.val; omega)

/-- A slot's set, as a set of indices of the buffer's shape. -/
abbrev slotSet (s : Fin 8) : Finset S8x4x64.Idx := (slotM s).view.set

/-- The slot's indices are those whose first coordinate is the slot's number. -/
theorem mem_slot (s : Fin 8) (i : S8x4x64.Idx) : i ∈ slotSet s ↔ i 0 = s := by
  constructor
  · intro h
    obtain ⟨y, rfl⟩ := View.exists_emb_of_mem_set (slotM s).view h
    obtain ⟨r, k, rfl⟩ : ∃ (r : Fin 4) (k : Fin 64), y = ix2 r k := ⟨y 0, y 1, eq_ix2 y⟩
    rw [slot_emb]
  · intro h
    obtain ⟨a, r, k, rfl⟩ : ∃ (a : Fin 8) (r : Fin 4) (k : Fin 64), i = ix3 a r k := ⟨i 0, i 1, i 2, eq_ix3 i⟩
    have h' : a = s := h
    subst h'
    rw [← slot_emb]
    exact View.emb_mem_set _ _

/-- The eight slots are pairwise disjoint and cover the buffer. -/
theorem slot_sets_cover :
    (∀ s ∈ (Finset.univ : Finset (Fin 8)), ∀ s' ∈ (Finset.univ : Finset (Fin 8)), s ≠ s' → Disjoint (slotSet s) (slotSet s'))
      ∧ (Finset.univ : Finset (Fin 8)).biUnion slotSet = Finset.univ := by
  refine ⟨fun s _ s' _ hne => Finset.disjoint_left.mpr fun i hi hi' => hne ?_, ?_⟩
  · exact ((mem_slot s i).mp hi).symm.trans ((mem_slot s' i).mp hi')
  · ext i
    simp only [Finset.mem_biUnion, Finset.mem_univ, true_and, iff_true]
    exact ⟨i 0, (mem_slot (i 0) i).mpr rfl⟩

/-! ## The region algebra of the slots -/

/-- The whole scratch is its eight slots side by side, at any share and contents. -/
theorem scr_split (c : Dev nD) (q : PosShare TreeShare) (f : Buf (Elt F) ((c : Thread nD τ).loc cc0_scratch0)) :
    ((((c : Thread nD τ).loc cc0_scratch0) ↦{q} f : sProp 𝕄)) ⊣⊢ iprop(slotPts c 0 q f ∗ slotPts c 1 q f ∗ slotPts c 2 q f ∗ slotPts c 3 q f ∗ slotPts c 4 q f ∗ slotPts c 5 q f ∗ slotPts c 6 q f ∗ slotPts c 7 q f) := by
  have hu : (Finset.univ : Finset (Fin 8)) = {0, 1, 2, 3, 4, 5, 6, 7} := by decide
  have e : ((((c : Thread nD τ).loc cc0_scratch0) ↦[(Finset.univ : Finset (Fin 8)).biUnion slotSet]{q} f : sProp 𝕄))
      = iprop(slotPts c 0 q f ∗ slotPts c 1 q f ∗ slotPts c 2 q f ∗ slotPts c 3 q f ∗ slotPts c 4 q f ∗ slotPts c 5 q f ∗ slotPts c 6 q f ∗ slotPts c 7 q f) := by
    rw [pointsTo_biUnion _ _ slot_sets_cover.1, hu,
      bigSep_insert (by decide), bigSep_insert (by decide), bigSep_insert (by decide), bigSep_insert (by decide),
      bigSep_insert (by decide), bigSep_insert (by decide), bigSep_insert (by decide), bigSep_singleton]
    rfl
  rw [slot_sets_cover.2] at e
  exact ⟨Entails.of_eq e, Entails.of_eq e.symm⟩
/-- A slot held at a share is the slot held at the two parts of the share. -/
theorem slot_share (c : Dev nD) (s : Fin 8) {q q₁ q₂ : PosShare TreeShare} (h : q ∈ q₁ ·? q₂)
    (f : Buf (Elt F) ((c : Thread nD τ).loc cc0_scratch0)) :
    (slotPts c s q f : sProp 𝕄) ⊣⊢ iprop(slotPts c s q₁ f ∗ slotPts c s q₂ f) :=
  pointsTo_share h

/-- A slot's assertion reads the contents only at the slot's indices. -/
theorem slot_congr (c : Dev nD) (s : Fin 8) (q : PosShare TreeShare) (f g : Buf (Elt F) ((c : Thread nD τ).loc cc0_scratch0))
    (h : ∀ i ∈ (slotM s).view.set, f i = g i) : (slotPts c s q f : sProp 𝕄) = slotPts c s q g :=
  pointsTo_congr h

/-! ## The values in the slots -/

/-- A device is zero places after itself. -/
theorem peer_zero (c : Dev nD) : peer c 0 = c := by revert c; decide

/-- The device `i + 1` places after `c` finds `c` at `7 - i` places after itself. -/
theorem peer_back (c : Dev nD) (i : Fin 7) : peer (pr c i) (slotOf (rev i)) = c := by revert c i; decide

/-- Slot 0 of a device's gathered scratch holds its own statistics. -/
theorem gath_slot0 (m : (ℓ : Loc nD τ sig) → Buf (Elt F) ℓ) (c : Dev nD) (r : Fin 4) (k : Fin 64) :
    gath m c (ix3 (0 : Fin 8) r k) = k0_pay2 (xstg m c) (ix3 (0 : Fin 1) r k) := by
  show stats (xstg m (peer c 0)) (ix3 (0 : Fin 1) r k) = _
  rw [peer_zero]; rfl

/-- Slot `7 - i` of the gathered scratch of the device `i + 1` places after `c` holds `c`'s statistics. -/
theorem gath_slot (m : (ℓ : Loc nD τ sig) → Buf (Elt F) ℓ) (c : Dev nD) (i : Fin 7) (r : Fin 4) (k : Fin 64) :
    gath m (pr c i) (ix3 (slotOf (rev i)) r k) = k0_pay2 (xstg m c) (ix3 (0 : Fin 1) r k) := by
  show stats (xstg m (peer (pr c i) (slotOf (rev i)))) (ix3 (0 : Fin 1) r k) = _
  rw [peer_back]; rfl

/-- Slot 0's indices are those the body's store into the scratch goes through. -/
theorem slot0_set : (slotM 0).view.set
    = (scr.access (Rect.unit (s := S8x4x64) ![0, 0, 0] S1x4x64.size inb_S8x4x64_S1x4x64_0_0_0)).set :=
  Memref.set_view_squeeze _ _

/-- Row r, channel k of the stored block goes to the buffer's element (0, r, k). -/
theorem store_emb (r : Fin 4) (k : Fin 64) :
    (scr.access (Rect.unit (s := S8x4x64) ![0, 0, 0] S1x4x64.size inb_S8x4x64_S1x4x64_0_0_0)).emb (ix3 (0 : Fin 1) r k)
      = ix3 (0 : Fin 8) r k := by
  show (Rect.unit (s := S8x4x64) ![0, 0, 0] S1x4x64.size inb_S8x4x64_S1x4x64_0_0_0).emb (ix3 (0 : Fin 1) r k) = _
  funext a
  match a with
  | ⟨0, _⟩ => exact Fin.ext (by show 0 + 1 * 0 = 0; omega)
  | ⟨1, _⟩ => exact Fin.ext (by show 0 + 1 * r.val = r.val; omega)
  | ⟨2, _⟩ => exact Fin.ext (by show 0 + 1 * k.val = k.val; omega)

/-- What the body's store of its statistics leaves in slot 0 is the gathered scratch there. -/
theorem slot0_stored (m : (ℓ : Loc nD τ sig) → Buf (Elt F) ℓ) (c : Dev nD) (f : Buf (Elt F) ((c : Thread nD τ).loc cc0_scratch0)) :
    (slotPts c 0 fullShare ((scr.access (Rect.unit (s := S8x4x64) ![0, 0, 0] S1x4x64.size inb_S8x4x64_S1x4x64_0_0_0)).write (Elt F) f (k0_pay2 (xstg m c)) Finset.univ) : sProp 𝕄)
      = slotPts c 0 fullShare (gath m c) := by
  refine slot_congr c 0 fullShare _ _ fun i hi => ?_
  obtain ⟨y, rfl⟩ := View.exists_emb_of_mem_set (slotM 0).view hi
  obtain ⟨r, k, rfl⟩ : ∃ (r : Fin 4) (k : Fin 64), y = ix2 r k := ⟨y 0, y 1, eq_ix2 y⟩
  rw [slot_emb, gath_slot0, ← store_emb,
    View.write_emb_of_mem _ _ (Finset.mem_univ _)]
  rfl

/-- What copy `i` of device `c` lands in slot `7 - i` of the device `i + 1` places after it is that device's
    gathered scratch there. -/
theorem landing (m : (ℓ : Loc nD τ sig) → Buf (Elt F) ℓ) (c : Dev nD) (i : Fin 7)
    (fd : Buf (Elt F) ((slotM (slotOf (rev i))).view.loc ((pr c i : Dev nD) : Thread nD τ))) :
    ((slotM (slotOf (rev i))).view.loc ((pr c i : Dev nD) : Thread nD τ) ↦[(slotM (slotOf (rev i))).view.set]{fullShare} ((slotM (slotOf (rev i))).view.write (Elt F) fd ((slotM 0).view.read (Elt F) (gath m c)) Finset.univ) : sProp 𝕄) ⊢ recvPay m (pr c i) (rev i) := by
  refine Entails.of_eq (slot_congr (pr c i) (slotOf (rev i)) fullShare _ _ fun j hj => ?_)
  obtain ⟨y, rfl⟩ := View.exists_emb_of_mem_set (slotM (slotOf (rev i))).view hj
  obtain ⟨r, k, rfl⟩ : ∃ (r : Fin 4) (k : Fin 64), y = ix2 r k := ⟨y 0, y 1, eq_ix2 y⟩
  rw [View.write_emb_of_mem _ _ (Finset.mem_univ _), View.read_apply, slot_emb, slot_emb, gath_slot0, gath_slot]
  rfl

/-- The body's one read of the whole scratch reads its contents. -/
theorem read_whole (m : (ℓ : Loc nD τ sig) → Buf (Elt F) ℓ) (c : Dev nD) :
    scr.view.readAt (Elt F) (Rect.unit (s := S8x4x64) ![0, 0, 0] S8x4x64.size inb_S8x4x64_S8x4x64_0_0_0).toLoadRect (gath m c) = gath m c :=
  Memref.readAt_unit_zero (Elt F) cc0_scratch0 (by funext a; fin_cases a <;> rfl) _ _

/-- info: 'Cert.KernelIdeal.KProto.scr_split' depends on axioms: [propext, Classical.choice, Quot.sound] -/
#guard_msgs in #print axioms scr_split
/-- info: 'Cert.KernelIdeal.KProto.slot_share' depends on axioms: [propext, Classical.choice, Quot.sound] -/
#guard_msgs in #print axioms slot_share
/-- info: 'Cert.KernelIdeal.KProto.slot_congr' depends on axioms: [propext, Classical.choice, Quot.sound] -/
#guard_msgs in #print axioms slot_congr
/-- info: 'Cert.KernelIdeal.KProto.slot0_stored' depends on axioms: [propext, Classical.choice, Quot.sound] -/
#guard_msgs in #print axioms slot0_stored
/-- info: 'Cert.KernelIdeal.KProto.landing' depends on axioms: [propext, Classical.choice, Quot.sound] -/
#guard_msgs in #print axioms landing
/-- info: 'Cert.KernelIdeal.KProto.read_whole' depends on axioms: [propext, Classical.choice, Quot.sound] -/
#guard_msgs in #print axioms read_whole

end Cert.KernelIdeal.KProto

end
-- ==== Proof.KShares.lean ====
/-
  Slot 0 of a device's scratch is read by its seven outgoing copies and, while they are in flight, by the body's one
  read of the whole scratch. Its full share is halved; the right half is kept for that read; the left half is cut
  into seven, each cut keeping the left part and cutting the right part again. So the slot held in full is the slot
  held at the seven copies' shares and at the reader's share, side by side.
-/
import proofs.«900776_g7700000000000777_dist_diff_noisepred_hshard_i_b2_h128_w128_c64_v7x_i8_bf16_1_alg».proof.Proof.KProto
import proofs.«900776_g7700000000000777_dist_diff_noisepred_hshard_i_b2_h128_w128_c64_v7x_i8_bf16_1_alg».proof.Proof.KSlots

noncomputable section

namespace Cert.KernelIdeal.KProto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-- A slot held at a share is, as an assertion, the slot held at the two parts of the share. -/
theorem slot_share_eq (c : Dev nD) (s : Fin 8) {q q₁ q₂ : PosShare TreeShare} (h : q ∈ q₁ ·? q₂)
    (f : Buf (Elt F) ((c : Thread nD τ).loc cc0_scratch0)) :
    (slotPts c s q f : sProp 𝕄) = iprop(slotPts c s q₁ f ∗ slotPts c s q₂ f) :=
  BI.Entails.antisymm (slot_share c s h f).1 (slot_share c s h f).2

/-- Side by side is associative, as an equation of assertions. -/
theorem sep_assoc_eq (P Q R : sProp 𝕄) : (iprop((P ∗ Q) ∗ R) : sProp 𝕄) = iprop(P ∗ Q ∗ R) :=
  Idealize.SL.BI.Entails.antisymm Idealize.SL.BI.sep_assoc Idealize.SL.BI.sep_assoc'

theorem remL_zero : remL 0 = fullShare.left := rfl

/-- The slot in full is its two halves. -/
theorem slot_halves (c : Dev nD) (s : Fin 8) (f : Buf (Elt F) ((c : Thread nD τ).loc cc0_scratch0)) :
    (slotPts c s fullShare f : sProp 𝕄) ⊣⊢ iprop(slotPts c s fullShare.left f ∗ slotPts c s shR f) :=
  slot_share c s full_split f

/-- Slot 0 in full is the seven copies' shares and the reader's share. -/
theorem slot0_shares (c : Dev nD) (f : Buf (Elt F) ((c : Thread nD τ).loc cc0_scratch0)) :
    (slotPts c 0 fullShare f : sProp 𝕄) ⊣⊢ iprop(slotPts c 0 (shS 0) f ∗ slotPts c 0 (shS 1) f ∗ slotPts c 0 (shS 2) f ∗ slotPts c 0 (shS 3) f ∗ slotPts c 0 (shS 4) f ∗ slotPts c 0 (shS 5) f ∗ slotPts c 0 (shS 6) f ∗ slotPts c 0 shR f) := by
  have s0 : remL 0 ∈ (remL 0).left ·? remL 1 := remL_split 0
  have s1 : remL 1 ∈ (remL 1).left ·? remL 2 := remL_split 1
  have s2 : remL 2 ∈ (remL 2).left ·? remL 3 := remL_split 2
  have s3 : remL 3 ∈ (remL 3).left ·? remL 4 := remL_split 3
  have s4 : remL 4 ∈ (remL 4).left ·? remL 5 := remL_split 4
  have s5 : remL 5 ∈ (remL 5).left ·? remL 6 := remL_split 5
  have e : (slotPts c 0 fullShare f : sProp 𝕄)
      = iprop(slotPts c 0 (remL 0).left f ∗ slotPts c 0 (remL 1).left f ∗ slotPts c 0 (remL 2).left f ∗ slotPts c 0 (remL 3).left f
          ∗ slotPts c 0 (remL 4).left f ∗ slotPts c 0 (remL 5).left f ∗ slotPts c 0 (remL 6) f ∗ slotPts c 0 shR f) := by
    rw [← sep_assoc_eq (slotPts c 0 (remL 5).left f), ← slot_share_eq c 0 s5 f,
    ← sep_assoc_eq (slotPts c 0 (remL 4).left f), ← slot_share_eq c 0 s4 f,
    ← sep_assoc_eq (slotPts c 0 (remL 3).left f), ← slot_share_eq c 0 s3 f,
    ← sep_assoc_eq (slotPts c 0 (remL 2).left f), ← slot_share_eq c 0 s2 f,
    ← sep_assoc_eq (slotPts c 0 (remL 1).left f), ← slot_share_eq c 0 s1 f,
    ← sep_assoc_eq (slotPts c 0 (remL 0).left f), ← slot_share_eq c 0 s0 f,
      remL_zero, ← slot_share_eq c 0 full_split f]
  exact ⟨Entails.of_eq e, Entails.of_eq e.symm⟩

/-- info: 'Cert.KernelIdeal.KProto.slot0_shares' depends on axioms: [propext, Classical.choice, Quot.sound] -/
#guard_msgs in #print axioms slot0_shares

/-- info: 'Cert.KernelIdeal.KProto.slot_halves' depends on axioms: [propext, Classical.choice, Quot.sound] -/
#guard_msgs in #print axioms slot_halves

end Cert.KernelIdeal.KProto

end
-- ==== Proof.KBody.lean ====
/-
  One device's run of the kernel body, from the state the launch deals it to the state it hands back.

  The seven entry signals each give away one slot of the device's scratch, to the device that will write it. The band's
  per-channel sums and sums of squares go into slot 0. The wait for the seven signals addressed to this device brings the
  seven slots it may write on the others. Slot 0 is then copied into one slot of each other device, each copy reading it
  through its own share; the seven waits for the copies addressed to this device bring slots 1–7 back, holding the others'
  statistics. All eight slots are read at once through one half-share (the other half of slot 0 is still lent to the copies
  in flight, the other halves of slots 1–7 are set aside), the result block is computed from them and written, and the
  seven waits for the own copies to have left bring slot 0's shares back. Last the fourteen cells are closed and the scratch
  is whole again.
-/
import proofs.«900776_g7700000000000777_dist_diff_noisepred_hshard_i_b2_h128_w128_c64_v7x_i8_bf16_1_alg».proof.Proof.KTables
import proofs.«900776_g7700000000000777_dist_diff_noisepred_hshard_i_b2_h128_w128_c64_v7x_i8_bf16_1_alg».proof.Proof.KSlots
import proofs.«900776_g7700000000000777_dist_diff_noisepred_hshard_i_b2_h128_w128_c64_v7x_i8_bf16_1_alg».proof.Proof.KShares

noncomputable section

namespace Cert.KernelIdeal.KProto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open PCS

variable {F : FTy → Type} [FloatOps F]

local notation "𝕄" => MT nD τ sig Unit (Elt F) ℕ UU ℕ

variable (m : (ℓ : Loc nD τ sig) → Buf (Elt F) ℓ)

variable (K : GSem nD τ sig → ℕ)

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Slot `s` of device `c`'s scratch as a plain region, spelt through the slot's view. -/
abbrev sl (c : Dev nD) (s : Fin 8) (q : PosShare TreeShare) (f : Buf (Elt F) ((c : Thread nD τ).loc cc0_scratch0)) : sProp 𝕄 :=
  (slotM s).view.loc (c : Thread nD τ) ↦[(slotM s).view.set]{q} f

/-- The scratch cut into slot 0 and the seven slots `i + 1`, each spelt as the schedule's tables spell it. -/
theorem scr_cut (c : Dev nD) (q : PosShare TreeShare) (f : Buf (Elt F) ((c : Thread nD τ).loc cc0_scratch0)) :
    ((((c : Thread nD τ).loc cc0_scratch0) ↦{q} f : sProp 𝕄)) ⊣⊢ iprop(sl c 0 q f ∗ sl c (slotOf 0) q f ∗ sl c (slotOf 1) q f ∗ sl c (slotOf 2) q f
      ∗ sl c (slotOf 3) q f ∗ sl c (slotOf 4) q f ∗ sl c (slotOf 5) q f ∗ sl c (slotOf 6) q f) := scr_split c q f

/-- What the entry signal to the device `i + 1` places after hands over, seen from the payer: its own slot `i + 1` and
    that round 0 of its own receive cell `i` is reached. -/
theorem payload_bar_out (c : Dev nD) (i : Fin 7) : (Rd (F := F) m).payload (barCell (pr c i)) 0 (rev i)
    = iprop((∃ f, sl c (slotOf i) fullShare f) ∗ reached ER (recvCell c i) 0) := by
  rw [payload_bar]; unfold barPay slotPts
  have h : pr (pr c i) (rev i) = c := pl_pr c i
  rw [h, rev_rev]
theorem mem_duties_bar (c : Dev nD) (d : Fin 7) : d ∈ (Rd (F := F) m).duties (barCell c) 0 := by rw [duties_bar]; exact Finset.mem_univ _
/-- A landed copy and a departed copy, spelt as regions. -/
theorem payload_recv_pts (c : Dev nD) (i d : Fin 7) : (Rd (F := F) m).payload (recvCell c i) 0 d = sl c (slotOf i) fullShare (gath m c) := by
  rw [payload_recv]; rfl
theorem payload_send_pts (c : Dev nD) (i d : Fin 7) : (Rd (F := F) m).payload (sendCell c i) 0 d = sl c 0 (shS i) (gath m c) := by
  rw [payload_send]; rfl
theorem tc_fst (c : Dev nD) : ((c : Thread nD τ)).1 = c := rfl

attribute [local sl_rounds] duties_bar duties_send duties_recv amount_bar amount_send amount_recv expect_bar expect_send expect_recv
  payload_bar_out mem_duties_bar payload_recv_pts payload_send_pts
attribute [local sl_canon] tc_fst dev1_eq dev2_eq dev3_eq dev4_eq dev5_eq dev6_eq dev7_eq dev8_eq dev9_eq dev10_eq dev11_eq dev12_eq dev13_eq dev14_eq

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ idleSems c ∗ cred (tallyAt (barCell c) () 7) ∗ (bigSep Finset.univ fun i : Fin 7 => cred (tallyAt (recvCell c i) () N)) ∗ levAts L lv ∗ scrAny c)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ ∗ stg c cc0_stg0_0 (xstg m c) ∗ stg c cc0_stg1_0 (wstg m c) ∗ stg c cc0_stg2_0 (outAt m c))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
/-- Reading a staged block whole gives the block. -/
theorem read_x (f : (cc0_stg0_0 : Ref sig .tc).ty.Contents (Elt F)) :
    (Memref.whole cc0_stg0_0 : Memref sig .tc .vmem S2x128x128x64 .f32).view.readAt (Elt F)
      (Rect.unit (s := S2x128x128x64) ![0, 0, 0, 0] S2x128x128x64.size inb_S2x128x128x64_S2x128x128x64_0_0_0_0).toLoadRect f = f :=
  Memref.readAt_unit_zero (Elt F) cc0_stg0_0 hz4 _ f
theorem read_w (f : (cc0_stg1_0 : Ref sig .tc).ty.Contents (Elt F)) :
    (Memref.whole cc0_stg1_0 : Memref sig .tc .vmem S64x128 .f32).view.readAt (Elt F)
      (Rect.unit (s := S64x128) ![0, 0] S64x128.size inb_S64x128_S64x128_0_0).toLoadRect f = f :=
  Memref.readAt_unit_zero (Elt F) cc0_stg1_0 hz2 _ f

/-- The region lemmas of the slots, in the spelling the body's hypotheses have. -/
theorem halves' (c : Dev nD) (s : Fin 8) (f : Buf (Elt F) ((c : Thread nD τ).loc cc0_scratch0)) :
    sl c s fullShare f ⊣⊢ iprop(slotPts c s fullShare.left f ∗ slotPts c s shR f) := slot_halves c s f
theorem scr_cutP (c : Dev nD) (q : PosShare TreeShare) (f : Buf (Elt F) ((c : Thread nD τ).loc cc0_scratch0)) :
    ((((c : Thread nD τ).loc cc0_scratch0) ↦{q} f : sProp 𝕄)) ⊣⊢ iprop(slotPts c 0 q f ∗ slotPts c (slotOf 0) q f ∗ slotPts c (slotOf 1) q f ∗ slotPts c (slotOf 2) q f
      ∗ slotPts c (slotOf 3) q f ∗ slotPts c (slotOf 4) q f ∗ slotPts c (slotOf 5) q f ∗ slotPts c (slotOf 6) q f) := scr_split c q f
/-- Writing a staged block whole leaves what was written. -/
theorem write_out (f w : (cc0_stg2_0 : Ref sig .tc).ty.Contents (Elt F)) :
    (((Memref.whole cc0_stg2_0 : Memref sig .tc .vmem S2x128x128x128 .bf16)).access
        (Rect.unit (s := S2x128x128x128) ![0, 0, 0, 0] S2x128x128x128.size inb_S2x128x128x128_S2x128x128x128_0_0_0_0) : View sig .tc _ _ _).write (Elt F) f w Finset.univ = w :=
  Memref.write_access_unit_zero_univ (Elt F) cc0_stg2_0 hz4 _ f w
theorem read_out (f : (cc0_stg2_0 : Ref sig .tc).ty.Contents (Elt F)) :
    (Memref.whole cc0_stg2_0 : Memref sig .tc .vmem S2x128x128x128 .bf16).view.readAt (Elt F)
      (Rect.unit (s := S2x128x128x128) ![0, 0, 0, 0] S2x128x128x128.size inb_S2x128x128x128_S2x128x128x128_0_0_0_0).toLoadRect f = f :=
  Memref.readAt_unit_zero (Elt F) cc0_stg2_0 hz4 _ f
/-- Slot 0 whole again from the seven lent shares and the kept half. -/
theorem shares_join (c : Dev nD) (f : Buf (Elt F) ((c : Thread nD τ).loc cc0_scratch0)) :
    iprop(sl c 0 (shS 0) f ∗ sl c 0 (shS 1) f ∗ sl c 0 (shS 2) f ∗ sl c 0 (shS 3) f ∗ sl c 0 (shS 4) f ∗ sl c 0 (shS 5) f ∗ sl c 0 (shS 6) f ∗ slotPts c 0 shR f)
      ⊢ slotPts c 0 fullShare f := (slot0_shares c f).2

/-- Copy `i`: slot 0, read through its share, sent into slot `7 - i` of the device `i + 1` places after; the two duties it
    pays are the own send cell's and that device's receive cell's, and what lands there is that device's gathered
    buffer on that slot. -/
theorem step_send (c : Dev nD) (i : Fin 7) (n : Dev nD) (hn : n = pr c i)
    {hsc : ((slotM (slotOf (rev i)) : Memref sig (Dev.tc n : Thread nD τ).2.kind .vmem S4x64 .f32)).view.ref.isScScratch = false}
    {hsrc : (slotM 0 : Memref sig .tc .vmem S4x64 .f32).view.WordExact} {hdst : (slotM (slotOf (rev i)) : Memref sig .tc .vmem S4x64 .f32).view.WordExact}
    {hsem : DmaTarget.Typed .vmem (.dma (recvS (rev i))) (.remote (Dev.tc n : Thread nD τ) (slotM (slotOf (rev i))) (.dma (sendS i)) hsc)}
    {α : Type} {Q : α → sProp 𝕄} {k : PUnit → Prog (TpuEff nD τ sig (Elt F) Λ₀ .tc) α}
    (fn : Buf (Elt F) (((pr c i : Dev nD) : Thread nD τ).loc cc0_scratch0)) (O : CellTallies nD τ sig Unit) (W : Waits sig Unit) :
    iprop(cellInv ER (Rd m) (K (sendCell c i)) (sendCell c i) ∗ cellInv ER (Rd m) (K (recvCell (pr c i) (rev i))) (recvCell (pr c i) (rev i))
        ∗ slotPts c 0 (shS i) (gath m c) ∗ slotPts (pr c i) (slotOf (rev i)) fullShare fn
        ∗ owes (c : Thread nD τ) (O + tallyAt (recvCell (pr c i) (rev i)) () N) W
        ∗ dutyTok ER (sendCell c i) 0 (0 : Fin 7) ∗ reached ER (sendCell c i) 0
        ∗ dutyTok ER (recvCell (pr c i) (rev i)) 0 (0 : Fin 7) ∗ reached ER (recvCell (pr c i) (rev i)) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM (slotOf (rev i))) (.dma (sendS i)) hsc) (.dma (recvS (rev i))) hsrc hdst hsem) k) Q) := by
  subst hn
  unfold slotPts
  have hd₁ : (0 : Fin 7) ∈ (Rd (F := F) m).duties (sendCell c i) 0 := by rw [duties_send]; exact Finset.mem_singleton_self _
  have hd₂ : (0 : Fin 7) ∈ (Rd (F := F) m).duties (recvCell (pr c i) (rev i)) 0 := by
    rw [duties_recv]; exact Finset.mem_singleton_self _
  have hN : (slotM (slotOf (rev i))).view.amount (SemLoc.dma (recvS (rev i))) = N := rfl
  have hp₁ : ((slotM 0).view.loc (c : Thread nD τ) ↦[(slotM 0).view.set]{shS i} gath m c : sProp 𝕄)
      ⊢ (Rd (F := F) m).payload (sendCell c i) 0 (0 : Fin 7) := by
    rw [payload_send]; exact BI.Entails.refl _
  have hp₂ : ((slotM (slotOf (rev i))).view.loc ((pr c i : Dev nD) : Thread nD τ) ↦[(slotM (slotOf (rev i))).view.set]{fullShare}
        ((slotM (slotOf (rev i))).view.write (Elt F) fn ((slotM 0).view.read (Elt F) (gath m c)) Finset.univ) : sProp 𝕄)
      ⊢ (Rd (F := F) m).payload (recvCell (pr c i) (rev i)) 0 (0 : Fin 7) := by
    rw [payload_recv]; exact landing m c i fn
  exact Rounds.wp_send_pointsTo (defs := defs₀ (F := F)) 𝒱₀ ER (Rd (F := F) m) (c : Thread nD τ) none
    (c' := ((pr c i : Dev nD) : Thread nD τ)) (src := slotM 0) (dst := slotM (slotOf (rev i))) (hsc := hsc)
    (sS := SemLoc.dma (sendS i)) (sem := SemLoc.dma (recvS (rev i))) (hsrc := hsrc) (hdst := hdst) (hsem := hsem) (k := k)
    (q := shS i) (fs := gath m c) (fd := fn) (r₁ := 0) (r₂ := 0) (d₁ := (0 : Fin 7)) (d₂ := (0 : Fin 7))
    (κ₁ := K (sendCell c i)) (κ₂ := K (recvCell (pr c i) (rev i)))
    hd₁ hd₂ () () N hN (amount_send m c i 0) (amount_recv m (pr c i) (rev i) 0) O rfl (W := W) hp₁ hp₂
    (Topo.routes_tc _ _)

attribute [local irreducible] pr

set_option maxRecDepth 65536 in
set_option maxHeartbeats 3200000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (F := F) (Memref.whole cc0_stg0_0) (hstage0_0 0) (Memref.whole cc0_stg1_0) (hstage0_1 0) (Memref.whole cc0_stg2_0) (hstage0_2 0)
            (Memref.whole cc0_scratch0) (Memref.isWhole_whole _) cc0_scratch1 cc0_scratch2) Kt := by
  unfold bodyPre ghost invs idleSems scrAny
  simp only [bigSep_fin7]
  iintro ⟨⟨⟨⟨⟨#IB, ⟨#IS0, #IS1, #IS2, #IS3, #IS4, #IS5, #IS6⟩, ⟨#IR0, #IR1, #IR2, #IR3, #IR4, #IR5, #IR6⟩, ⟨#IBp0, #IBp1, #IBp2, #IBp3, #IBp4, #IBp5, #IBp6⟩, ⟨#IRp0, #IRp1, #IRp2, #IRp3, #IRp4, #IRp5, #IRp6⟩⟩, HatB, ⟨HatS0, HatS1, HatS2, HatS3, HatS4, HatS5, HatS6⟩, ⟨HatR0, HatR1, HatR2, HatR3, HatR4, HatR5, HatR6⟩,
      ⟨#rB0, #rB1, #rB2, #rB3, #rB4, #rB5, #rB6⟩, ⟨#rRp0, #rRp1, #rRp2, #rRp3, #rRp4, #rRp5, #rRp6⟩, ⟨#rS0, #rS1, #rS2, #rS3, #rS4, #rS5, #rS6⟩, ⟨#rR0, #rR1, #rR2, #rR3, #rR4, #rR5, #rR6⟩, ⟨HtB0, HtB1, HtB2, HtB3, HtB4, HtB5, HtB6⟩, ⟨HtRp0, HtRp1, HtRp2, HtRp3, HtRp4, HtRp5, HtRp6⟩, ⟨HtS0, HtS1, HtS2, HtS3, HtS4, HtS5, HtS6⟩⟩,
      ⟨Hidle0, Hidle1⟩, HcB, ⟨HcR0, HcR1, HcR2, HcR3, HcR4, HcR5, HcR6⟩, #Hlev, ⟨%f0, Hscr⟩⟩,
    Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m 0 c).owed t0_0.castSucc = O₀ c from rfl]
  rw [show O₀ c = (0 : CellTallies nD τ sig Unit) + tallyAt (recvCell (pr c 6) (rev 6)) () N + tallyAt (recvCell (pr c 5) (rev 5)) () N + tallyAt (recvCell (pr c 4) (rev 4)) () N
    + tallyAt (recvCell (pr c 3) (rev 3)) () N + tallyAt (recvCell (pr c 2) (rev 2)) () N + tallyAt (recvCell (pr c 1) (rev 1)) () N + tallyAt (recvCell (pr c 0) (rev 0)) () N
    + tallyAt (barCell (pr c 6)) () 1 + tallyAt (barCell (pr c 5)) () 1 + tallyAt (barCell (pr c 4)) () 1 + tallyAt (barCell (pr c 3)) () 1
    + tallyAt (barCell (pr c 2)) () 1 + tallyAt (barCell (pr c 1)) () 1 + tallyAt (barCell (pr c 0)) () 1 from rfl]
  -- the scratch cut into its eight slots
  ihave Hs := (scr_cut c fullShare f0).1 $$ Hscr
  icases Hs with ⟨Hs0, Hs1, Hs2, Hs3, Hs4, Hs5, Hs6, Hs7⟩
  ihave Hz0 := (Entails.of_eq (show sl c 0 fullShare f0 = slotPts c 0 fullShare f0 from rfl)) $$ Hs0
  simp only [cc0_body_eq_skeleton]; unfold cc0_body_skel
  have hmw : (levAts L lv : sProp 𝕄) ⊢ MayWait (c : Thread nD τ) (.reg barS) () ((0 : CellTallies nD τ sig Unit) + tallyAt (recvCell (pr c 6) (rev 6)) () N + tallyAt (recvCell (pr c 5) (rev 5)) () N + tallyAt (recvCell (pr c 4) (rev 4)) () N
    + tallyAt (recvCell (pr c 3) (rev 3)) () N + tallyAt (recvCell (pr c 2) (rev 2)) () N + tallyAt (recvCell (pr c 1) (rev 1)) () N + tallyAt (recvCell (pr c 0) (rev 0)) () N) := mayWait_bar (F := F) c
  sl_exec_parts
  -- the band, read whole
  iapply (wp_load 𝒱₀ (c : Thread nD τ) none Set.univ (m := (Memref.whole cc0_stg0_0 : Memref sig .tc .vmem S2x128x128x64 .f32)) (Finset.subset_univ _)) $$ Hx; iintro Hx
  rw [read_x]
  ihave Hs0 := (Entails.of_eq (show slotPts c 0 fullShare f0 = sl c 0 fullShare f0 from rfl)) $$ Hz0
  -- slot 0 read and overwritten with the band's statistics; the wait for the seven entry signals
  sl_exec_parts
  sl_unfold_words
  ihave Hz0 := (Entails.of_eq (show sl c 0 fullShare ((scr.access (Rect.unit (s := S8x4x64) ![0, 0, 0] S1x4x64.size inb_S8x4x64_S1x4x64_0_0_0)).write (Elt F) f0 (k0_pay2 (xstg m c)) Finset.univ)
      = slotPts c 0 fullShare (gath m c) from slot0_stored m c f0)) $$ Hs0
  -- what the seven signals handed over: the slot each peer grants, and that its receive cell is at round 0
  ihave Hp := (Entails.of_eq (show ([∗ Finset.univ] (d : Fin 7), (Rd m).payload (barCell c) 0 d : sProp 𝕄)
      = iprop(barPay c 0 ∗ barPay c 1 ∗ barPay c 2 ∗ barPay c 3 ∗ barPay c 4 ∗ barPay c 5 ∗ barPay c 6) from by
        rw [bigSep_fin7]; simp only [payload_bar])) $$ HatB_pay1
  unfold barPay
  icases Hp with ⟨⟨⟨%fn0, Hn0⟩, #rn0⟩, ⟨⟨%fn1, Hn1⟩, #rn1⟩, ⟨⟨%fn2, Hn2⟩, #rn2⟩, ⟨⟨%fn3, Hn3⟩, #rn3⟩, ⟨⟨%fn4, Hn4⟩, #rn4⟩, ⟨⟨%fn5, Hn5⟩, #rn5⟩, ⟨⟨%fn6, Hn6⟩, #rn6⟩⟩
  -- slot 0's share cut: seven pieces for the copies, the right half kept for the read of the whole scratch
  ihave Hq := (slot0_shares c (gath m c)).1 $$ Hz0
  icases Hq with ⟨Hq0, Hq1, Hq2, Hq3, Hq4, Hq5, Hq6, HqR⟩
  -- copy 1: to the device 1 places after, into its slot 7
  iapply (step_send m K c 0 _ (dev8_eq c) fn0 ((0 : CellTallies nD τ sig Unit) + tallyAt (recvCell (pr c 6) (rev 6)) () N + tallyAt (recvCell (pr c 5) (rev 5)) () N + tallyAt (recvCell (pr c 4) (rev 4)) () N + tallyAt (recvCell (pr c 3) (rev 3)) () N + tallyAt (recvCell (pr c 2) (rev 2)) () N + tallyAt (recvCell (pr c 1) (rev 1)) () N) _) $$ [Hq0 Hn0 HO HtS0 HtRp0]
  · isplitr; · iexact IS0
    isplitr; · iexact IRp0
    isplitl [Hq0]; · iexact Hq0
    isplitl [Hn0]; · iexact Hn0
    isplitl [HO]; · iexact HO
    isplitl [HtS0]; · iexact HtS0
    isplitr; · iexact rS0
    isplitl [HtRp0]; · iexact HtRp0
    iexact rRp0
  iintro ⟨HcS0, HO⟩
  sl_exec_parts
  -- copy 2: to the device 2 places after, into its slot 6
  iapply (step_send m K c 1 _ (dev9_eq c) fn1 ((0 : CellTallies nD τ sig Unit) + tallyAt (recvCell (pr c 6) (rev 6)) () N + tallyAt (recvCell (pr c 5) (rev 5)) () N + tallyAt (recvCell (pr c 4) (rev 4)) () N + tallyAt (recvCell (pr c 3) (rev 3)) () N + tallyAt (recvCell (pr c 2) (rev 2)) () N) _) $$ [Hq1 Hn1 HO HtS1 HtRp1]
  · isplitr; · iexact IS1
    isplitr; · iexact IRp1
    isplitl [Hq1]; · iexact Hq1
    isplitl [Hn1]; · iexact Hn1
    isplitl [HO]; · iexact HO
    isplitl [HtS1]; · iexact HtS1
    isplitr; · iexact rS1
    isplitl [HtRp1]; · iexact HtRp1
    iexact rRp1
  iintro ⟨HcS1, HO⟩
  sl_exec_parts
  -- copy 3: to the device 3 places after, into its slot 5
  iapply (step_send m K c 2 _ (dev10_eq c) fn2 ((0 : CellTallies nD τ sig Unit) + tallyAt (recvCell (pr c 6) (rev 6)) () N + tallyAt (recvCell (pr c 5) (rev 5)) () N + tallyAt (recvCell (pr c 4) (rev 4)) () N + tallyAt (recvCell (pr c 3) (rev 3)) () N) _) $$ [Hq2 Hn2 HO HtS2 HtRp2]
  · isplitr; · iexact IS2
    isplitr; · iexact IRp2
    isplitl [Hq2]; · iexact Hq2
    isplitl [Hn2]; · iexact Hn2
    isplitl [HO]; · iexact HO
    isplitl [HtS2]; · iexact HtS2
    isplitr; · iexact rS2
    isplitl [HtRp2]; · iexact HtRp2
    iexact rRp2
  iintro ⟨HcS2, HO⟩
  sl_exec_parts
  -- copy 4: to the device 4 places after, into its slot 4
  iapply (step_send m K c 3 _ (dev11_eq c) fn3 ((0 : CellTallies nD τ sig Unit) + tallyAt (recvCell (pr c 6) (rev 6)) () N + tallyAt (recvCell (pr c 5) (rev 5)) () N + tallyAt (recvCell (pr c 4) (rev 4)) () N) _) $$ [Hq3 Hn3 HO HtS3 HtRp3]
  · isplitr; · iexact IS3
    isplitr; · iexact IRp3
    isplitl [Hq3]; · iexact Hq3
    isplitl [Hn3]; · iexact Hn3
    isplitl [HO]; · iexact HO
    isplitl [HtS3]; · iexact HtS3
    isplitr; · iexact rS3
    isplitl [HtRp3]; · iexact HtRp3
    iexact rRp3
  iintro ⟨HcS3, HO⟩
  sl_exec_parts
  -- copy 5: to the device 5 places after, into its slot 3
  iapply (step_send m K c 4 _ (dev12_eq c) fn4 ((0 : CellTallies nD τ sig Unit) + tallyAt (recvCell (pr c 6) (rev 6)) () N + tallyAt (recvCell (pr c 5) (rev 5)) () N) _) $$ [Hq4 Hn4 HO HtS4 HtRp4]
  · isplitr; · iexact IS4
    isplitr; · iexact IRp4
    isplitl [Hq4]; · iexact Hq4
    isplitl [Hn4]; · iexact Hn4
    isplitl [HO]; · iexact HO
    isplitl [HtS4]; · iexact HtS4
    isplitr; · iexact rS4
    isplitl [HtRp4]; · iexact HtRp4
    iexact rRp4
  iintro ⟨HcS4, HO⟩
  sl_exec_parts
  -- copy 6: to the device 6 places after, into its slot 2
  iapply (step_send m K c 5 _ (dev13_eq c) fn5 ((0 : CellTallies nD τ sig Unit) + tallyAt (recvCell (pr c 6) (rev 6)) () N) _) $$ [Hq5 Hn5 HO HtS5 HtRp5]
  · isplitr; · iexact IS5
    isplitr; · iexact IRp5
    isplitl [Hq5]; · iexact Hq5
    isplitl [Hn5]; · iexact Hn5
    isplitl [HO]; · iexact HO
    isplitl [HtS5]; · iexact HtS5
    isplitr; · iexact rS5
    isplitl [HtRp5]; · iexact HtRp5
    iexact rRp5
  iintro ⟨HcS5, HO⟩
  sl_exec_parts
  -- copy 7: to the device 7 places after, into its slot 1
  iapply (step_send m K c 6 _ (dev14_eq c) fn6 ((0 : CellTallies nD τ sig Unit)) _) $$ [Hq6 Hn6 HO HtS6 HtRp6]
  · isplitr; · iexact IS6
    isplitr; · iexact IRp6
    isplitl [Hq6]; · iexact Hq6
    isplitl [Hn6]; · iexact Hn6
    isplitl [HO]; · iexact HO
    isplitl [HtS6]; · iexact HtS6
    isplitr; · iexact rS6
    isplitl [HtRp6]; · iexact HtRp6
    iexact rRp6
  iintro ⟨HcS6, HO⟩
  sl_exec_parts
  -- (the run above went on through the seven waits for the copies addressed to this device: slot i + 1 back, holding its sender's statistics)
  imod (Rounds.cell_close ER (Rd m) (Set.mem_univ (K (recvCell c 0))) (fun h => h) (R := 0 + 1) (duties_later m (recvCell c 0))) $$ [HatR0] with HzR0
  · isplitr; · iexact IR0
    iexact HatR0
  imod (Rounds.cell_close ER (Rd m) (Set.mem_univ (K (recvCell c 1))) (fun h => h) (R := 0 + 1) (duties_later m (recvCell c 1))) $$ [HatR1] with HzR1
  · isplitr; · iexact IR1
    iexact HatR1
  imod (Rounds.cell_close ER (Rd m) (Set.mem_univ (K (recvCell c 2))) (fun h => h) (R := 0 + 1) (duties_later m (recvCell c 2))) $$ [HatR2] with HzR2
  · isplitr; · iexact IR2
    iexact HatR2
  imod (Rounds.cell_close ER (Rd m) (Set.mem_univ (K (recvCell c 3))) (fun h => h) (R := 0 + 1) (duties_later m (recvCell c 3))) $$ [HatR3] with HzR3
  · isplitr; · iexact IR3
    iexact HatR3
  imod (Rounds.cell_close ER (Rd m) (Set.mem_univ (K (recvCell c 4))) (fun h => h) (R := 0 + 1) (duties_later m (recvCell c 4))) $$ [HatR4] with HzR4
  · isplitr; · iexact IR4
    iexact HatR4
  imod (Rounds.cell_close ER (Rd m) (Set.mem_univ (K (recvCell c 5))) (fun h => h) (R := 0 + 1) (duties_later m (recvCell c 5))) $$ [HatR5] with HzR5
  · isplitr; · iexact IR5
    iexact HatR5
  imod (Rounds.cell_close ER (Rd m) (Set.mem_univ (K (recvCell c 6))) (fun h => h) (R := 0 + 1) (duties_later m (recvCell c 6))) $$ [HatR6] with HzR6
  · isplitr; · iexact IR6
    iexact HatR6
  ihave Hh0 := (halves' c (slotOf 0) (gath m c)).1 $$ HatR0_pay1
  icases Hh0 with ⟨HL0, HR0⟩
  ihave Hh1 := (halves' c (slotOf 1) (gath m c)).1 $$ HatR1_pay1
  icases Hh1 with ⟨HL1, HR1⟩
  ihave Hh2 := (halves' c (slotOf 2) (gath m c)).1 $$ HatR2_pay1
  icases Hh2 with ⟨HL2, HR2⟩
  ihave Hh3 := (halves' c (slotOf 3) (gath m c)).1 $$ HatR3_pay1
  icases Hh3 with ⟨HL3, HR3⟩
  ihave Hh4 := (halves' c (slotOf 4) (gath m c)).1 $$ HatR4_pay1
  icases Hh4 with ⟨HL4, HR4⟩
  ihave Hh5 := (halves' c (slotOf 5) (gath m c)).1 $$ HatR5_pay1
  icases Hh5 with ⟨HL5, HR5⟩
  ihave Hh6 := (halves' c (slotOf 6) (gath m c)).1 $$ HatR6_pay1
  icases Hh6 with ⟨HL6, HR6⟩
  -- the whole scratch through the right halves
  ihave Hwh := (scr_cutP c shR (gath m c)).2 $$ [HqR HR0 HR1 HR2 HR3 HR4 HR5 HR6]
  · isplitl [HqR]; · iexact HqR
    isplitl [HR0]; · iexact HR0
    isplitl [HR1]; · iexact HR1
    isplitl [HR2]; · iexact HR2
    isplitl [HR3]; · iexact HR3
    isplitl [HR4]; · iexact HR4
    isplitl [HR5]; · iexact HR5
    iexact HR6
  iapply (wp_load 𝒱₀ (c : Thread nD τ) none Set.univ (m := scr) (Finset.subset_univ _)) $$ Hwh; iintro Hwh
  rw [read_whole]
  -- the matrix, and the result block overwritten with the body's last payload
  simp only [Prog.lift, Prog.bind_op, Prog.bind_ret, Prog.pure_eq_ret]
  iapply (wp_load 𝒱₀ (c : Thread nD τ) none Set.univ (m := (Memref.whole cc0_stg1_0 : Memref sig .tc .vmem S64x128 .f32)) (Finset.subset_univ _)) $$ Hw; iintro Hw
  rw [read_w]
  iapply (wp_load 𝒱₀ (c : Thread nD τ) none Set.univ (m := (Memref.whole cc0_stg2_0 : Memref sig .tc .vmem S2x128x128x128 .bf16)) (Finset.subset_univ _)) $$ Hout; iintro Hout
  iapply (wp_store 𝒱₀ (c : Thread nD τ) none Set.univ (m := (Memref.whole cc0_stg2_0 : Memref sig .tc .vmem S2x128x128x128 .bf16))
      (r := Rect.unit (s := S2x128x128x128) ![0, 0, 0, 0] S2x128x128x128.size inb_S2x128x128x128_S2x128x128x128_0_0_0_0) (Mk := Finset.univ) (Finset.subset_univ _)) $$ Hout; iintro Hout
  rw [write_out]
  -- the seven waits for the own copies to have left: each hands back the share of slot 0 it read through
  sl_exec_parts
  imod (Rounds.cell_close ER (Rd m) (Set.mem_univ (K (sendCell c 0))) (fun h => h) (R := 0 + 1) (duties_later m (sendCell c 0))) $$ [HatS0] with HzS0
  · isplitr; · iexact IS0
    iexact HatS0
  imod (Rounds.cell_close ER (Rd m) (Set.mem_univ (K (sendCell c 1))) (fun h => h) (R := 0 + 1) (duties_later m (sendCell c 1))) $$ [HatS1] with HzS1
  · isplitr; · iexact IS1
    iexact HatS1
  imod (Rounds.cell_close ER (Rd m) (Set.mem_univ (K (sendCell c 2))) (fun h => h) (R := 0 + 1) (duties_later m (sendCell c 2))) $$ [HatS2] with HzS2
  · isplitr; · iexact IS2
    iexact HatS2
  imod (Rounds.cell_close ER (Rd m) (Set.mem_univ (K (sendCell c 3))) (fun h => h) (R := 0 + 1) (duties_later m (sendCell c 3))) $$ [HatS3] with HzS3
  · isplitr; · iexact IS3
    iexact HatS3
  imod (Rounds.cell_close ER (Rd m) (Set.mem_univ (K (sendCell c 4))) (fun h => h) (R := 0 + 1) (duties_later m (sendCell c 4))) $$ [HatS4] with HzS4
  · isplitr; · iexact IS4
    iexact HatS4
  imod (Rounds.cell_close ER (Rd m) (Set.mem_univ (K (sendCell c 5))) (fun h => h) (R := 0 + 1) (duties_later m (sendCell c 5))) $$ [HatS5] with HzS5
  · isplitr; · iexact IS5
    iexact HatS5
  imod (Rounds.cell_close ER (Rd m) (Set.mem_univ (K (sendCell c 6))) (fun h => h) (R := 0 + 1) (duties_later m (sendCell c 6))) $$ [HatS6] with HzS6
  · isplitr; · iexact IS6
    iexact HatS6
  -- the scratch whole again: slot 0 from its eight shares, slots 1–7 from their halves
  ihave Hsl := (scr_cutP c shR (gath m c)).1 $$ Hwh
  icases Hsl with ⟨HqR, HR0, HR1, HR2, HR3, HR4, HR5, HR6⟩
  ihave Hf0 := (shares_join c (gath m c)) $$ [HatS0_pay1 HatS1_pay1 HatS2_pay1 HatS3_pay1 HatS4_pay1 HatS5_pay1 HatS6_pay1 HqR]
  · isplitl [HatS0_pay1]; · iexact HatS0_pay1
    isplitl [HatS1_pay1]; · iexact HatS1_pay1
    isplitl [HatS2_pay1]; · iexact HatS2_pay1
    isplitl [HatS3_pay1]; · iexact HatS3_pay1
    isplitl [HatS4_pay1]; · iexact HatS4_pay1
    isplitl [HatS5_pay1]; · iexact HatS5_pay1
    isplitl [HatS6_pay1]; · iexact HatS6_pay1
    iexact HqR
  ihave Hf1 := (slot_halves c (slotOf 0) (gath m c)).2 $$ [HL0 HR0]
  · isplitl [HL0]; · iexact HL0
    iexact HR0
  ihave Hf2 := (slot_halves c (slotOf 1) (gath m c)).2 $$ [HL1 HR1]
  · isplitl [HL1]; · iexact HL1
    iexact HR1
  ihave Hf3 := (slot_halves c (slotOf 2) (gath m c)).2 $$ [HL2 HR2]
  · isplitl [HL2]; · iexact HL2
    iexact HR2
  ihave Hf4 := (slot_halves c (slotOf 3) (gath m c)).2 $$ [HL3 HR3]
  · isplitl [HL3]; · iexact HL3
    iexact HR3
  ihave Hf5 := (slot_halves c (slotOf 4) (gath m c)).2 $$ [HL4 HR4]
  · isplitl [HL4]; · iexact HL4
    iexact HR4
  ihave Hf6 := (slot_halves c (slotOf 5) (gath m c)).2 $$ [HL5 HR5]
  · isplitl [HL5]; · iexact HL5
    iexact HR5
  ihave Hf7 := (slot_halves c (slotOf 6) (gath m c)).2 $$ [HL6 HR6]
  · isplitl [HL6]; · iexact HL6
    iexact HR6
  ihave Hfull := (scr_cutP c fullShare (gath m c)).2 $$ [Hf0 Hf1 Hf2 Hf3 Hf4 Hf5 Hf6 Hf7]
  · isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    iexact Hf7
  -- the return: the post handed to the continuation
  simp only [Prog.lift, Prog.bind_op, Prog.bind_ret, Prog.pure_eq_ret, wp_ret]
  imodintro
  iapply Hk
  unfold bodyPost Φ₁ idleSems Dat.owesAt Pipeline.owesWithin
  rw [show (dats m 0 c).owed t0_0.succ = 0 from rfl]
  simp only [bigSep_fin7]
  isplitl [Hfull Hidle0 Hidle1 HzS0 HzS1 HzS2 HzS3 HzS4 HzS5 HzS6 HzR0 HzR1 HzR2 HzR3 HzR4 HzR5 HzR6]
  · isplitl [Hfull]; · iexact Hfull
    isplitl [Hidle0 Hidle1]
    · isplitl [Hidle0]; · iexact Hidle0
      iexact Hidle1
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      iexact HzR6
  isplitl [HO]
  · iexists _
    isplitr
    swap
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; rfl)
  iexact Hout

/-- What the pipeline hands the body at the one point, and what it must hand back. -/
def bodyPre' (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

set_option maxRecDepth 16384 in
/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre' m c ⊢ wp frame (wpE (defs₀ (F := F)) 𝒱₀ c none) Set.univ
    (cc0_body (F := F) (Memref.whole cc0_stg0_0) (hstage0_0 0) (Memref.whole cc0_stg1_0) (hstage0_1 0) (Memref.whole cc0_stg2_0) (hstage0_2 0)
      (Memref.whole cc0_scratch0) (Memref.isWhole_whole _) cc0_scratch1 cc0_scratch2) (fun _ => bodyPost m c)
  unfold bodyPre' Φ₀ start
  iintro ⟨⟨⟨⟨%K, Hg⟩, Hidle, HcB, HcR, Hlev⟩, Hscr⟩, Ho, Hx, Hw, Hout⟩
  iapply (sound_body m K c fun _ => bodyPost m c)
  unfold bodyPre
  isplitr []
  · isplitl [Hg Hidle HcB HcR Hlev Hscr]
    · isplitl [Hg]; · iexact Hg
      isplitl [Hidle]; · iexact Hidle
      isplitl [HcB]; · iexact HcB
      isplitl [HcR]; · iexact HcR
      isplitl [Hlev]; · iexact Hlev
      iexact Hscr
    isplitl [Ho]; · iexact Ho
    isplitl [Hx]; · iexact Hx
    isplitl [Hw]; · iexact Hw
    iexact Hout
  · iintro H; iexact H

/-- info: 'Cert.KernelIdeal.KProto.body_obligation' depends on axioms: [propext, Classical.choice, Quot.sound] -/
#guard_msgs in #print axioms body_obligation

end Cert.KernelIdeal.KProto

end
-- ==== Proof.KLaunch.lean ====
/-
  The launch of the exchange, second part: the run.

  Every device starts from the exchange's ghost state at some names, the two idle semaphores, the credit its own cells
  are owed (seven units on its barrier cell, one slot's credit on each receive cell) and the level facts; the scratch
  comes in at arbitrary contents when the region is entered. At the exit the scratch is whole again and the sixteen own
  semaphores are back at zero. A staging wait sits at level 0, below everything a device can still owe. With each
  device's body proved from that start, the program runs to a state where every window's array holds what the proof
  data says.
-/
import proofs.«900776_g7700000000000777_dist_diff_noisepred_hshard_i_b2_h128_w128_c64_v7x_i8_bf16_1_alg».proof.Proof.KProto
import proofs.«900776_g7700000000000777_dist_diff_noisepred_hshard_i_b2_h128_w128_c64_v7x_i8_bf16_1_alg».proof.Proof.KTables
import proofs.«900776_g7700000000000777_dist_diff_noisepred_hshard_i_b2_h128_w128_c64_v7x_i8_bf16_1_alg».proof.Proof.KCredit
import proofs.«900776_g7700000000000777_dist_diff_noisepred_hshard_i_b2_h128_w128_c64_v7x_i8_bf16_1_alg».proof.Proof.KGhost
import proofs.«900776_g7700000000000777_dist_diff_noisepred_hshard_i_b2_h128_w128_c64_v7x_i8_bf16_1_alg».proof.Proof.KBody

noncomputable section

namespace Cert.KernelIdeal.KProto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## The launch theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, HG, Hidle⟩
  ihave Hc := (creds (F := F) c) $$ Hcr
  icases Hc with ⟨H1, HN⟩
  imodintro
  unfold start
  isplitl
  · isplitl [HG]; · iexact HG
    isplitl [Hidle]; · iexact Hidle
    isplitl [H1]; · iexact H1
    isplitl [HN]; · iexact HN
    iexact Hlev
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, ⟨%f, Hr⟩⟩
  isplitl [Hs]; · iexact Hs
  iexists f; iexact Hr

theorem phi1_exit (m : (ℓ : Loc nD τ sig) → Buf (Elt F) ℓ) (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁ idleSems
  iintro ⟨Hr, ⟨H3, H11⟩, HS, HV⟩
  isplitr; · iempintro
  isplitl [H3 H11 HS HV]
  · isplitl [H3 HS]
    · isplitl [H3] <;> iassumption
    · isplitl [H11] <;> iassumption
  iexists (gath m c); iexact Hr

/-- A staging semaphore serves no copy of the exchange: a wait on it sits below every unit a device still owes. -/
theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array holds on device `c` after the run. -/
def finalA (m : (ℓ : Loc nD τ sig) → Buf (Elt F) ℓ) (c : Dev nD) (w : Fin cfg0.W) : Buf (Elt F) ((cfg0.win w).arr.view.loc (c : Thread nD τ)) := (dats m 0 c).arrAt w cfg0.N

/-- At the compiled mesh of eight devices, for any float values, from any memory with zero counters: every weakly fair
    execution of the program (the eight kernels shaking hands on the barrier semaphore, then exchanging their
    statistics) terminates, and every final state has each window's array on each device at the contents the proof
    data gives. -/
theorem run_main (m : (ℓ : Loc nD τ sig) → Buf (Elt F) ℓ) (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.KProto.run_main' depends on axioms: [propext, Classical.choice, Quot.sound] -/
#guard_msgs in #print axioms run_main

end Cert.KernelIdeal.KProto

end
-- ==== Proof.KRun.lean ====
/-
  The kernel's run, read at the three arrays.

  Every weakly fair execution of the eight devices terminates, and at its end each window's array holds what the
  write-backs below the last point left in it. For the two arguments that is the array as launched; for the result
  it is the last payload of the device's own band, of the eight devices' statistics as each device's scratch ends
  holding them, and of the matrix.
-/
import proofs.«900776_g7700000000000777_dist_diff_noisepred_hshard_i_b2_h128_w128_c64_v7x_i8_bf16_1_alg».proof.Proof.KProto
import proofs.«900776_g7700000000000777_dist_diff_noisepred_hshard_i_b2_h128_w128_c64_v7x_i8_bf16_1_alg».proof.Proof.KFinal
import proofs.«900776_g7700000000000777_dist_diff_noisepred_hshard_i_b2_h128_w128_c64_v7x_i8_bf16_1_alg».proof.Proof.KLaunch

noncomputable section

namespace Cert.KernelIdeal.KProto

open Cert.KernelIdeal Cert.KernelIdeal.Gen Cert.KernelIdeal.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-- The run with every array named: each device's result is the last payload of its band, the gathered statistics
    and the matrix, all over the argument arrays as launched; both arguments end as launched. Window 2's array is the
    result, windows 0 and 1 the arguments. -/
theorem run_clean (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1)
          = Cert.KernelIdeal.KSpec.kout (fun c' => m ((c'.tc : Thread nD τ).loc main_arg0)) (m ((c.tc : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (2 : Fin cfg0.W)).trans (final_out m c), (h c (0 : Fin cfg0.W)).trans (final_arg0 m c),
      (h c (1 : Fin cfg0.W)).trans (final_arg1 m c)⟩)
    (run_main m ρ)

/-- info: 'Cert.KernelIdeal.KProto.run_clean' depends on axioms: [propext, Classical.choice, Quot.sound] -/
#guard_msgs in #print axioms run_clean

end Cert.KernelIdeal.KProto

end
-- ==== Proof.Word.KSpec.lean ====
/-
  What each device's result buffer holds after the kernel, as a pure term of the eight devices' input bands and the
  mixing matrix: a device's scratch ends with, in slot `j`, the statistics (per image and channel the band's sum,
  then its sum of squares) of the device `j` places further round the ring of eight — slot 0 its own —, and the
  result is the body's last payload of the device's own band, that scratch and the matrix.
-/
import proofs.«900776_g7700000000000777_dist_diff_noisepred_hshard_i_b2_h128_w128_c64_v7x_i8_bf16_1_alg».proof.Proof.Gen.Kernel.Skeleton
import Idealize.ShloMosaic.Lib.ValueIdx

noncomputable section

namespace Cert.Kernel.KSpec

open Idealize.ShloMosaic Idealize.ShloMosaic.ValueIdx Cert.Kernel Cert.Kernel.Gen

variable {F : FTy → Type} [FloatOps F]

/-- The device `j` places after `c` on the ring of eight. -/
def peer (c : Dev nD) (j : Fin 8) : Dev nD := ⟨(c.val + j.val) % 8, Nat.mod_lt _ (by decide)⟩

/-- A band's statistics as the body stores them in slot 0 of its scratch: rows 0–1 the sums, rows 2–3 the sums of
    squares, per channel. -/
def stats (x : Vec F S2x128x128x64 .f32) : FVec F S1x4x64 .f32 := k0_pay2 x

/-- Device `c`'s scratch after the exchange: slot `j` holds the statistics of `peer c j`. -/
def gathered (x : Dev nD → Vec F S2x128x128x64 .f32) (c : Dev nD) : Vec F S8x4x64 .f32 :=
  fun i => stats (x (peer c (i 0))) (ix3 0 (i 1) (i 2))

/-- Device `c`'s result. -/
def kout (x : Dev nD → Vec F S2x128x128x64 .f32) (wp : Vec F S64x128 .f32) (c : Dev nD) : FVec F S2x128x128x128 .bf16 :=
  k0_pay3 (k0_pay1 (x c)) (gathered x c) wp

end Cert.Kernel.KSpec

end
-- ==== Proof.Word.KProto.lean ====
/-
  The exchange of statistics among the eight devices, as a protocol.

  Every device `c` first tells each of the seven others, on that device's barrier semaphore, that it is inside the
  kernel; the signal it sends to the device `i + 1` places before it grants that device the slot of `c`'s scratch the
  device will write. It then stores its own statistics in slot 0, waits for the seven signals addressed to it, and
  copies slot 0 into one slot of each of the seven others: to the device `i + 1` places after it, into that device's
  slot `7 - i`, crediting its own send semaphore `i + 1` and the target's receive semaphore `7 - i`. It waits for the
  seven copies addressed to it (slot `i + 1` from the device `i + 1` places after it), reads all eight slots, computes,
  and last waits for its own seven copies to have left.
-/
import proofs.«900776_g7700000000000777_dist_diff_noisepred_hshard_i_b2_h128_w128_c64_v7x_i8_bf16_1_alg».proof.Proof.Word.KSpec
import proofs.«900776_g7700000000000777_dist_diff_noisepred_hshard_i_b2_h128_w128_c64_v7x_i8_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.KProto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

/-! ## The ring of eight -/

/-- The device `i + 1` places after `c`. -/
def pr (c : Dev nD) (i : Fin 7) : Dev nD := ⟨(c.val + i.val + 1) % 8, Nat.mod_lt _ (by decide)⟩
/-- Seven offsets mirrored: `i + 1` places one way is `7 - i` places the other. -/
def rev (i : Fin 7) : Fin 7 := ⟨6 - i.val, by omega⟩
/-- The device `i + 1` places before `c`. -/
def pl (c : Dev nD) (i : Fin 7) : Dev nD := pr c (rev i)

theorem rev_rev (i : Fin 7) : rev (rev i) = i := by revert i; decide
theorem pl_pr (c : Dev nD) (i : Fin 7) : pl (pr c i) i = c := by revert c i; decide
theorem pr_pl (c : Dev nD) (i : Fin 7) : pr (pl c i) i = c := by revert c i; decide
theorem pr_ne (c : Dev nD) (i : Fin 7) : pr c i ≠ c := by revert c i; decide
theorem pr_inj (c : Dev nD) (i j : Fin 7) (h : pr c i = pr c j) : i = j := by revert c i j; decide
theorem pr_eq_peer (c : Dev nD) (i : Fin 7) : pr c i = peer c ⟨i.val + 1, by omega⟩ := by revert c i; decide

/-- The kernel's `device_id` chains: the k-th signal and the k-th copy both name the device `k` places after. -/
theorem dev1_eq (c : Dev nD) : (⟨k0_dev1 c, k0_dev1_lt c⟩ : Dev nD) = pr c 0 := by revert c; decide +kernel
theorem dev2_eq (c : Dev nD) : (⟨k0_dev2 c, k0_dev2_lt c⟩ : Dev nD) = pr c 1 := by revert c; decide +kernel
theorem dev3_eq (c : Dev nD) : (⟨k0_dev3 c, k0_dev3_lt c⟩ : Dev nD) = pr c 2 := by revert c; decide +kernel
theorem dev4_eq (c : Dev nD) : (⟨k0_dev4 c, k0_dev4_lt c⟩ : Dev nD) = pr c 3 := by revert c; decide +kernel
theorem dev5_eq (c : Dev nD) : (⟨k0_dev5 c, k0_dev5_lt c⟩ : Dev nD) = pr c 4 := by revert c; decide +kernel
theorem dev6_eq (c : Dev nD) : (⟨k0_dev6 c, k0_dev6_lt c⟩ : Dev nD) = pr c 5 := by revert c; decide +kernel
theorem dev7_eq (c : Dev nD) : (⟨k0_dev7 c, k0_dev7_lt c⟩ : Dev nD) = pr c 6 := by revert c; decide +kernel
theorem dev8_eq (c : Dev nD) : (⟨k0_dev8 c, k0_dev8_lt c⟩ : Dev nD) = pr c 0 := by revert c; decide +kernel
theorem dev9_eq (c : Dev nD) : (⟨k0_dev9 c, k0_dev9_lt c⟩ : Dev nD) = pr c 1 := by revert c; decide +kernel
theorem dev10_eq (c : Dev nD) : (⟨k0_dev10 c, k0_dev10_lt c⟩ : Dev nD) = pr c 2 := by revert c; decide +kernel
theorem dev11_eq (c : Dev nD) : (⟨k0_dev11 c, k0_dev11_lt c⟩ : Dev nD) = pr c 3 := by revert c; decide +kernel
theorem dev12_eq (c : Dev nD) : (⟨k0_dev12 c, k0_dev12_lt c⟩ : Dev nD) = pr c 4 := by revert c; decide +kernel
theorem dev13_eq (c : Dev nD) : (⟨k0_dev13 c, k0_dev13_lt c⟩ : Dev nD) = pr c 5 := by revert c; decide +kernel
theorem dev14_eq (c : Dev nD) : (⟨k0_dev14 c, k0_dev14_lt c⟩ : Dev nD) = pr c 6 := by revert c; decide +kernel

/-! ## The scratch, its slots, the semaphores -/

/-- The scratch of eight slots, each 4 rows (two sums, two sums of squares) by 64 channels. -/
abbrev scr : Memref sig .tc .vmem S8x4x64 .f32 := Memref.whole cc0_scratch0

theorem slot_inb (s : Fin 8) : ∀ a, (![s.val, 0, 0] : Fin 3 → Nat) a + S1x4x64.size a ≤ S8x4x64.size a := by
  revert s; decide
/-- Slot `s` of the scratch, as the body's copies address it. -/
abbrev slotM (s : Fin 8) : Memref sig .tc .vmem S4x64 .f32 :=
  (scr.slice (Rect.unit (s := S8x4x64) ![s.val, 0, 0] S1x4x64.size (slot_inb s)) (fun _ => rfl)).squeeze S4x64 squeezes_S1x4x64_S4x64

theorem sem_inb (k : Fin 8) : ∀ a, (![k.val] : Fin 1 → Nat) a + S1.size a ≤ S8.size a := by revert k; decide
/-- The runtime's barrier semaphore; the send semaphores 1–7 and the receive semaphores 1–7 of the scratch arrays. -/
abbrev barS : Sem sig := (SemArray.scalar (sig.barrier 0 rfl) : Sems sig S_).sem
abbrev sendS (i : Fin 7) : DmaSem sig :=
  ((cc0_scratch1.slice (Rect.unit (s := S8) ![i.val + 1] S1.size (sem_inb ⟨i.val + 1, by omega⟩))).squeeze S_ squeezes_S1_S_).sem
abbrev recvS (i : Fin 7) : DmaSem sig :=
  ((cc0_scratch2.slice (Rect.unit (s := S8) ![i.val + 1] S1.size (sem_inb ⟨i.val + 1, by omega⟩))).squeeze S_ squeezes_S1_S_).sem

abbrev barCell (c : Dev nD) : GSem nD τ sig := ((c : Thread nD τ), .reg barS)
abbrev sendCell (c : Dev nD) (i : Fin 7) : GSem nD τ sig := ((c : Thread nD τ), .dma (sendS i))
abbrev recvCell (c : Dev nD) (i : Fin 7) : GSem nD τ sig := ((c : Thread nD τ), .dma (recvS i))

/-- What one copy of a slot credits. -/
abbrev N : ℕ := (slotM 0).view.dmaCredit
theorem N_pos : 0 < N := View.dmaCredit_pos _ (by decide)

/-! ## The resource algebra: the pipeline library's copy and the exchange's (duties named by an offset 0–6) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Contents -/

/-- Device `c`'s band and its copy of the matrix, as the pipeline stages them. -/
def xstg (c : Dev nD) : (cc0_stg0_0 : Ref sig .tc).ty.Contents (Elt F) := iblk m c 0 t0_0
def wstg (c : Dev nD) : (cc0_stg1_0 : Ref sig .tc).ty.Contents (Elt F) := iblk m c 1 t0_0

/-- What device `c`'s scratch holds once the exchange is over: slot `j` the statistics of the device `j` places after. -/
def gath (c : Dev nD) : Buf (Elt F) ((c : Thread nD τ).loc cc0_scratch0) := gathered (fun c' => xstg m c') c

/-- Device `c`'s result block. -/
def outAt (c : Dev nD) : (cc0_stg2_0 : Ref sig .tc).ty.Contents (Elt F) := k0_pay3 (k0_pay1 (xstg m c)) (gath m c) (wstg m c)

/-- Slot `i + 1`. -/
def slotOf (i : Fin 7) : Fin 8 := ⟨i.val + 1, by omega⟩

/-- Slot `s` of device `c`'s scratch held at share `q` with the buffer's contents `f` there. -/
def slotPts (c : Dev nD) (s : Fin 8) (q : PosShare TreeShare) (f : Buf (Elt F) ((c : Thread nD τ).loc cc0_scratch0)) : sProp 𝕄 :=
  (slotM s).view.loc (c : Thread nD τ) ↦[(slotM s).view.set]{q} f

/-- Slot 0 is read by the seven copies and, while they are in flight, by the body's one read of the whole scratch: its
    full share is halved, the right half kept for that read, the left half cut into seven for the copies. -/
def remL : ℕ → PosShare TreeShare
  | 0 => fullShare.left
  | n + 1 => (remL n).right
/-- The share copy `i` reads slot 0 through. -/
def shS (i : Fin 7) : PosShare TreeShare := if i.val < 6 then (remL i.val).left else remL 6
/-- The share the body's read of the whole scratch goes through. -/
abbrev shR : PosShare TreeShare := fullShare.right
theorem full_split : fullShare ∈ fullShare.left ·? shR := PosShare.mem_left_op_right _
theorem remL_split (n : ℕ) : remL n ∈ (remL n).left ·? remL (n + 1) := PosShare.mem_left_op_right (remL n)

/-! ## The schedule -/

/-- Which copy a DMA semaphore of the scratch arrays serves: `(false, i)` send semaphore `i + 1`, `(true, i)` receive
    semaphore `i + 1`. -/
def xferIdx : SemLoc sig → Option (Bool × Fin 7)
  | .dma s => if h : 4 ≤ s.val ∧ s.val ≤ 10 then some (false, ⟨s.val - 4, by omega⟩)
      else if h : 12 ≤ s.val ∧ s.val ≤ 18 then some (true, ⟨s.val - 12, by omega⟩) else none
  | _ => none

theorem xferIdx_send (i : Fin 7) : xferIdx (.dma (sendS i)) = some (false, i) := by revert i; decide
theorem xferIdx_recv (i : Fin 7) : xferIdx (.dma (recvS i)) = some (true, i) := by revert i; decide
theorem xferIdx_bar : xferIdx (.reg barS) = none := rfl

/-- What the device `i + 1` places after `c` hands `c` with its entry signal: the slot of its scratch that `c` will
    write, and that it has reached round 0 of the receive cell that write credits. -/
def barPay (c : Dev nD) (i : Fin 7) : sProp 𝕄 :=
  iprop((∃ f, slotPts (pr c i) (slotOf (rev i)) fullShare f) ∗ reached ER (recvCell (pr c i) (rev i)) 0)
/-- A landed copy: slot `i + 1` holding the sender's statistics. -/
def recvPay (c : Dev nD) (i : Fin 7) : sProp 𝕄 := slotPts c (slotOf i) fullShare (gath m c)
/-- A departed copy: the share of slot 0 it read through. -/
def sendPay (c : Dev nD) (i : Fin 7) : sProp 𝕄 := slotPts c 0 (shS i) (gath m c)

abbrev IsBar (g : GSem nD τ sig) : Prop := g.1.2 = .tc ∧ g.2 = .reg barS
abbrev IsXfer (g : GSem nD τ sig) : Prop := g.1.2 = .tc ∧ (xferIdx g.2).isSome = true

/-- One round: a barrier cell has seven duties of one unit, one per other device; a send or receive cell one duty of a
    slot's credit. -/
def Rd : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match xferIdx g.2 with
      | some (true, i) => recvPay m g.1.1 i
      | some (false, i) => sendPay m g.1.1 i
      | none => iprop(emp)
  amount_pos g _ _ _ := by
    by_cases h : g.2 = .reg barS
    · rw [if_pos h]; exact Nat.one_pos
    · rw [if_neg h]; exact N_pos

/-! ## What each device owes at launch; the levels -/

/-- The units device `c` will pay: a slot's credit on the receive cell of each copy it makes, one unit on each other
    device's barrier cell. Listed so that the body's order peels them from the end: signals 1–7, then copies 1–7. -/
def owedList (c : Dev nD) : List (CellTallies nD τ sig Unit) :=
  [tallyAt (recvCell (pr c 6) (rev 6)) () N, tallyAt (recvCell (pr c 5) (rev 5)) () N, tallyAt (recvCell (pr c 4) (rev 4)) () N,
   tallyAt (recvCell (pr c 3) (rev 3)) () N, tallyAt (recvCell (pr c 2) (rev 2)) () N, tallyAt (recvCell (pr c 1) (rev 1)) () N,
   tallyAt (recvCell (pr c 0) (rev 0)) () N,
   tallyAt (barCell (pr c 6)) () 1, tallyAt (barCell (pr c 5)) () 1, tallyAt (barCell (pr c 4)) () 1, tallyAt (barCell (pr c 3)) () 1,
   tallyAt (barCell (pr c 2)) () 1, tallyAt (barCell (pr c 1)) () 1, tallyAt (barCell (pr c 0)) () 1]
/-- What is still owed when `n` of the fourteen remain. -/
def owedAt (c : Dev nD) (n : ℕ) : CellTallies nD τ sig Unit := ((owedList c).take n).foldl (· + ·) 0
def O₀ (c : Dev nD) : CellTallies nD τ sig Unit := owedAt c 14

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else match xferIdx g.2 with | some (true, _) => 2 | _ => 0

/-! ## The ghost state a device's body starts from -/

variable (K : GSem nD τ sig → ℕ)

/-- The cells' invariants device `c`'s body opens, under the names the launch allocated them at: its own fifteen, the
    other devices' barrier cells (its signals) and the receive cells its copies credit. -/
def invs (c : Dev nD) : sProp 𝕄 :=
  iprop(cellInv ER (Rd m) (K (barCell c)) (barCell c)
    ∗ (bigSep Finset.univ fun i : Fin 7 => cellInv ER (Rd m) (K (sendCell c i)) (sendCell c i))
    ∗ (bigSep Finset.univ fun i : Fin 7 => cellInv ER (Rd m) (K (recvCell c i)) (recvCell c i))
    ∗ (bigSep Finset.univ fun i : Fin 7 => cellInv ER (Rd m) (K (barCell (pr c i))) (barCell (pr c i)))
    ∗ (bigSep Finset.univ fun i : Fin 7 => cellInv ER (Rd m) (K (recvCell (pr c i) (rev i))) (recvCell (pr c i) (rev i))))

/-- The exchange's ghost state device `c` starts from: the invariants; its positions at round 0 of its fifteen cells;
    round 0 reached on the cells it pays and on its own send and receive cells; the twenty-one duty tokens it pays
    with. -/
def ghost (c : Dev nD) : sProp 𝕄 :=
  iprop(invs m K c
    ∗ atPos ER (barCell c) 0 ∅ 0
    ∗ (bigSep Finset.univ fun i : Fin 7 => atPos ER (sendCell c i) 0 ∅ 0)
    ∗ (bigSep Finset.univ fun i : Fin 7 => atPos ER (recvCell c i) 0 ∅ 0)
    ∗ (bigSep Finset.univ fun i : Fin 7 => reached ER (barCell (pr c i)) 0)
    ∗ (bigSep Finset.univ fun i : Fin 7 => reached ER (recvCell (pr c i) (rev i)) 0)
    ∗ (bigSep Finset.univ fun i : Fin 7 => reached ER (sendCell c i) 0)
    ∗ (bigSep Finset.univ fun i : Fin 7 => reached ER (recvCell c i) 0)
    ∗ (bigSep Finset.univ fun i : Fin 7 => dutyTok ER (barCell (pr c i)) 0 (rev i))
    ∗ (bigSep Finset.univ fun i : Fin 7 => dutyTok ER (recvCell (pr c i) (rev i)) 0 (0 : Fin 7))
    ∗ (bigSep Finset.univ fun i : Fin 7 => dutyTok ER (sendCell c i) 0 (0 : Fin 7)))

/-- The two semaphores of the scratch arrays the kernel never uses (index 0 of each), at zero throughout. -/
def idleSems (c : Dev nD) : sProp 𝕄 :=
  iprop(semVal ((c : Thread nD τ), SemLoc.dma (⟨3, by decide⟩ : DmaSem sig)) 0 ∗ semVal ((c : Thread nD τ), SemLoc.dma (⟨11, by decide⟩ : DmaSem sig)) 0)

/-- What device `c`'s body starts from: that at some names, its credit tokens (its barrier's seven units, each receive
    cell's credit), the level facts. -/
def start (c : Dev nD) : sProp 𝕄 :=
  iprop((∃ K, ghost m K c) ∗ idleSems c ∗ cred (tallyAt (barCell c) () 7)
    ∗ (bigSep Finset.univ fun i : Fin 7 => cred (tallyAt (recvCell c i) () N)) ∗ levAts L lv)

def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrAny c)
/-- After the point: the scratch whole again, holding the gathered statistics; the fourteen own cells closed, their
    counters at zero; the two idle semaphores. -/
def Φ₁ (c : Dev nD) : sProp 𝕄 :=
  iprop((((c : Thread nD τ).loc cc0_scratch0) ↦{fullShare} gath m c) ∗ idleSems c
    ∗ (bigSep Finset.univ fun i : Fin 7 => semVal (sendCell c i) 0) ∗ (bigSep Finset.univ fun i : Fin 7 => semVal (recvCell c i) 0))

/-- The pipeline's proof data: the two inputs stay as staged, the result block is `outAt`. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.KProto

end
-- ==== Proof.Word.KFinal.lean ====
/-
  The arrays after the run, read back as plain terms.

  The kernel's one region runs on a grid of a single point with three windows, each the whole of its array: the two
  arguments are fetched at the point and never written back, the result is written back at the point. So an argument
  array ends as it was launched, and the result array ends as the block the body left: the last payload of the
  device's band, of the statistics the eight devices exchanged and of the matrix.
-/
import proofs.«900776_g7700000000000777_dist_diff_noisepred_hshard_i_b2_h128_w128_c64_v7x_i8_bf16_1_alg».proof.Proof.Word.KProto
import Idealize.ShloMosaic.Lib.Pipeline.Value
import Idealize.ShloMosaic.Lib.Pipeline.Cells

noncomputable section

namespace Cert.Kernel.KProto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## A window's one block is its whole array -/

/-- The block of window 0 at the one point starts at offset zero on every axis. -/
theorem off0_zero : (fun a => (win0_0.index t0_0) a * main_arg0.ty.shape.size a) = fun _ => 0 :=
  funext fun a => Nat.zero_mul _
theorem off1_zero : (fun a => (win0_1.index t0_0) a * main_arg1.ty.shape.size a) = fun _ => 0 :=
  funext fun a => Nat.zero_mul _
theorem off2_zero : (fun a => (win0_2.index t0_0) a * main_v1.ty.shape.size a) = fun _ => 0 :=
  funext fun a => Nat.zero_mul _

/-- Device `c`'s staged band is its argument array as launched: the block read is the whole array. -/
theorem xstg_eq (m : (ℓ : Loc nD τ sig) → Buf (Elt F) ℓ) (c : Dev nD) :
    xstg m c = m ((c : Thread nD τ).loc main_arg0) := by
  unfold xstg iblk
  exact Memref.read_access_unit_zero (Elt F) main_arg0 off0_zero (fun a => by show 0 * _ + _ ≤ _; omega) _

/-- Device `c`'s staged matrix is its argument array as launched. -/
theorem wstg_eq (m : (ℓ : Loc nD τ sig) → Buf (Elt F) ℓ) (c : Dev nD) :
    wstg m c = m ((c : Thread nD τ).loc main_arg1) := by
  unfold wstg iblk
  exact Memref.read_access_unit_zero (Elt F) main_arg1 off1_zero (fun a => by show 0 * _ + _ ≤ _; omega) _

/-! ## The arrays after the last point -/

/-- An argument's array is never written back. -/
theorem final_arg0 (m : (ℓ : Loc nD τ sig) → Buf (Elt F) ℓ) (c : Dev nD) :
    (dats m 0 c).arrAt (0 : Fin cfg0.W) cfg0.N = m ((c : Thread nD τ).loc main_arg0) :=
  (dats m 0 c).arrAt_in (0 : Fin cfg0.W) rfl _

theorem final_arg1 (m : (ℓ : Loc nD τ sig) → Buf (Elt F) ℓ) (c : Dev nD) :
    (dats m 0 c).arrAt (1 : Fin cfg0.W) cfg0.N = m ((c : Thread nD τ).loc main_arg1) :=
  (dats m 0 c).arrAt_in (1 : Fin cfg0.W) rfl _

/-- The statistics device `c` ends with, over the argument arrays as launched. -/
theorem gath_eq (m : (ℓ : Loc nD τ sig) → Buf (Elt F) ℓ) (c : Dev nD) :
    gath m c = gathered (fun c' => m ((c' : Thread nD τ).loc main_arg0)) c := by
  unfold gath
  rw [show (fun c' => xstg m c') = fun c' : Dev nD => m ((c' : Thread nD τ).loc main_arg0) from funext (xstg_eq m)]

/-- The block the body leaves for the result, over the argument arrays as launched. -/
theorem outAt_eq (m : (ℓ : Loc nD τ sig) → Buf (Elt F) ℓ) (c : Dev nD) :
    outAt m c = kout (fun c' => m ((c' : Thread nD τ).loc main_arg0)) (m ((c : Thread nD τ).loc main_arg1)) c := by
  unfold outAt kout
  rw [gath_eq, xstg_eq, wstg_eq]

/-- The result array after the run: the one write-back, at the one point, covers the whole array with the block the
    body left. -/
theorem final_out (m : (ℓ : Loc nD τ sig) → Buf (Elt F) ℓ) (c : Dev nD) :
    (dats m 0 c).arrAt (2 : Fin cfg0.W) cfg0.N
      = Cert.Kernel.KSpec.kout (fun c' => m ((c' : Thread nD τ).loc main_arg0)) (m ((c : Thread nD τ).loc main_arg1)) c := by
  rw [show cfg0.N = (t0_0 : Fin cfg0.N).val + 1 from rfl, (dats m 0 c).arrAt_succ (2 : Fin cfg0.W) t0_0,
    flush0_2 t0_0, if_pos rfl]
  have h : ((cfg0.win (2 : Fin cfg0.W)).blk t0_0).view.write (Elt F) ((dats m 0 c).arrAt (2 : Fin cfg0.W) (t0_0 : Fin cfg0.N).val)
      ((dats m 0 c).flushed (2 : Fin cfg0.W) t0_0) Finset.univ = outAt m c :=
    Memref.write_access_unit_zero_univ (Elt F) main_v1 off2_zero (fun a => by show 0 * _ + _ ≤ _; omega) _ _
  exact h.trans (outAt_eq m c)

/-- info: 'Cert.Kernel.KProto.final_out' depends on axioms: [propext, Classical.choice, Quot.sound] -/
#guard_msgs in #print axioms final_out

end Cert.Kernel.KProto

end
-- ==== Proof.Word.KTables.lean ====
/-
  The exchange's schedule read cell by cell, what a device still owes after each of its fourteen payments, and the
  levels that order the waits.

  A device has fifteen cells: its barrier cell, whose one round has seven duties of one unit (one per other device),
  and seven send and seven receive cells, whose one round has a single duty of a slot's credit. A device owes fourteen
  payments: a slot's credit on the receive cell of each of its seven copies, and one unit on each other device's barrier
  cell. Barrier cells sit at level 1, receive cells at level 2, every other cell at level 0: a wait on a staging or
  send cell is below everything owed, and at its barrier wait a device owes receive credits only.
-/
import proofs.«900776_g7700000000000777_dist_diff_noisepred_hshard_i_b2_h128_w128_c64_v7x_i8_bf16_1_alg».proof.Proof.Word.KProto

noncomputable section

namespace Cert.Kernel.KProto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## Seven things side by side -/

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The cells are distinct -/

theorem send_ne_bar (i : Fin 7) : (SemLoc.dma (sendS i) : SemLoc sig) ≠ .reg barS := fun h => by cases h
theorem recv_ne_bar (i : Fin 7) : (SemLoc.dma (recvS i) : SemLoc sig) ≠ .reg barS := fun h => by cases h

/-- A send semaphore and a receive semaphore serve different copies' ends … -/
theorem sendS_ne_recvS (i j : Fin 7) : sendS i ≠ recvS j := fun h => by
  have e := xferIdx_send i
  rw [h, xferIdx_recv j] at e
  cases e
/-- … and two send semaphores, or two receive semaphores, of different index differ. -/
theorem sendS_inj {i j : Fin 7} (h : sendS i = sendS j) : i = j := by
  have e := xferIdx_send i
  rw [h, xferIdx_send j] at e
  exact (Prod.mk.inj (Option.some.inj e)).2.symm
theorem recvS_inj {i j : Fin 7} (h : recvS i = recvS j) : i = j := by
  have e := xferIdx_recv i
  rw [h, xferIdx_recv j] at e
  exact (Prod.mk.inj (Option.some.inj e)).2.symm

theorem sendCell_ne_recvCell (c c' : Dev nD) (i j : Fin 7) : sendCell c i ≠ recvCell c' j :=
  fun h => sendS_ne_recvS i j (SemLoc.dma.inj (congrArg Prod.snd h))
theorem sendCell_ne_barCell (c c' : Dev nD) (i : Fin 7) : sendCell c i ≠ barCell c' :=
  fun h => send_ne_bar i (congrArg Prod.snd h)
theorem recvCell_ne_barCell (c c' : Dev nD) (i : Fin 7) : recvCell c i ≠ barCell c' :=
  fun h => recv_ne_bar i (congrArg Prod.snd h)
theorem sendCell_inj {c c' : Dev nD} {i j : Fin 7} (h : sendCell c i = sendCell c' j) : c = c' ∧ i = j :=
  ⟨congrArg (fun g : GSem nD τ sig => g.1.1) h, sendS_inj (SemLoc.dma.inj (congrArg Prod.snd h))⟩
theorem recvCell_inj {c c' : Dev nD} {i j : Fin 7} (h : recvCell c i = recvCell c' j) : c = c' ∧ i = j :=
  ⟨congrArg (fun g : GSem nD τ sig => g.1.1) h, recvS_inj (SemLoc.dma.inj (congrArg Prod.snd h))⟩
theorem barCell_inj {c c' : Dev nD} (h : barCell c = barCell c') : c = c' :=
  congrArg (fun g : GSem nD τ sig => g.1.1) h

theorem not_bar_send (c : Dev nD) (i : Fin 7) : ¬ IsBar (sendCell c i) := fun h => send_ne_bar i h.2
theorem not_bar_recv (c : Dev nD) (i : Fin 7) : ¬ IsBar (recvCell c i) := fun h => recv_ne_bar i h.2
theorem xfer_send (c : Dev nD) (i : Fin 7) : IsXfer (sendCell c i) := ⟨rfl, by rw [xferIdx_send]; rfl⟩
theorem xfer_recv (c : Dev nD) (i : Fin 7) : IsXfer (recvCell c i) := ⟨rfl, by rw [xferIdx_recv]; rfl⟩

/-! ## The schedule, cell by cell -/

theorem duties_bar (m : (ℓ : Loc nD τ sig) → Buf (Elt F) ℓ) (c : Dev nD) : (Rd (F := F) m).duties (barCell c) 0 = Finset.univ := by
  dsimp only [Rd]; exact if_pos ⟨rfl, rfl, rfl⟩
theorem duties_send (m : (ℓ : Loc nD τ sig) → Buf (Elt F) ℓ) (c : Dev nD) (i : Fin 7) : (Rd (F := F) m).duties (sendCell c i) 0 = {0} := by
  dsimp only [Rd]; rw [if_neg (fun h => not_bar_send c i h.2)]; exact if_pos ⟨rfl, xfer_send c i⟩
theorem duties_recv (m : (ℓ : Loc nD τ sig) → Buf (Elt F) ℓ) (c : Dev nD) (i : Fin 7) : (Rd (F := F) m).duties (recvCell c i) 0 = {0} := by
  dsimp only [Rd]; rw [if_neg (fun h => not_bar_recv c i h.2)]; exact if_pos ⟨rfl, xfer_recv c i⟩
theorem duties_later (m : (ℓ : Loc nD τ sig) → Buf (Elt F) ℓ) (g : GSem nD τ sig) : ∀ r, 1 ≤ r → (Rd (F := F) m).duties g r = ∅ :=
  fun r hr => by dsimp only [Rd]; rw [if_neg fun h => by omega, if_neg fun h => by omega]

theorem amount_bar (m : (ℓ : Loc nD τ sig) → Buf (Elt F) ℓ) (c : Dev nD) (d : Fin 7) : (Rd (F := F) m).amount (barCell c) 0 d = 1 := by
  dsimp only [Rd]; exact if_pos rfl
theorem amount_send (m : (ℓ : Loc nD τ sig) → Buf (Elt F) ℓ) (c : Dev nD) (i d : Fin 7) : (Rd (F := F) m).amount (sendCell c i) 0 d = N := by
  dsimp only [Rd]; exact if_neg (send_ne_bar i)
theorem amount_recv (m : (ℓ : Loc nD τ sig) → Buf (Elt F) ℓ) (c : Dev nD) (i d : Fin 7) : (Rd (F := F) m).amount (recvCell c i) 0 d = N := by
  dsimp only [Rd]; exact if_neg (recv_ne_bar i)

theorem expect_bar (m : (ℓ : Loc nD τ sig) → Buf (Elt F) ℓ) (c : Dev nD) : (Rd (F := F) m).expect (barCell c) 0 = 7 := by
  unfold Schedule.expect Schedule.amountOf
  rw [duties_bar, Finset.sum_congr rfl fun d _ => amount_bar m c d, Finset.sum_const, Finset.card_univ, Fintype.card_fin,
    smul_eq_mul]
theorem expect_send (m : (ℓ : Loc nD τ sig) → Buf (Elt F) ℓ) (c : Dev nD) (i : Fin 7) : (Rd (F := F) m).expect (sendCell c i) 0 = N := by
  unfold Schedule.expect Schedule.amountOf; rw [duties_send, Finset.sum_singleton, amount_send]
theorem expect_recv (m : (ℓ : Loc nD τ sig) → Buf (Elt F) ℓ) (c : Dev nD) (i : Fin 7) : (Rd (F := F) m).expect (recvCell c i) 0 = N := by
  unfold Schedule.expect Schedule.amountOf; rw [duties_recv, Finset.sum_singleton, amount_recv]

theorem payload_bar (m : (ℓ : Loc nD τ sig) → Buf (Elt F) ℓ) (c : Dev nD) (d : Fin 7) : (Rd (F := F) m).payload (barCell c) 0 d = barPay c d := by
  dsimp only [Rd]; rw [if_pos rfl]
theorem payload_send (m : (ℓ : Loc nD τ sig) → Buf (Elt F) ℓ) (c : Dev nD) (i d : Fin 7) : (Rd (F := F) m).payload (sendCell c i) 0 d = sendPay m c i := by
  dsimp only [Rd]; rw [if_neg (send_ne_bar i)]; simp only [xferIdx_send]
theorem payload_recv (m : (ℓ : Loc nD τ sig) → Buf (Elt F) ℓ) (c : Dev nD) (i d : Fin 7) : (Rd (F := F) m).payload (recvCell c i) 0 d = recvPay m c i := by
  dsimp only [Rd]; rw [if_neg (recv_ne_bar i)]; simp only [xferIdx_recv]

/-- The rest of the barrier cell's round, no duty taken: the seven entry payloads. -/
theorem rest_bar (m : (ℓ : Loc nD τ sig) → Buf (Elt F) ℓ) (c : Dev nD) :
    bigSep ((Rd (F := F) m).duties (barCell c) 0 \ ∅) (fun d => (Rd (F := F) m).payload (barCell c) 0 d)
      = iprop(barPay c 0 ∗ barPay c 1 ∗ barPay c 2 ∗ barPay c 3 ∗ barPay c 4 ∗ barPay c 5 ∗ barPay c 6) := by
  rw [Finset.sdiff_empty, duties_bar, bigSep_fin7]
  simp only [payload_bar]
theorem rest_send (m : (ℓ : Loc nD τ sig) → Buf (Elt F) ℓ) (c : Dev nD) (i : Fin 7) :
    bigSep ((Rd (F := F) m).duties (sendCell c i) 0 \ ∅) (fun d => (Rd (F := F) m).payload (sendCell c i) 0 d) = sendPay m c i := by
  rw [Finset.sdiff_empty, duties_send, bigSep_singleton, payload_send]
theorem rest_recv (m : (ℓ : Loc nD τ sig) → Buf (Elt F) ℓ) (c : Dev nD) (i : Fin 7) :
    bigSep ((Rd (F := F) m).duties (recvCell c i) 0 \ ∅) (fun d => (Rd (F := F) m).payload (recvCell c i) 0 d) = recvPay m c i := by
  rw [Finset.sdiff_empty, duties_recv, bigSep_singleton, payload_recv]

instance Rd_payload_storable (m : (ℓ : Loc nD τ sig) → Buf (Elt F) ℓ) (g : GSem nD τ sig) (r : ℕ) (d : Fin 7) :
    BI.Storable (upEmb : UEmb _ 𝕄) ((Rd (F := F) m).payload g r d) := by
  dsimp only [Rd]
  unfold barPay recvPay sendPay slotPts
  (repeat' split) <;> infer_instance

/-! ## What is still owed -/

theorem owedAt_0 (c : Dev nD) : owedAt c 0 = 0 := rfl
theorem owedAt_1 (c : Dev nD) : owedAt c 1 = owedAt c 0 + tallyAt (recvCell (pr c 6) (rev 6)) () N := rfl
theorem owedAt_2 (c : Dev nD) : owedAt c 2 = owedAt c 1 + tallyAt (recvCell (pr c 5) (rev 5)) () N := rfl
theorem owedAt_3 (c : Dev nD) : owedAt c 3 = owedAt c 2 + tallyAt (recvCell (pr c 4) (rev 4)) () N := rfl
theorem owedAt_4 (c : Dev nD) : owedAt c 4 = owedAt c 3 + tallyAt (recvCell (pr c 3) (rev 3)) () N := rfl
theorem owedAt_5 (c : Dev nD) : owedAt c 5 = owedAt c 4 + tallyAt (recvCell (pr c 2) (rev 2)) () N := rfl
theorem owedAt_6 (c : Dev nD) : owedAt c 6 = owedAt c 5 + tallyAt (recvCell (pr c 1) (rev 1)) () N := rfl
theorem owedAt_7 (c : Dev nD) : owedAt c 7 = owedAt c 6 + tallyAt (recvCell (pr c 0) (rev 0)) () N := rfl
theorem owedAt_8 (c : Dev nD) : owedAt c 8 = owedAt c 7 + tallyAt (barCell (pr c 6)) () 1 := rfl
theorem owedAt_9 (c : Dev nD) : owedAt c 9 = owedAt c 8 + tallyAt (barCell (pr c 5)) () 1 := rfl
theorem owedAt_10 (c : Dev nD) : owedAt c 10 = owedAt c 9 + tallyAt (barCell (pr c 4)) () 1 := rfl
theorem owedAt_11 (c : Dev nD) : owedAt c 11 = owedAt c 10 + tallyAt (barCell (pr c 3)) () 1 := rfl
theorem owedAt_12 (c : Dev nD) : owedAt c 12 = owedAt c 11 + tallyAt (barCell (pr c 2)) () 1 := rfl
theorem owedAt_13 (c : Dev nD) : owedAt c 13 = owedAt c 12 + tallyAt (barCell (pr c 1)) () 1 := rfl
theorem owedAt_14 (c : Dev nD) : owedAt c 14 = owedAt c 13 + tallyAt (barCell (pr c 0)) () 1 := rfl

/-- The fourteen payments: the seven receive credits, then the seven barrier units. -/
theorem owedList_eq (c : Dev nD) :
    owedList c = ([6, 5, 4, 3, 2, 1, 0] : List (Fin 7)).map (fun i => tallyAt (recvCell (pr c i) (rev i)) () N)
      ++ ([6, 5, 4, 3, 2, 1, 0] : List (Fin 7)).map (fun i => tallyAt (barCell (pr c i)) () 1) := rfl
/-- The first seven are the receive credits. -/
theorem owedList_take7 (c : Dev nD) :
    (owedList c).take 7 = ([6, 5, 4, 3, 2, 1, 0] : List (Fin 7)).map (fun i => tallyAt (recvCell (pr c i) (rev i)) () N) := rfl

/-- A tally at one cell is positive at that cell only. -/
theorem eq_of_tallyAt_pos {g₀ g : GSem nD τ sig} {k : ℕ} {u : Unit} (h : 0 < tallyAt g₀ () k g u) : g = g₀ := by
  rw [tallyAt_apply] at h
  by_contra hn
  rw [if_neg (fun h' => hn h'.1)] at h
  exact Nat.lt_irrefl 0 h

/-- A sum of tallies is positive only where one of them, or what the sum started from, is. -/
theorem foldl_pos {P : GSem nD τ sig → Prop} (l : List (CellTallies nD τ sig Unit)) (acc : CellTallies nD τ sig Unit)
    (hacc : ∀ (g : GSem nD τ sig) (u : Unit), 0 < acc g u → P g)
    (hl : ∀ t ∈ l, ∀ (g : GSem nD τ sig) (u : Unit), 0 < t g u → P g) :
    ∀ (g : GSem nD τ sig) (u : Unit), 0 < (l.foldl (· + ·) acc) g u → P g := by
  induction l generalizing acc with
  | nil => exact hacc
  | cons t l ih =>
    rw [List.foldl_cons]
    refine ih (acc + t) (fun g u h => ?_) (fun t' ht' => hl t' (List.mem_cons_of_mem _ ht'))
    rw [Pi.add_apply, Finsupp.add_apply] at h
    by_cases ha : 0 < acc g u
    · exact hacc g u ha
    · exact hl t (List.mem_cons_self ..) g u (by omega)

theorem owed_pos {c : Dev nD} {n : ℕ} (hn : n ≤ 14) {g : GSem nD τ sig} {u : Unit} (h : 0 < owedAt c n g u) :
    (∃ i : Fin 7, g = recvCell (pr c i) (rev i)) ∨ (∃ i : Fin 7, g = barCell (pr c i)) := by
  refine foldl_pos (P := fun g => (∃ i : Fin 7, g = recvCell (pr c i) (rev i)) ∨ (∃ i : Fin 7, g = barCell (pr c i)))
    ((owedList c).take n) 0 (fun g u h0 => absurd h0 (Nat.lt_irrefl 0)) (fun t ht g u hg => ?_) g u h
  have ht' := List.mem_of_mem_take ht
  rw [owedList_eq, List.mem_append, List.mem_map, List.mem_map] at ht'
  rcases ht' with ⟨i, _, rfl⟩ | ⟨i, _, rfl⟩
  · exact Or.inl ⟨i, eq_of_tallyAt_pos hg⟩
  · exact Or.inr ⟨i, eq_of_tallyAt_pos hg⟩

/-- With at most seven payments left, only receive credits are owed. -/
theorem owed_pos_recv {c : Dev nD} {n : ℕ} (hn : n ≤ 7) {g : GSem nD τ sig} {u : Unit} (h : 0 < owedAt c n g u) :
    ∃ i : Fin 7, g = recvCell (pr c i) (rev i) := by
  refine foldl_pos (P := fun g => ∃ i : Fin 7, g = recvCell (pr c i) (rev i))
    ((owedList c).take n) 0 (fun g u h0 => absurd h0 (Nat.lt_irrefl 0)) (fun t ht g u hg => ?_) g u h
  have ht' := List.take_subset_take_left (owedList c) hn ht
  rw [owedList_take7, List.mem_map] at ht'
  obtain ⟨i, _, rfl⟩ := ht'
  exact ⟨i, eq_of_tallyAt_pos hg⟩

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (i : Fin 7) (u : Unit) : lv (recvCell c i) u = 2 := by
  dsimp only [lv]; rw [if_neg (recv_ne_bar i)]; simp only [xferIdx_recv]
theorem lv_send (c : Dev nD) (i : Fin 7) (u : Unit) : lv (sendCell c i) u = 0 := by
  dsimp only [lv]; rw [if_neg (send_ne_bar i)]; simp only [xferIdx_send]
theorem lv_stage (c : Dev nD) (q : DmaSem sig) (hq : xferIdx (SemLoc.dma q) = none) (u : Unit) :
    lv ((c : Thread nD τ), SemLoc.dma q) u = 0 := by
  dsimp only [lv]; rw [if_neg (fun h => by cases h)]; simp only [hq]

/-- A staging semaphore sits at level 0, below everything owed. -/
theorem mayWait_stage (c : Dev nD) (q : DmaSem sig) (hq : xferIdx (SemLoc.dma q) = none) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases owed_pos (le_refl 14) hg with ⟨i, rfl⟩ | ⟨i, rfl⟩ <;> exact Finset.mem_singleton_self _)
      (fun p hp => by rw [Finset.mem_singleton.mp hp]; exact le_of_eq (lv_stage c q hq ()))
      (fun g u hg => by
        rcases owed_pos (le_refl 14) hg with ⟨i, rfl⟩ | ⟨i, rfl⟩
        · rw [lv_recv]; decide
        · rw [lv_bar]; decide)
  · rw [MayWait_zero]; iintro -; iempintro

/-- At its barrier wait a device owes only the seven receive credits, which sit above barrier cells. -/
theorem mayWait_bar (c : Dev nD) :
    (levAts L lv : sProp 𝕄) ⊢ MayWait (c : Thread nD τ) (.reg barS) () (owedAt c 7) :=
  MayOwe.of_cut (L := L) (lev := lv) 1
    (fun p hp => by rw [Finset.mem_singleton.mp hp, L_tc]; exact Finset.mem_singleton_self _)
    (fun g u hg => by
      obtain ⟨i, rfl⟩ := owed_pos_recv (le_refl 7) hg
      exact Finset.mem_singleton_self _)
    (fun p hp => by rw [Finset.mem_singleton.mp hp]; exact le_of_eq (lv_bar c ()))
    (fun g u hg => by
      obtain ⟨i, rfl⟩ := owed_pos_recv (le_refl 7) hg
      rw [lv_recv]; decide)

/-- info: 'Cert.Kernel.KProto.mayWait_bar' depends on axioms: [propext, Classical.choice, Quot.sound] -/
#guard_msgs in #print axioms mayWait_bar

/-- info: 'Cert.Kernel.KProto.mayWait_stage' depends on axioms: [propext, Classical.choice, Quot.sound] -/
#guard_msgs in #print axioms mayWait_stage

/-- info: 'Cert.Kernel.KProto.rest_bar' depends on axioms: [propext, Classical.choice, Quot.sound] -/
#guard_msgs in #print axioms rest_bar

end Cert.Kernel.KProto

end
-- ==== Proof.Word.KCredit.lean ====
/-
  The launch credit of the exchange among the eight devices.

  At launch every device owes each of the seven others one unit on that device's barrier cell and one slot's credit
  on the receive cell of the copy it will make into that device's scratch. Summed over the eight devices, the units
  owed to device `c`'s own cells are: seven on its barrier cell (one from every other device), and one slot's credit
  on each of its seven receive cells (receive cell `i` is credited by the device `i + 1` places after `c`, and by no
  other). These are the credit tokens the launch deals device `c`.
-/
import proofs.«900776_g7700000000000777_dist_diff_noisepred_hshard_i_b2_h128_w128_c64_v7x_i8_bf16_1_alg».proof.Proof.Word.KProto
import Mathlib.Algebra.BigOperators.Fin
import Mathlib.Tactic.Abel

noncomputable section

namespace Cert.Kernel.KProto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## Telling the cells apart -/

/-- A copy's semaphore is never the barrier semaphore. -/
theorem dma_ne_bar (s : DmaSem sig) : (SemLoc.dma s : SemLoc sig) ≠ .reg barS := fun h => by cases h

/-- Two barrier cells are the same cell exactly when they are the same device's. -/
theorem bar_eq_iff {a b : Dev nD} : Iff (barCell a = barCell b) (a = b) :=
  ⟨fun h => Fin.ext (congrArg (fun g : GSem nD τ sig => g.1.1.val) h), fun h => h ▸ rfl⟩

/-- The seven receive semaphores are distinct. -/
theorem recvS_injective {i j : Fin 7} (h : recvS i = recvS j) : i = j := by
  have e : (some (true, i) : Option (Bool × Fin 7)) = some (true, j) :=
    (xferIdx_recv i).symm.trans ((congrArg (fun s : DmaSem sig => xferIdx (.dma s)) h).trans (xferIdx_recv j))
  exact (Prod.mk.inj (Option.some.inj e)).2

/-- Two receive cells are the same cell exactly when device and offset agree. -/
theorem recv_eq_iff {a b : Dev nD} {i j : Fin 7} : Iff (recvCell a i = recvCell b j) (a = b ∧ i = j) :=
  ⟨fun h => ⟨Fin.ext (congrArg (fun g : GSem nD τ sig => g.1.1.val) h), recvS_injective (SemLoc.dma.inj (congrArg Prod.snd h))⟩,
    fun h => by obtain ⟨rfl, rfl⟩ := h; rfl⟩

/-! ## One owed tally read at one cell -/

theorem recvT_bar (a c : Dev nD) (j : Fin 7) (n : ℕ) :
    (tallyAt (recvCell a j) () n : CellTallies nD τ sig Unit) (barCell c) () = 0 := by
  rw [tallyAt_ne_cell (fun h => dma_ne_bar (recvS j) (congrArg Prod.snd h).symm), Finsupp.zero_apply]

theorem barT_recv (a c : Dev nD) (i : Fin 7) (n : ℕ) :
    (tallyAt (barCell a) () n : CellTallies nD τ sig Unit) (recvCell c i) () = 0 := by
  rw [tallyAt_ne_cell (fun h => dma_ne_bar (recvS i) (congrArg Prod.snd h)), Finsupp.zero_apply]

theorem barT_bar (a c : Dev nD) (n : ℕ) :
    (tallyAt (barCell a) () n : CellTallies nD τ sig Unit) (barCell c) () = if c = a then n else 0 := by
  rw [tallyAt_apply]
  by_cases h : c = a
  · subst h; rw [if_pos ⟨rfl, rfl⟩, if_pos rfl]
  · rw [if_neg (fun h1 => h (bar_eq_iff.mp h1.1)), if_neg h]

theorem recvT_recv (a c : Dev nD) (j i : Fin 7) (n : ℕ) :
    (tallyAt (recvCell a j) () n : CellTallies nD τ sig Unit) (recvCell c i) () = if c = a ∧ i = j then n else 0 := by
  rw [tallyAt_apply]
  by_cases h : c = a ∧ i = j
  · obtain ⟨rfl, rfl⟩ := h; rw [if_pos ⟨rfl, rfl⟩, if_pos ⟨rfl, rfl⟩]
  · rw [if_neg (fun h1 => h (recv_eq_iff.mp h1.1)), if_neg h]

/-! ## What a device owes, and what all devices together owe one cell -/

/-- What device `d` owes at launch: a slot's credit on the receive cell of each of its seven copies and one unit on
    each other device's barrier cell. -/
theorem O₀_eq (d : Dev nD) :
    O₀ d = (∑ i : Fin 7, tallyAt (recvCell (pr d i) (rev i)) () N) + ∑ i : Fin 7, tallyAt (barCell (pr d i)) () 1 := by
  rw [Fin.sum_univ_seven, Fin.sum_univ_seven]
  show (0 : CellTallies nD τ sig Unit) + tallyAt (recvCell (pr d 6) (rev 6)) () N + tallyAt (recvCell (pr d 5) (rev 5)) () N + tallyAt (recvCell (pr d 4) (rev 4)) () N + tallyAt (recvCell (pr d 3) (rev 3)) () N + tallyAt (recvCell (pr d 2) (rev 2)) () N + tallyAt (recvCell (pr d 1) (rev 1)) () N + tallyAt (recvCell (pr d 0) (rev 0)) () N + tallyAt (barCell (pr d 6)) () 1 + tallyAt (barCell (pr d 5)) () 1 + tallyAt (barCell (pr d 4)) () 1 + tallyAt (barCell (pr d 3)) () 1 + tallyAt (barCell (pr d 2)) () 1 + tallyAt (barCell (pr d 1)) () 1 + tallyAt (barCell (pr d 0)) () 1 = _
  abel

/-- Device `d` owes device `c`'s barrier cell one unit if it is another device, nothing if it is `c` itself: the seven
    devices `d` signals are exactly the seven others. -/
theorem owed_bar (d c : Dev nD) : O₀ d (barCell c) () = if d ≠ c then 1 else 0 := by
  simp only [O₀_eq, Pi.add_apply, Finsupp.add_apply, Finset.sum_apply, Finsupp.finsetSum_apply, recvT_bar, barT_bar,
    Finset.sum_const_zero, Nat.zero_add]
  revert c d; decide

/-- Device `d` owes device `c`'s receive cell `i` a slot's credit exactly when `d` is the device `i + 1` places after
    `c`: `d`'s copy to the device `j + 1` places after it credits that device's receive cell `6 - j`. -/
theorem owed_recv (d c : Dev nD) (i : Fin 7) : O₀ d (recvCell c i) () = if d = pr c i then N else 0 := by
  simp only [O₀_eq, Pi.add_apply, Finsupp.add_apply, Finset.sum_apply, Finsupp.finsetSum_apply, recvT_recv, barT_recv,
    Finset.sum_const_zero, Nat.add_zero]
  have key : ∀ j : Fin 7, Iff (c = pr d j ∧ i = rev j) (j = rev i ∧ d = pr c i) := by revert c d i; decide
  by_cases h : d = pr c i
  · rw [if_pos h, Finset.sum_congr rfl (fun j _ => if_congr ((key j).trans (and_iff_left h)) rfl rfl),
      Finset.sum_ite_eq' Finset.univ (rev i) (fun _ => N), if_pos (Finset.mem_univ _)]
  · rw [if_neg h]
    exact Finset.sum_eq_zero fun j _ => if_neg fun hj => h ((key j).mp hj).2

/-- All devices together owe a device's barrier cell seven units. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- All devices together owe each receive cell of a device one slot's credit. -/
theorem launch_recv (c : Dev nD) (i : Fin 7) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (pr c i) fun _ => N, if_pos (Finset.mem_univ _)]

/-! ## The credit tokens a device is dealt -/

omit [FloatOps F] in
/-- Out of the credit the launch deals device `c`, one token per semaphore of its core: the barrier's seven units and
    each receive cell's slot credit (the seven receive semaphores being distinct and none the barrier's). -/
theorem creds (c : Dev nD) :
    (Pipeline.launchCred O₀ c : sProp 𝕄) ⊢ iprop(cred (tallyAt (barCell c) () 7) ∗ (bigSep Finset.univ fun i : Fin 7 => cred (tallyAt (recvCell c i) () N))) := by
  unfold Pipeline.launchCred
  rw [bigSep_univ_at _ (SemLoc.reg barS), launch_bar]
  refine sep_mono_right ?_
  have hR : (bigSep Finset.univ fun i : Fin 7 => (cred (tallyAt (recvCell c i) () N) : sProp 𝕄))
      = bigSep ((Finset.univ : Finset (Fin 7)).image fun i => (SemLoc.dma (recvS i) : SemLoc sig))
          (fun sm => cred (tallyOn ((c.tc : Thread nD τ), sm) (launchCredit (Pipeline.owing O₀) 0 ((c.tc : Thread nD τ), sm)))) := by
    rw [bigSep_image_of_injOn (fun i _ j _ h => recvS_injective (SemLoc.dma.inj h))]
    exact bigSep_congr fun i _ => by rw [launch_recv]
  rw [hR]
  exact bigSep_subset fun sm h => by
    obtain ⟨i, _, rfl⟩ := Finset.mem_image.mp h
    exact Finset.mem_erase.mpr ⟨dma_ne_bar _, Finset.mem_univ _⟩

/-- info: 'Cert.Kernel.KProto.creds' depends on axioms: [propext, Classical.choice, Quot.sound] -/
#guard_msgs in #print axioms creds

end Cert.Kernel.KProto

end
-- ==== Proof.Word.KGhost.lean ====
/-
  The launch of the exchange, first part: its ghost state.

  The launch element of the exchange's algebra holds, for every device, its barrier cell, its seven send cells and its
  seven receive cells at round 0 with the owner's position there, and one token per duty: seven on the barrier cell,
  one on each send and each receive cell. The cells' counters at zero come from the launch: the fourteen used DMA
  semaphores of the two scratch arrays among the kernel's own sixteen, the barrier semaphore as the one semaphore that
  is not scoped. With them every cell's invariant is allocated, for all devices under one update; the tokens of a
  device's own cells are then dealt to the devices that pay them: the barrier token of duty `d` and the receive token
  of cell `d` go to the device `d + 1` places after, which is the device for which this one lies `7 - d` places
  after. Index 0 of each scratch semaphore array is never used and is carried along at zero.
-/
import proofs.«900776_g7700000000000777_dist_diff_noisepred_hshard_i_b2_h128_w128_c64_v7x_i8_bf16_1_alg».proof.Proof.Word.KProto
import proofs.«900776_g7700000000000777_dist_diff_noisepred_hshard_i_b2_h128_w128_c64_v7x_i8_bf16_1_alg».proof.Proof.Word.KTables

noncomputable section

namespace Cert.Kernel.KProto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## The kernel's own semaphores, the unscoped one -/

/-- The sixteen scoped DMA semaphores of the two scratch arrays: of each array the unused index 0, then the seven used. -/
abbrev OwnIx : Type := (Unit ⊕ Fin 7) ⊕ (Unit ⊕ Fin 7)
abbrev osem : OwnIx → SemLoc sig
  | .inl (.inl _) => .dma (⟨3, by decide⟩ : DmaSem sig)
  | .inl (.inr i) => .dma (sendS i)
  | .inr (.inl _) => .dma (⟨11, by decide⟩ : DmaSem sig)
  | .inr (.inr i) => .dma (recvS i)

theorem ownSemFacts : Pipeline.OwnSemFacts cfg0.spec osem := by decide

theorem share_eq (m : (ℓ : Loc nD τ sig) → Buf (Elt F) ℓ) (c : Dev nD) (w : Fin cfg0.W) : (dats m 0 c).share w = fullShare := by
  unfold Dat.share; split <;> rfl

/-- A device's own fifteen cells: the barrier cell, the send cells, the receive cells. -/
abbrev CellIx : Type := Unit ⊕ (Fin 7 ⊕ Fin 7)
abbrev csem : CellIx → SemLoc sig
  | .inl _ => .reg barS
  | .inr (.inl i) => .dma (sendS i)
  | .inr (.inr i) => .dma (recvS i)
abbrev kcell (ck : Dev nD × CellIx) : GSem nD τ sig := ((ck.1 : Thread nD τ), csem ck.2)

theorem csem_injective : Function.Injective csem := by
  intro k k' h
  have hx : xferIdx (csem k) = xferIdx (csem k') := congrArg xferIdx h
  rcases k with _ | i | i <;> rcases k' with _ | j | j
  · rfl
  · rw [show csem (.inr (.inl j)) = .dma (sendS j) from rfl, xferIdx_send] at hx; cases hx
  · rw [show csem (.inr (.inr j)) = .dma (recvS j) from rfl, xferIdx_recv] at hx; cases hx
  · rw [show csem (.inr (.inl i)) = .dma (sendS i) from rfl, xferIdx_send] at hx; cases hx
  · rw [show csem (.inr (.inl i)) = .dma (sendS i) from rfl, show csem (.inr (.inl j)) = .dma (sendS j) from rfl, xferIdx_send, xferIdx_send] at hx
    cases hx; rfl
  · rw [show csem (.inr (.inl i)) = .dma (sendS i) from rfl, show csem (.inr (.inr j)) = .dma (recvS j) from rfl, xferIdx_send, xferIdx_recv] at hx
    cases hx
  · rw [show csem (.inr (.inr i)) = .dma (recvS i) from rfl, xferIdx_recv] at hx; cases hx
  · rw [show csem (.inr (.inr i)) = .dma (recvS i) from rfl, show csem (.inr (.inl j)) = .dma (sendS j) from rfl, xferIdx_recv, xferIdx_send] at hx
    cases hx
  · rw [show csem (.inr (.inr i)) = .dma (recvS i) from rfl, show csem (.inr (.inr j)) = .dma (recvS j) from rfl, xferIdx_recv, xferIdx_recv] at hx
    cases hx; rfl

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All devices' cells of the exchange. -/
def ringCells : Finset (GSem nD τ sig) := Finset.univ.map ⟨kcell, kcell_injective⟩

/-- The duty tokens of a device's own cells, as minted: the barrier's seven, each send cell's, each receive cell's. -/
abbrev TokIx : Type := Fin 7 ⊕ (Fin 7 ⊕ Fin 7)
abbrev tokCell : TokIx → CellIx
  | .inl _ => .inl ()
  | .inr x => .inr x
abbrev tokDuty : TokIx → Fin 7
  | .inl d => d
  | .inr _ => 0
abbrev tokOf (cj : Dev nD × TokIx) : GSem nD τ sig × ℕ × Fin 7 := (kcell (cj.1, tokCell cj.2), 0, tokDuty cj.2)

theorem tokOf_injective : Function.Injective (tokOf : Dev nD × TokIx → GSem nD τ sig × ℕ × Fin 7) := by
  rintro ⟨c, j⟩ ⟨c', j'⟩ h
  have hk : (c, tokCell j) = (c', tokCell j') := kcell_injective (congrArg (fun x : GSem nD τ sig × ℕ × Fin 7 => x.1) h)
  have hd : tokDuty j = tokDuty j' := congrArg (fun x : GSem nD τ sig × ℕ × Fin 7 => x.2.2) h
  have hc : c = c' := congrArg Prod.fst hk
  have ht : tokCell j = tokCell j' := congrArg Prod.snd hk
  subst hc
  have hj : j = j' := by
    rcases j with d | x <;> rcases j' with d' | x'
    · exact congrArg Sum.inl hd
    · exact absurd ht (fun h => by cases h)
    · exact absurd ht (fun h => by cases h)
    · exact congrArg Sum.inr (Sum.inr.inj ht)
  rw [hj]

def ringToks : Finset (GSem nD τ sig × ℕ × Fin 7) := Finset.univ.map ⟨tokOf, tokOf_injective⟩

/-- The launch element: the pipeline library's, and the exchange's. -/
def u₀ : UU :=
  (initOf (Pipeline.cells cfgs cellOf_inj) (Pipeline.launchToks cfgs cellOf_inj), initOf ringCells ringToks)

omit [FloatOps F] in
/-- Fifteen cells conjoined: the barrier cell, the send cells, the receive cells. -/
theorem bigSep_cellIx (Φ : CellIx → sProp 𝕄) :
    bigSep Finset.univ Φ = iprop(Φ (.inl ()) ∗ (bigSep Finset.univ fun i : Fin 7 => Φ (.inr (.inl i))) ∗ (bigSep Finset.univ fun i : Fin 7 => Φ (.inr (.inr i)))) := by
  rw [bigSep_univ_sum, bigSep_univ_sum, bigSep_univ_of_subsingleton ()]
  rfl

/-! ## What the launch element deals -/

/-- The duty tokens of device `c`'s own cells. -/
def toks (c : Dev nD) : sProp 𝕄 :=
  iprop((bigSep Finset.univ fun d : Fin 7 => dutyTok ER (barCell c) 0 d)
    ∗ (bigSep Finset.univ fun i : Fin 7 => dutyTok ER (sendCell c i) 0 (0 : Fin 7))
    ∗ (bigSep Finset.univ fun i : Fin 7 => dutyTok ER (recvCell c i) 0 (0 : Fin 7)))

/-- What the launch element deals device `c`. -/
def G (m : (ℓ : Loc nD τ sig) → Buf (Elt F) ℓ) (c : Dev nD) : sProp 𝕄 :=
  iprop((bigSep Finset.univ fun k : CellIx => roundState ER (Rd m) (kcell (c, k)) 0)
    ∗ (bigSep Finset.univ fun k : CellIx => iprop(atPos ER (kcell (c, k)) 0 ∅ 0 ∗ reached ER (kcell (c, k)) 0)) ∗ toks c)

/-- What the global step makes of it, beside the two idle semaphores. -/
def G' (m : (ℓ : Loc nD τ sig) → Buf (Elt F) ℓ) (c : Dev nD) : sProp 𝕄 := iprop((∃ K, ghost m K c) ∗ idleSems c)

omit [FloatOps F] in
theorem bigSep_ringCells (Φ : GSem nD τ sig → sProp 𝕄) :
    bigSep ringCells Φ = bigSep Finset.univ fun c : Dev nD => bigSep Finset.univ fun k : CellIx => Φ (kcell (c, k)) := by
  unfold ringCells; rw [bigSep_map, bigSep_univ_prod]; rfl

omit [FloatOps F] in
theorem bigSep_ringToks :
    bigSep ringToks (fun x => (dutyTok ER x.1 x.2.1 x.2.2 : sProp 𝕄)) = bigSep Finset.univ fun c : Dev nD => toks c := by
  unfold ringToks; rw [bigSep_map, bigSep_univ_prod]
  exact bigSep_congr fun c _ => by unfold toks; rw [bigSep_univ_sum, bigSep_univ_sum]; rfl

theorem fund_ring (m : (ℓ : Loc nD τ sig) → Buf (Elt F) ℓ) :
    BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst' := (Entails.of_eq (bigSep_ringCells fun g => roundState ER (Rd m) g 0)) $$ Hst
  ihave Hat' := (Entails.of_eq (bigSep_ringCells fun g => atPos ER g 0 ∅ 0)) $$ Hat
  ihave Hr' := (Entails.of_eq (bigSep_ringCells fun g => reached ER g 0)) $$ Hr
  ihave Htok' := (Entails.of_eq bigSep_ringToks) $$ Htok
  unfold G; simp only [bigSep_sep']
  isplitl [Hst']; · iexact Hst'
  isplitl [Hat' Hr']
  · isplitl [Hat'] <;> iassumption
  iexact Htok'

/-! ## The cells' invariants allocated -/

omit [FloatOps F] in
/-- The kernel's own semaphores at zero: of each scratch array the idle one and the seven used; -/
theorem ownSems0_eq (c : Dev nD) : (Pipeline.ownSems0 (Ix := Unit) (Name := ℕ) (U := UU) (Lvl := ℕ) (Val := Elt F) (τ := τ) osem c : sProp 𝕄)
    = iprop((semVal ((c : Thread nD τ), SemLoc.dma (⟨3, by decide⟩ : DmaSem sig)) 0 ∗ bigSep Finset.univ fun i : Fin 7 => semVal (sendCell c i) 0)
        ∗ (semVal ((c : Thread nD τ), SemLoc.dma (⟨11, by decide⟩ : DmaSem sig)) 0 ∗ bigSep Finset.univ fun i : Fin 7 => semVal (recvCell c i) 0)) := by
  unfold Pipeline.ownSems0
  rw [bigSep_univ_sum, bigSep_univ_sum, bigSep_univ_sum, bigSep_univ_of_subsingleton (), bigSep_univ_of_subsingleton ()]
  rfl

omit [FloatOps F] in
/-- the barrier semaphore the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CellIx => semVal (kcell (c, k)) 0) ∗ idleSems c) : sProp 𝕄) := by
  rw [ownSems0_eq, unscopedSems0_eq, bigSep_cellIx]
  unfold idleSems
  iintro ⟨⟨⟨H3, HS⟩, H11, HV⟩, HB⟩
  isplitl [HB HS HV]
  · isplitl [HB]; · iexact HB
    isplitl [HS] <;> iassumption
  · isplitl [H3] <;> iassumption

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (Rd m) κ (kcell (c, k))))
          ∗ (bigSep Finset.univ fun k : CellIx => iprop(atPos ER (kcell (c, k)) 0 ∅ 0 ∗ reached ER (kcell (c, k)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : CellIx => semVal (kcell (c, k)) 0) ∗ bigSep Finset.univ fun k : CellIx => roundState ER (Rd m) (kcell (c, k)) 0)
      ⊢ (|={Set.univ}=> bigSep Finset.univ fun k : CellIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ## The records every device reads; what stays with each -/

/-- Every cell's invariant at its name, and round 0 of every cell reached. -/
def records (m : (ℓ : Loc nD τ sig) → Buf (Elt F) ℓ) (K : GSem nD τ sig → ℕ) : sProp 𝕄 :=
  iprop((bigSep Finset.univ fun ck : Dev nD × CellIx => cellInv ER (Rd m) (K (kcell ck)) (kcell ck))
    ∗ bigSep Finset.univ fun ck : Dev nD × CellIx => reached ER (kcell ck) 0)

instance records_persistent (m : (ℓ : Loc nD τ sig) → Buf (Elt F) ℓ) (K : GSem nD τ sig → ℕ) : BI.Persistent (records m K) := by unfold records; infer_instance

theorem inv_at (m : (ℓ : Loc nD τ sig) → Buf (Elt F) ℓ) (K : GSem nD τ sig → ℕ) (ck : Dev nD × CellIx) :
    (bigSep Finset.univ fun ck : Dev nD × CellIx => (cellInv ER (Rd m) (K (kcell ck)) (kcell ck) : sProp 𝕄)) ⊢ cellInv ER (Rd m) (K (kcell ck)) (kcell ck) :=
  bigSep_elim (Finset.mem_univ ck)
omit [FloatOps F] in
theorem reached_at (ck : Dev nD × CellIx) :
    (bigSep Finset.univ fun ck : Dev nD × CellIx => (reached ER (kcell ck) 0 : sProp 𝕄)) ⊢ reached ER (kcell ck) 0 :=
  bigSep_elim (Finset.mem_univ ck)

theorem invs_of (m : (ℓ : Loc nD τ sig) → Buf (Elt F) ℓ) (K : GSem nD τ sig → ℕ) (c : Dev nD) :
    (bigSep Finset.univ fun ck : Dev nD × CellIx => (cellInv ER (Rd m) (K (kcell ck)) (kcell ck) : sProp 𝕄)) ⊢ invs m K c := by
  unfold invs
  iintro #HI
  isplitr; · iapply (inv_at m K (c, .inl ())); iexact HI
  isplitr; · iapply (bigSep_intro_persistent fun (i : Fin 7) _ => inv_at m K (c, .inr (.inl i))); iexact HI
  isplitr; · iapply (bigSep_intro_persistent fun (i : Fin 7) _ => inv_at m K (c, .inr (.inr i))); iexact HI
  isplitr; · iapply (bigSep_intro_persistent fun (i : Fin 7) _ => inv_at m K (pr c i, .inl ())); iexact HI
  iapply (bigSep_intro_persistent fun (i : Fin 7) _ => inv_at m K (pr c i, .inr (.inr (rev i)))); iexact HI

/-- The tokens of the duties device `c` pays: one on each other device's barrier cell, one on the receive cell of each
    copy it makes, one on each of its own send cells. -/
def payToks (c : Dev nD) : sProp 𝕄 :=
  iprop((bigSep Finset.univ fun i : Fin 7 => dutyTok ER (barCell (pr c i)) 0 (rev i))
    ∗ (bigSep Finset.univ fun i : Fin 7 => dutyTok ER (recvCell (pr c i) (rev i)) 0 (0 : Fin 7))
    ∗ (bigSep Finset.univ fun i : Fin 7 => dutyTok ER (sendCell c i) 0 (0 : Fin 7)))
/-- What stays with device `c`: its positions, and those tokens. -/
def linear (c : Dev nD) : sProp 𝕄 :=
  iprop((atPos ER (barCell c) 0 ∅ 0 ∗ (bigSep Finset.univ fun i : Fin 7 => atPos ER (sendCell c i) 0 ∅ 0)
      ∗ (bigSep Finset.univ fun i : Fin 7 => atPos ER (recvCell c i) 0 ∅ 0)) ∗ payToks c)

theorem ghost_intro (m : (ℓ : Loc nD τ sig) → Buf (Elt F) ℓ) (K : GSem nD τ sig → ℕ) (c : Dev nD) : iprop(records m K ∗ linear c) ⊢ ghost m K c := by
  unfold records linear payToks ghost
  iintro ⟨⟨#HI, #HR⟩, ⟨HaB, HaS, HaV⟩, HtB, HtV, HtS⟩
  isplitr; · iapply (invs_of m K c); iexact HI
  isplitl [HaB]; · iexact HaB
  isplitl [HaS]; · iexact HaS
  isplitl [HaV]; · iexact HaV
  isplitr; · iapply (bigSep_intro_persistent fun (i : Fin 7) _ => reached_at (F := F) (pr c i, .inl ())); iexact HR
  isplitr; · iapply (bigSep_intro_persistent fun (i : Fin 7) _ => reached_at (F := F) (pr c i, .inr (.inr (rev i)))); iexact HR
  isplitr; · iapply (bigSep_intro_persistent fun (i : Fin 7) _ => reached_at (F := F) (c, .inr (.inl i))); iexact HR
  isplitr; · iapply (bigSep_intro_persistent fun (i : Fin 7) _ => reached_at (F := F) (c, .inr (.inr i))); iexact HR
  isplitl [HtB]; · iexact HtB
  isplitl [HtV]; · iexact HtV
  iexact HtS

theorem G'_intro (m : (ℓ : Loc nD τ sig) → Buf (Elt F) ℓ) (K : GSem nD τ sig → ℕ) (c : Dev nD) : iprop(records m K ∗ linear c ∗ idleSems c) ⊢ G' m c := by
  unfold G'
  iintro ⟨#HR, HL, HI⟩
  isplitl [HL]
  · iexists K
    iapply (ghost_intro m K c)
    isplitr; · iexact HR
    iexact HL
  · iexact HI

/-! ## The tokens dealt around -/

/-- The device `i + 1` places after, with the offset mirrored: applied twice it is the identity. -/
def deal : Dev nD × Fin 7 ≃ Dev nD × Fin 7 where
  toFun x := (pr x.1 x.2, rev x.2)
  invFun x := (pr x.1 x.2, rev x.2)
  left_inv x := Prod.ext (pl_pr x.1 x.2) (rev_rev x.2)
  right_inv x := Prod.ext (pl_pr x.1 x.2) (rev_rev x.2)

omit [FloatOps F] in
theorem deal_bar : (bigSep Finset.univ fun c : Dev nD => bigSep Finset.univ fun d : Fin 7 => (dutyTok ER (barCell c) 0 d : sProp 𝕄))
    = bigSep Finset.univ fun c : Dev nD => bigSep Finset.univ fun i : Fin 7 => dutyTok ER (barCell (pr c i)) 0 (rev i) :=
  (bigSep_univ_prod (fun x : Dev nD × Fin 7 => (dutyTok ER (barCell x.1) 0 x.2 : sProp 𝕄))).symm.trans
    ((bigSep_univ_equiv deal _).trans (bigSep_univ_prod _))
omit [FloatOps F] in
theorem deal_recv : (bigSep Finset.univ fun c : Dev nD => bigSep Finset.univ fun i : Fin 7 => (dutyTok ER (recvCell c i) 0 (0 : Fin 7) : sProp 𝕄))
    = bigSep Finset.univ fun c : Dev nD => bigSep Finset.univ fun i : Fin 7 => dutyTok ER (recvCell (pr c i) (rev i)) 0 (0 : Fin 7) :=
  (bigSep_univ_prod (fun x : Dev nD × Fin 7 => (dutyTok ER (recvCell x.1 x.2) 0 (0 : Fin 7) : sProp 𝕄))).symm.trans
    ((bigSep_univ_equiv deal _).trans (bigSep_univ_prod _))

omit [FloatOps F] in
/-- A barrier cell's token of duty `d` and the token of receive cell `d` go to the device `d + 1` places after. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', deal_bar, deal_recv]
  iintro ⟨H1, H2, H3⟩
  isplitl [H1]; · iexact H1
  isplitl [H3]; · iexact H3
  iexact H2

omit [FloatOps F] in
theorem linear_at (c : Dev nD) :
    iprop((bigSep Finset.univ fun k : CellIx => (atPos ER (kcell (c, k)) 0 ∅ 0 : sProp 𝕄)) ∗ payToks c ∗ idleSems c)
      ⊢ (iprop(linear c ∗ idleSems c) : sProp 𝕄) := by
  unfold linear; rw [bigSep_cellIx]
  iintro ⟨HA, HP, HI⟩
  isplitl [HA HP]
  · isplitl [HA] <;> iassumption
  iexact HI

omit [FloatOps F] in
theorem linear_intro :
    iprop((bigSep Finset.univ fun c : Dev nD => bigSep Finset.univ fun k : CellIx => (atPos ER (kcell (c, k)) 0 ∅ 0 : sProp 𝕄))
        ∗ (bigSep Finset.univ fun c : Dev nD => payToks c) ∗ (bigSep Finset.univ fun c : Dev nD => idleSems c))
      ⊢ bigSep Finset.univ fun c : Dev nD => (iprop(linear c ∗ idleSems c) : sProp 𝕄) := by
  rw [← bigSep_sep', ← bigSep_sep']
  exact bigSep_mono fun c _ => linear_at c

theorem regroup (m : (ℓ : Loc nD τ sig) → Buf (Elt F) ℓ) :
    (bigSep Finset.univ fun c : Dev nD => iprop((bigSep Finset.univ fun k : CellIx => iprop(∃ κ : ℕ, cellInv ER (Rd m) κ (kcell (c, k))))
          ∗ (bigSep Finset.univ fun k : CellIx => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × CellIx => iprop(∃ κ : ℕ, cellInv ER (Rd m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok, Hidle⟩
  ihave HI1 := (Entails.of_eq (bigSep_map (s := Finset.univ) ⟨kcell, kcell_injective⟩ (Φ := fun g : GSem nD τ sig => iprop(∃ κ : ℕ, cellInv ER (Rd m) κ g))).symm) $$ HI
  ihave HK := (BI.bigSep_exists_pi (Finset.univ.map ⟨kcell, kcell_injective⟩) (fun (g : GSem nD τ sig) (κ : ℕ) => (cellInv ER (Rd m) κ g : sProp 𝕄))) $$ HI1
  icases HK with ⟨%K, HI2⟩
  ihave HI3 := (Entails.of_eq (bigSep_map (s := Finset.univ) ⟨kcell, kcell_injective⟩ (Φ := fun g : GSem nD τ sig => (cellInv ER (Rd m) (K g) g : sProp 𝕄)))) $$ HI2
  icases HI3 with #HI3
  ihave Htk := (toks_around (F := F)) $$ Htok
  iapply (bigSep_with_persistent (R := records m K) fun c _ => G'_intro m K c)
  isplitr
  · unfold records; isplitl; · iexact HI3
    iexact HR
  · iapply (linear_intro (F := F))
    isplitl [Hat]; · iexact Hat
    isplitl [Htk]; · iexact Htk
    iexact Hidle

/-- The global step: own and unscoped semaphores of every device at once. -/
theorem glob (m : (ℓ : Loc nD τ sig) → Buf (Elt F) ℓ) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.KProto.glob' depends on axioms: [propext, Classical.choice, Quot.sound] -/
#guard_msgs in #print axioms glob

end Cert.Kernel.KProto

end
-- ==== Proof.Word.KSlots.lean ====
/-
  The scratch buffer as eight slot regions. The scratch has shape [8,4,64]; slot s is the rectangle of the indices
  whose first coordinate is s, seen at shape [4,64]. The eight slots are pairwise disjoint and cover the buffer, so
  the buffer held whole is the eight slots held side by side; a slot held at a share splits along the share; and a
  slot's assertion depends on the contents only at the slot's own indices. Then the values: slot j of a device's
  gathered scratch is the statistics of the device j places after it, so what a device stores in its own slot 0, and
  what its copy i lands in slot 7 - i of the device i + 1 places after it, are those devices' gathered contents there.
-/
import proofs.«900776_g7700000000000777_dist_diff_noisepred_hshard_i_b2_h128_w128_c64_v7x_i8_bf16_1_alg».proof.Proof.Word.KProto
import Idealize.ShloMosaic.Lib.Pipeline.Value
import Idealize.ShloMosaic.Lib.ValueLayout

noncomputable section

namespace Cert.Kernel.KProto

open Cert.Kernel Cert.Kernel.Gen Cert.Kernel.KSpec

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## Where a slot sits in the buffer -/

/-- A slot's view is a view of the scratch buffer itself. -/
theorem slot_loc (c : Dev nD) (s : Fin 8) : (slotM s).view.loc (c : Thread nD τ) = (c : Thread nD τ).loc cc0_scratch0 := rfl

/-- Row r, channel k of slot s is the buffer's element (s, r, k). -/
theorem slot_emb (s : Fin 8) (r : Fin 4) (k : Fin 64) : (slotM s).view.emb (ix2 r k) = ix3 s r k := by
  show (Rect.unit (s := S8x4x64) ![s.val, 0, 0] S1x4x64.size (slot_inb s)).emb
      (Shape.reshapeEquiv squeezes_S1x4x64_S4x64.numel_eq (ix2 r k)) = ix3 s r k
  rw [reshapeEquiv_ix2_1ab]
  funext a
  match a with
  | ⟨0, _⟩ => exact Fin.ext (by show s.val + 1 * 0 = s.val; omega)
  | ⟨1, _⟩ => exact Fin.ext (by show 0 + 1 * r.val = r.val; omega)
  | ⟨2, _⟩ => exact Fin.ext (by show 0 + 1 * k.val = k.val; omega)

/-- A slot's set, as a set of indices of the buffer's shape. -/
abbrev slotSet (s : Fin 8) : Finset S8x4x64.Idx := (slotM s).view.set

/-- The slot's indices are those whose first coordinate is the slot's number. -/
theorem mem_slot (s : Fin 8) (i : S8x4x64.Idx) : i ∈ slotSet s ↔ i 0 = s := by
  constructor
  · intro h
    obtain ⟨y, rfl⟩ := View.exists_emb_of_mem_set (slotM s).view h
    obtain ⟨r, k, rfl⟩ : ∃ (r : Fin 4) (k : Fin 64), y = ix2 r k := ⟨y 0, y 1, eq_ix2 y⟩
    rw [slot_emb]
  · intro h
    obtain ⟨a, r, k, rfl⟩ : ∃ (a : Fin 8) (r : Fin 4) (k : Fin 64), i = ix3 a r k := ⟨i 0, i 1, i 2, eq_ix3 i⟩
    have h' : a = s := h
    subst h'
    rw [← slot_emb]
    exact View.emb_mem_set _ _

/-- The eight slots are pairwise disjoint and cover the buffer. -/
theorem slot_sets_cover :
    (∀ s ∈ (Finset.univ : Finset (Fin 8)), ∀ s' ∈ (Finset.univ : Finset (Fin 8)), s ≠ s' → Disjoint (slotSet s) (slotSet s'))
      ∧ (Finset.univ : Finset (Fin 8)).biUnion slotSet = Finset.univ := by
  refine ⟨fun s _ s' _ hne => Finset.disjoint_left.mpr fun i hi hi' => hne ?_, ?_⟩
  · exact ((mem_slot s i).mp hi).symm.trans ((mem_slot s' i).mp hi')
  · ext i
    simp only [Finset.mem_biUnion, Finset.mem_univ, true_and, iff_true]
    exact ⟨i 0, (mem_slot (i 0) i).mpr rfl⟩

/-! ## The region algebra of the slots -/

/-- The whole scratch is its eight slots side by side, at any share and contents. -/
theorem scr_split (c : Dev nD) (q : PosShare TreeShare) (f : Buf (Elt F) ((c : Thread nD τ).loc cc0_scratch0)) :
    ((((c : Thread nD τ).loc cc0_scratch0) ↦{q} f : sProp 𝕄)) ⊣⊢ iprop(slotPts c 0 q f ∗ slotPts c 1 q f ∗ slotPts c 2 q f ∗ slotPts c 3 q f ∗ slotPts c 4 q f ∗ slotPts c 5 q f ∗ slotPts c 6 q f ∗ slotPts c 7 q f) := by
  have hu : (Finset.univ : Finset (Fin 8)) = {0, 1, 2, 3, 4, 5, 6, 7} := by decide
  have e : ((((c : Thread nD τ).loc cc0_scratch0) ↦[(Finset.univ : Finset (Fin 8)).biUnion slotSet]{q} f : sProp 𝕄))
      = iprop(slotPts c 0 q f ∗ slotPts c 1 q f ∗ slotPts c 2 q f ∗ slotPts c 3 q f ∗ slotPts c 4 q f ∗ slotPts c 5 q f ∗ slotPts c 6 q f ∗ slotPts c 7 q f) := by
    rw [pointsTo_biUnion _ _ slot_sets_cover.1, hu,
      bigSep_insert (by decide), bigSep_insert (by decide), bigSep_insert (by decide), bigSep_insert (by decide),
      bigSep_insert (by decide), bigSep_insert (by decide), bigSep_insert (by decide), bigSep_singleton]
    rfl
  rw [slot_sets_cover.2] at e
  exact ⟨Entails.of_eq e, Entails.of_eq e.symm⟩
/-- A slot held at a share is the slot held at the two parts of the share. -/
theorem slot_share (c : Dev nD) (s : Fin 8) {q q₁ q₂ : PosShare TreeShare} (h : q ∈ q₁ ·? q₂)
    (f : Buf (Elt F) ((c : Thread nD τ).loc cc0_scratch0)) :
    (slotPts c s q f : sProp 𝕄) ⊣⊢ iprop(slotPts c s q₁ f ∗ slotPts c s q₂ f) :=
  pointsTo_share h

/-- A slot's assertion reads the contents only at the slot's indices. -/
theorem slot_congr (c : Dev nD) (s : Fin 8) (q : PosShare TreeShare) (f g : Buf (Elt F) ((c : Thread nD τ).loc cc0_scratch0))
    (h : ∀ i ∈ (slotM s).view.set, f i = g i) : (slotPts c s q f : sProp 𝕄) = slotPts c s q g :=
  pointsTo_congr h

/-! ## The values in the slots -/

/-- A device is zero places after itself. -/
theorem peer_zero (c : Dev nD) : peer c 0 = c := by revert c; decide

/-- The device `i + 1` places after `c` finds `c` at `7 - i` places after itself. -/
theorem peer_back (c : Dev nD) (i : Fin 7) : peer (pr c i) (slotOf (rev i)) = c := by revert c i; decide

/-- Slot 0 of a device's gathered scratch holds its own statistics. -/
theorem gath_slot0 (m : (ℓ : Loc nD τ sig) → Buf (Elt F) ℓ) (c : Dev nD) (r : Fin 4) (k : Fin 64) :
    gath m c (ix3 (0 : Fin 8) r k) = k0_pay2 (xstg m c) (ix3 (0 : Fin 1) r k) := by
  show stats (xstg m (peer c 0)) (ix3 (0 : Fin 1) r k) = _
  rw [peer_zero]; rfl

/-- Slot `7 - i` of the gathered scratch of the device `i + 1` places after `c` holds `c`'s statistics. -/
theorem gath_slot (m : (ℓ : Loc nD τ sig) → Buf (Elt F) ℓ) (c : Dev nD) (i : Fin 7) (r : Fin 4) (k : Fin 64) :
    gath m (pr c i) (ix3 (slotOf (rev i)) r k) = k0_pay2 (xstg m c) (ix3 (0 : Fin 1) r k) := by
  show stats (xstg m (peer (pr c i) (slotOf (rev i)))) (ix3 (0 : Fin 1) r k) = _
  rw [peer_back]; rfl

/-- Slot 0's indices are those the body's store into the scratch goes through. -/
theorem slot0_set : (slotM 0).view.set
    = (scr.access (Rect.unit (s := S8x4x64) ![0, 0, 0] S1x4x64.size inb_S8x4x64_S1x4x64_0_0_0)).set :=
  Memref.set_view_squeeze _ _

/-- Row r, channel k of the stored block goes to the buffer's element (0, r, k). -/
theorem store_emb (r : Fin 4) (k : Fin 64) :
    (scr.access (Rect.unit (s := S8x4x64) ![0, 0, 0] S1x4x64.size inb_S8x4x64_S1x4x64_0_0_0)).emb (ix3 (0 : Fin 1) r k)
      = ix3 (0 : Fin 8) r k := by
  show (Rect.unit (s := S8x4x64) ![0, 0, 0] S1x4x64.size inb_S8x4x64_S1x4x64_0_0_0).emb (ix3 (0 : Fin 1) r k) = _
  funext a
  match a with
  | ⟨0, _⟩ => exact Fin.ext (by show 0 + 1 * 0 = 0; omega)
  | ⟨1, _⟩ => exact Fin.ext (by show 0 + 1 * r.val = r.val; omega)
  | ⟨2, _⟩ => exact Fin.ext (by show 0 + 1 * k.val = k.val; omega)

/-- What the body's store of its statistics leaves in slot 0 is the gathered scratch there. -/
theorem slot0_stored (m : (ℓ : Loc nD τ sig) → Buf (Elt F) ℓ) (c : Dev nD) (f : Buf (Elt F) ((c : Thread nD τ).loc cc0_scratch0)) :
    (slotPts c 0 fullShare ((scr.access (Rect.unit (s := S8x4x64) ![0, 0, 0] S1x4x64.size inb_S8x4x64_S1x4x64_0_0_0)).write (Elt F) f (k0_pay2 (xstg m c)) Finset.univ) : sProp 𝕄)
      = slotPts c 0 fullShare (gath m c) := by
  refine slot_congr c 0 fullShare _ _ fun i hi => ?_
  obtain ⟨y, rfl⟩ := View.exists_emb_of_mem_set (slotM 0).view hi
  obtain ⟨r, k, rfl⟩ : ∃ (r : Fin 4) (k : Fin 64), y = ix2 r k := ⟨y 0, y 1, eq_ix2 y⟩
  rw [slot_emb, gath_slot0, ← store_emb,
    View.write_emb_of_mem _ _ (Finset.mem_univ _)]
  rfl

/-- What copy `i` of device `c` lands in slot `7 - i` of the device `i + 1` places after it is that device's
    gathered scratch there. -/
theorem landing (m : (ℓ : Loc nD τ sig) → Buf (Elt F) ℓ) (c : Dev nD) (i : Fin 7)
    (fd : Buf (Elt F) ((slotM (slotOf (rev i))).view.loc ((pr c i : Dev nD) : Thread nD τ))) :
    ((slotM (slotOf (rev i))).view.loc ((pr c i : Dev nD) : Thread nD τ) ↦[(slotM (slotOf (rev i))).view.set]{fullShare} ((slotM (slotOf (rev i))).view.write (Elt F) fd ((slotM 0).view.read (Elt F) (gath m c)) Finset.univ) : sProp 𝕄) ⊢ recvPay m (pr c i) (rev i) := by
  refine Entails.of_eq (slot_congr (pr c i) (slotOf (rev i)) fullShare _ _ fun j hj => ?_)
  obtain ⟨y, rfl⟩ := View.exists_emb_of_mem_set (slotM (slotOf (rev i))).view hj
  obtain ⟨r, k, rfl⟩ : ∃ (r : Fin 4) (k : Fin 64), y = ix2 r k := ⟨y 0, y 1, eq_ix2 y⟩
  rw [View.write_emb_of_mem _ _ (Finset.mem_univ _), View.read_apply, slot_emb, slot_emb, gath_slot0, gath_slot]
  rfl

/-- The body's one read of the whole scratch reads its contents. -/
theorem read_whole (m : (ℓ : Loc nD τ sig) → Buf (Elt F) ℓ) (c : Dev nD) :
    scr.view.readAt (Elt F) (Rect.unit (s := S8x4x64) ![0, 0, 0] S8x4x64.size inb_S8x4x64_S8x4x64_0_0_0).toLoadRect (gath m c) = gath m c :=
  Memref.readAt_unit_zero (Elt F) cc0_scratch0 (by funext a; fin_cases a <;> rfl) _ _

/-- info: 'Cert.Kernel.KProto.scr_split' depends on axioms: [propext, Classical.choice, Quot.sound] -/
#guard_msgs in #print axioms scr_split
/-- info: 'Cert.Kernel.KProto.slot_share' depends on axioms: [propext, Classical.choice, Quot.sound] -/
#guard_msgs in #print axioms slot_share
/-- info: 'Cert.Kernel.KProto.slot_congr' depends on axioms: [propext, Classical.choice, Quot.sound] -/
#guard_msgs in #print axioms slot_congr
/-- info: 'Cert.Kernel.KProto.slot0_stored' depends on axioms: [propext, Classical.choice, Quot.sound] -/
#guard_msgs in #print axioms slot0_stored
/-- info: 'Cert.Kernel.KProto.landing' depends on axioms: [propext, Classical.choice, Quot.sound] -/
#guard_msgs in #print axioms landing
/-- info: 'Cert.Kernel.KProto.read_whole' depends on axioms: [propext, Classical.choice, Quot.sound] -/
#guard_msgs in #print axioms read_whole

end Cert.Kernel.KProto

end
-- ==== Proof.Word.KShares.lean ====
/-
  Slot 0 of a device's scratch is read by its seven outgoing copies and, while they are in flight, by the body's one
  read of the whole scratch. Its full share is halved; the right half is kept for that read; the left half is cut
  into seven, each cut keeping the left part and cutting the right part again. So the slot held in full is the slot
  held at the seven copies' shares and at the reader's share, side by side.
-/
import proofs.«900776_g7700000000000777_dist_diff_noisepred_hshard_i_b2_h128_w128_c64_v7x_i8_bf16_1_alg».proof.Proof.Word.KProto
import proofs.«900776_g7700000000000777_dist_diff_noisepred_hshard_i_b2_h128_w128_c64_v7x_i8_bf16_1_alg».proof.Proof.Word.KSlots

noncomputable section

namespace Cert.Kernel.KProto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-- A slot held at a share is, as an assertion, the slot held at the two parts of the share. -/
theorem slot_share_eq (c : Dev nD) (s : Fin 8) {q q₁ q₂ : PosShare TreeShare} (h : q ∈ q₁ ·? q₂)
    (f : Buf (Elt F) ((c : Thread nD τ).loc cc0_scratch0)) :
    (slotPts c s q f : sProp 𝕄) = iprop(slotPts c s q₁ f ∗ slotPts c s q₂ f) :=
  BI.Entails.antisymm (slot_share c s h f).1 (slot_share c s h f).2

/-- Side by side is associative, as an equation of assertions. -/
theorem sep_assoc_eq (P Q R : sProp 𝕄) : (iprop((P ∗ Q) ∗ R) : sProp 𝕄) = iprop(P ∗ Q ∗ R) :=
  Idealize.SL.BI.Entails.antisymm Idealize.SL.BI.sep_assoc Idealize.SL.BI.sep_assoc'

theorem remL_zero : remL 0 = fullShare.left := rfl

/-- The slot in full is its two halves. -/
theorem slot_halves (c : Dev nD) (s : Fin 8) (f : Buf (Elt F) ((c : Thread nD τ).loc cc0_scratch0)) :
    (slotPts c s fullShare f : sProp 𝕄) ⊣⊢ iprop(slotPts c s fullShare.left f ∗ slotPts c s shR f) :=
  slot_share c s full_split f

/-- Slot 0 in full is the seven copies' shares and the reader's share. -/
theorem slot0_shares (c : Dev nD) (f : Buf (Elt F) ((c : Thread nD τ).loc cc0_scratch0)) :
    (slotPts c 0 fullShare f : sProp 𝕄) ⊣⊢ iprop(slotPts c 0 (shS 0) f ∗ slotPts c 0 (shS 1) f ∗ slotPts c 0 (shS 2) f ∗ slotPts c 0 (shS 3) f ∗ slotPts c 0 (shS 4) f ∗ slotPts c 0 (shS 5) f ∗ slotPts c 0 (shS 6) f ∗ slotPts c 0 shR f) := by
  have s0 : remL 0 ∈ (remL 0).left ·? remL 1 := remL_split 0
  have s1 : remL 1 ∈ (remL 1).left ·? remL 2 := remL_split 1
  have s2 : remL 2 ∈ (remL 2).left ·? remL 3 := remL_split 2
  have s3 : remL 3 ∈ (remL 3).left ·? remL 4 := remL_split 3
  have s4 : remL 4 ∈ (remL 4).left ·? remL 5 := remL_split 4
  have s5 : remL 5 ∈ (remL 5).left ·? remL 6 := remL_split 5
  have e : (slotPts c 0 fullShare f : sProp 𝕄)
      = iprop(slotPts c 0 (remL 0).left f ∗ slotPts c 0 (remL 1).left f ∗ slotPts c 0 (remL 2).left f ∗ slotPts c 0 (remL 3).left f
          ∗ slotPts c 0 (remL 4).left f ∗ slotPts c 0 (remL 5).left f ∗ slotPts c 0 (remL 6) f ∗ slotPts c 0 shR f) := by
    rw [← sep_assoc_eq (slotPts c 0 (remL 5).left f), ← slot_share_eq c 0 s5 f,
    ← sep_assoc_eq (slotPts c 0 (remL 4).left f), ← slot_share_eq c 0 s4 f,
    ← sep_assoc_eq (slotPts c 0 (remL 3).left f), ← slot_share_eq c 0 s3 f,
    ← sep_assoc_eq (slotPts c 0 (remL 2).left f), ← slot_share_eq c 0 s2 f,
    ← sep_assoc_eq (slotPts c 0 (remL 1).left f), ← slot_share_eq c 0 s1 f,
    ← sep_assoc_eq (slotPts c 0 (remL 0).left f), ← slot_share_eq c 0 s0 f,
      remL_zero, ← slot_share_eq c 0 full_split f]
  exact ⟨Entails.of_eq e, Entails.of_eq e.symm⟩

/-- info: 'Cert.Kernel.KProto.slot0_shares' depends on axioms: [propext, Classical.choice, Quot.sound] -/
#guard_msgs in #print axioms slot0_shares

/-- info: 'Cert.Kernel.KProto.slot_halves' depends on axioms: [propext, Classical.choice, Quot.sound] -/
#guard_msgs in #print axioms slot_halves

end Cert.Kernel.KProto

end
-- ==== Proof.Word.KBody.lean ====
/-
  One device's run of the kernel body, from the state the launch deals it to the state it hands back.

  The seven entry signals each give away one slot of the device's scratch, to the device that will write it. The band's
  per-channel sums and sums of squares go into slot 0. The wait for the seven signals addressed to this device brings the
  seven slots it may write on the others. Slot 0 is then copied into one slot of each other device, each copy reading it
  through its own share; the seven waits for the copies addressed to this device bring slots 1–7 back, holding the others'
  statistics. All eight slots are read at once through one half-share (the other half of slot 0 is still lent to the copies
  in flight, the other halves of slots 1–7 are set aside), the result block is computed from them and written, and the
  seven waits for the own copies to have left bring slot 0's shares back. Last the fourteen cells are closed and the scratch
  is whole again.
-/
import proofs.«900776_g7700000000000777_dist_diff_noisepred_hshard_i_b2_h128_w128_c64_v7x_i8_bf16_1_alg».proof.Proof.Word.KTables
import proofs.«900776_g7700000000000777_dist_diff_noisepred_hshard_i_b2_h128_w128_c64_v7x_i8_bf16_1_alg».proof.Proof.Word.KSlots
import proofs.«900776_g7700000000000777_dist_diff_noisepred_hshard_i_b2_h128_w128_c64_v7x_i8_bf16_1_alg».proof.Proof.Word.KShares

noncomputable section

namespace Cert.Kernel.KProto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open PCS

variable {F : FTy → Type} [FloatOps F]

local notation "𝕄" => MT nD τ sig Unit (Elt F) ℕ UU ℕ

variable (m : (ℓ : Loc nD τ sig) → Buf (Elt F) ℓ)

variable (K : GSem nD τ sig → ℕ)

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Slot `s` of device `c`'s scratch as a plain region, spelt through the slot's view. -/
abbrev sl (c : Dev nD) (s : Fin 8) (q : PosShare TreeShare) (f : Buf (Elt F) ((c : Thread nD τ).loc cc0_scratch0)) : sProp 𝕄 :=
  (slotM s).view.loc (c : Thread nD τ) ↦[(slotM s).view.set]{q} f

/-- The scratch cut into slot 0 and the seven slots `i + 1`, each spelt as the schedule's tables spell it. -/
theorem scr_cut (c : Dev nD) (q : PosShare TreeShare) (f : Buf (Elt F) ((c : Thread nD τ).loc cc0_scratch0)) :
    ((((c : Thread nD τ).loc cc0_scratch0) ↦{q} f : sProp 𝕄)) ⊣⊢ iprop(sl c 0 q f ∗ sl c (slotOf 0) q f ∗ sl c (slotOf 1) q f ∗ sl c (slotOf 2) q f
      ∗ sl c (slotOf 3) q f ∗ sl c (slotOf 4) q f ∗ sl c (slotOf 5) q f ∗ sl c (slotOf 6) q f) := scr_split c q f

/-- What the entry signal to the device `i + 1` places after hands over, seen from the payer: its own slot `i + 1` and
    that round 0 of its own receive cell `i` is reached. -/
theorem payload_bar_out (c : Dev nD) (i : Fin 7) : (Rd (F := F) m).payload (barCell (pr c i)) 0 (rev i)
    = iprop((∃ f, sl c (slotOf i) fullShare f) ∗ reached ER (recvCell c i) 0) := by
  rw [payload_bar]; unfold barPay slotPts
  have h : pr (pr c i) (rev i) = c := pl_pr c i
  rw [h, rev_rev]
theorem mem_duties_bar (c : Dev nD) (d : Fin 7) : d ∈ (Rd (F := F) m).duties (barCell c) 0 := by rw [duties_bar]; exact Finset.mem_univ _
/-- A landed copy and a departed copy, spelt as regions. -/
theorem payload_recv_pts (c : Dev nD) (i d : Fin 7) : (Rd (F := F) m).payload (recvCell c i) 0 d = sl c (slotOf i) fullShare (gath m c) := by
  rw [payload_recv]; rfl
theorem payload_send_pts (c : Dev nD) (i d : Fin 7) : (Rd (F := F) m).payload (sendCell c i) 0 d = sl c 0 (shS i) (gath m c) := by
  rw [payload_send]; rfl
theorem tc_fst (c : Dev nD) : ((c : Thread nD τ)).1 = c := rfl

attribute [local sl_rounds] duties_bar duties_send duties_recv amount_bar amount_send amount_recv expect_bar expect_send expect_recv
  payload_bar_out mem_duties_bar payload_recv_pts payload_send_pts
attribute [local sl_canon] tc_fst dev1_eq dev2_eq dev3_eq dev4_eq dev5_eq dev6_eq dev7_eq dev8_eq dev9_eq dev10_eq dev11_eq dev12_eq dev13_eq dev14_eq

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ idleSems c ∗ cred (tallyAt (barCell c) () 7) ∗ (bigSep Finset.univ fun i : Fin 7 => cred (tallyAt (recvCell c i) () N)) ∗ levAts L lv ∗ scrAny c)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ ∗ stg c cc0_stg0_0 (xstg m c) ∗ stg c cc0_stg1_0 (wstg m c) ∗ stg c cc0_stg2_0 (outAt m c))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
/-- Reading a staged block whole gives the block. -/
theorem read_x (f : (cc0_stg0_0 : Ref sig .tc).ty.Contents (Elt F)) :
    (Memref.whole cc0_stg0_0 : Memref sig .tc .vmem S2x128x128x64 .f32).view.readAt (Elt F)
      (Rect.unit (s := S2x128x128x64) ![0, 0, 0, 0] S2x128x128x64.size inb_S2x128x128x64_S2x128x128x64_0_0_0_0).toLoadRect f = f :=
  Memref.readAt_unit_zero (Elt F) cc0_stg0_0 hz4 _ f
theorem read_w (f : (cc0_stg1_0 : Ref sig .tc).ty.Contents (Elt F)) :
    (Memref.whole cc0_stg1_0 : Memref sig .tc .vmem S64x128 .f32).view.readAt (Elt F)
      (Rect.unit (s := S64x128) ![0, 0] S64x128.size inb_S64x128_S64x128_0_0).toLoadRect f = f :=
  Memref.readAt_unit_zero (Elt F) cc0_stg1_0 hz2 _ f

/-- The region lemmas of the slots, in the spelling the body's hypotheses have. -/
theorem halves' (c : Dev nD) (s : Fin 8) (f : Buf (Elt F) ((c : Thread nD τ).loc cc0_scratch0)) :
    sl c s fullShare f ⊣⊢ iprop(slotPts c s fullShare.left f ∗ slotPts c s shR f) := slot_halves c s f
theorem scr_cutP (c : Dev nD) (q : PosShare TreeShare) (f : Buf (Elt F) ((c : Thread nD τ).loc cc0_scratch0)) :
    ((((c : Thread nD τ).loc cc0_scratch0) ↦{q} f : sProp 𝕄)) ⊣⊢ iprop(slotPts c 0 q f ∗ slotPts c (slotOf 0) q f ∗ slotPts c (slotOf 1) q f ∗ slotPts c (slotOf 2) q f
      ∗ slotPts c (slotOf 3) q f ∗ slotPts c (slotOf 4) q f ∗ slotPts c (slotOf 5) q f ∗ slotPts c (slotOf 6) q f) := scr_split c q f
/-- Writing a staged block whole leaves what was written. -/
theorem write_out (f w : (cc0_stg2_0 : Ref sig .tc).ty.Contents (Elt F)) :
    (((Memref.whole cc0_stg2_0 : Memref sig .tc .vmem S2x128x128x128 .bf16)).access
        (Rect.unit (s := S2x128x128x128) ![0, 0, 0, 0] S2x128x128x128.size inb_S2x128x128x128_S2x128x128x128_0_0_0_0) : View sig .tc _ _ _).write (Elt F) f w Finset.univ = w :=
  Memref.write_access_unit_zero_univ (Elt F) cc0_stg2_0 hz4 _ f w
theorem read_out (f : (cc0_stg2_0 : Ref sig .tc).ty.Contents (Elt F)) :
    (Memref.whole cc0_stg2_0 : Memref sig .tc .vmem S2x128x128x128 .bf16).view.readAt (Elt F)
      (Rect.unit (s := S2x128x128x128) ![0, 0, 0, 0] S2x128x128x128.size inb_S2x128x128x128_S2x128x128x128_0_0_0_0).toLoadRect f = f :=
  Memref.readAt_unit_zero (Elt F) cc0_stg2_0 hz4 _ f
/-- Slot 0 whole again from the seven lent shares and the kept half. -/
theorem shares_join (c : Dev nD) (f : Buf (Elt F) ((c : Thread nD τ).loc cc0_scratch0)) :
    iprop(sl c 0 (shS 0) f ∗ sl c 0 (shS 1) f ∗ sl c 0 (shS 2) f ∗ sl c 0 (shS 3) f ∗ sl c 0 (shS 4) f ∗ sl c 0 (shS 5) f ∗ sl c 0 (shS 6) f ∗ slotPts c 0 shR f)
      ⊢ slotPts c 0 fullShare f := (slot0_shares c f).2

/-- Copy `i`: slot 0, read through its share, sent into slot `7 - i` of the device `i + 1` places after; the two duties it
    pays are the own send cell's and that device's receive cell's, and what lands there is that device's gathered
    buffer on that slot. -/
theorem step_send (c : Dev nD) (i : Fin 7) (n : Dev nD) (hn : n = pr c i)
    {hsc : ((slotM (slotOf (rev i)) : Memref sig (Dev.tc n : Thread nD τ).2.kind .vmem S4x64 .f32)).view.ref.isScScratch = false}
    {hsrc : (slotM 0 : Memref sig .tc .vmem S4x64 .f32).view.WordExact} {hdst : (slotM (slotOf (rev i)) : Memref sig .tc .vmem S4x64 .f32).view.WordExact}
    {hsem : DmaTarget.Typed .vmem (.dma (recvS (rev i))) (.remote (Dev.tc n : Thread nD τ) (slotM (slotOf (rev i))) (.dma (sendS i)) hsc)}
    {α : Type} {Q : α → sProp 𝕄} {k : PUnit → Prog (TpuEff nD τ sig (Elt F) Λ₀ .tc) α}
    (fn : Buf (Elt F) (((pr c i : Dev nD) : Thread nD τ).loc cc0_scratch0)) (O : CellTallies nD τ sig Unit) (W : Waits sig Unit) :
    iprop(cellInv ER (Rd m) (K (sendCell c i)) (sendCell c i) ∗ cellInv ER (Rd m) (K (recvCell (pr c i) (rev i))) (recvCell (pr c i) (rev i))
        ∗ slotPts c 0 (shS i) (gath m c) ∗ slotPts (pr c i) (slotOf (rev i)) fullShare fn
        ∗ owes (c : Thread nD τ) (O + tallyAt (recvCell (pr c i) (rev i)) () N) W
        ∗ dutyTok ER (sendCell c i) 0 (0 : Fin 7) ∗ reached ER (sendCell c i) 0
        ∗ dutyTok ER (recvCell (pr c i) (rev i)) 0 (0 : Fin 7) ∗ reached ER (recvCell (pr c i) (rev i)) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM (slotOf (rev i))) (.dma (sendS i)) hsc) (.dma (recvS (rev i))) hsrc hdst hsem) k) Q) := by
  subst hn
  unfold slotPts
  have hd₁ : (0 : Fin 7) ∈ (Rd (F := F) m).duties (sendCell c i) 0 := by rw [duties_send]; exact Finset.mem_singleton_self _
  have hd₂ : (0 : Fin 7) ∈ (Rd (F := F) m).duties (recvCell (pr c i) (rev i)) 0 := by
    rw [duties_recv]; exact Finset.mem_singleton_self _
  have hN : (slotM (slotOf (rev i))).view.amount (SemLoc.dma (recvS (rev i))) = N := rfl
  have hp₁ : ((slotM 0).view.loc (c : Thread nD τ) ↦[(slotM 0).view.set]{shS i} gath m c : sProp 𝕄)
      ⊢ (Rd (F := F) m).payload (sendCell c i) 0 (0 : Fin 7) := by
    rw [payload_send]; exact BI.Entails.refl _
  have hp₂ : ((slotM (slotOf (rev i))).view.loc ((pr c i : Dev nD) : Thread nD τ) ↦[(slotM (slotOf (rev i))).view.set]{fullShare}
        ((slotM (slotOf (rev i))).view.write (Elt F) fn ((slotM 0).view.read (Elt F) (gath m c)) Finset.univ) : sProp 𝕄)
      ⊢ (Rd (F := F) m).payload (recvCell (pr c i) (rev i)) 0 (0 : Fin 7) := by
    rw [payload_recv]; exact landing m c i fn
  exact Rounds.wp_send_pointsTo (defs := defs₀ (F := F)) 𝒱₀ ER (Rd (F := F) m) (c : Thread nD τ) none
    (c' := ((pr c i : Dev nD) : Thread nD τ)) (src := slotM 0) (dst := slotM (slotOf (rev i))) (hsc := hsc)
    (sS := SemLoc.dma (sendS i)) (sem := SemLoc.dma (recvS (rev i))) (hsrc := hsrc) (hdst := hdst) (hsem := hsem) (k := k)
    (q := shS i) (fs := gath m c) (fd := fn) (r₁ := 0) (r₂ := 0) (d₁ := (0 : Fin 7)) (d₂ := (0 : Fin 7))
    (κ₁ := K (sendCell c i)) (κ₂ := K (recvCell (pr c i) (rev i)))
    hd₁ hd₂ () () N hN (amount_send m c i 0) (amount_recv m (pr c i) (rev i) 0) O rfl (W := W) hp₁ hp₂
    (Topo.routes_tc _ _)

attribute [local irreducible] pr

set_option maxRecDepth 65536 in
set_option maxHeartbeats 3200000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (F := F) (Memref.whole cc0_stg0_0) (hstage0_0 0) (Memref.whole cc0_stg1_0) (hstage0_1 0) (Memref.whole cc0_stg2_0) (hstage0_2 0)
            (Memref.whole cc0_scratch0) (Memref.isWhole_whole _) cc0_scratch1 cc0_scratch2) Kt := by
  unfold bodyPre ghost invs idleSems scrAny
  simp only [bigSep_fin7]
  iintro ⟨⟨⟨⟨⟨#IB, ⟨#IS0, #IS1, #IS2, #IS3, #IS4, #IS5, #IS6⟩, ⟨#IR0, #IR1, #IR2, #IR3, #IR4, #IR5, #IR6⟩, ⟨#IBp0, #IBp1, #IBp2, #IBp3, #IBp4, #IBp5, #IBp6⟩, ⟨#IRp0, #IRp1, #IRp2, #IRp3, #IRp4, #IRp5, #IRp6⟩⟩, HatB, ⟨HatS0, HatS1, HatS2, HatS3, HatS4, HatS5, HatS6⟩, ⟨HatR0, HatR1, HatR2, HatR3, HatR4, HatR5, HatR6⟩,
      ⟨#rB0, #rB1, #rB2, #rB3, #rB4, #rB5, #rB6⟩, ⟨#rRp0, #rRp1, #rRp2, #rRp3, #rRp4, #rRp5, #rRp6⟩, ⟨#rS0, #rS1, #rS2, #rS3, #rS4, #rS5, #rS6⟩, ⟨#rR0, #rR1, #rR2, #rR3, #rR4, #rR5, #rR6⟩, ⟨HtB0, HtB1, HtB2, HtB3, HtB4, HtB5, HtB6⟩, ⟨HtRp0, HtRp1, HtRp2, HtRp3, HtRp4, HtRp5, HtRp6⟩, ⟨HtS0, HtS1, HtS2, HtS3, HtS4, HtS5, HtS6⟩⟩,
      ⟨Hidle0, Hidle1⟩, HcB, ⟨HcR0, HcR1, HcR2, HcR3, HcR4, HcR5, HcR6⟩, #Hlev, ⟨%f0, Hscr⟩⟩,
    Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m 0 c).owed t0_0.castSucc = O₀ c from rfl]
  rw [show O₀ c = (0 : CellTallies nD τ sig Unit) + tallyAt (recvCell (pr c 6) (rev 6)) () N + tallyAt (recvCell (pr c 5) (rev 5)) () N + tallyAt (recvCell (pr c 4) (rev 4)) () N
    + tallyAt (recvCell (pr c 3) (rev 3)) () N + tallyAt (recvCell (pr c 2) (rev 2)) () N + tallyAt (recvCell (pr c 1) (rev 1)) () N + tallyAt (recvCell (pr c 0) (rev 0)) () N
    + tallyAt (barCell (pr c 6)) () 1 + tallyAt (barCell (pr c 5)) () 1 + tallyAt (barCell (pr c 4)) () 1 + tallyAt (barCell (pr c 3)) () 1
    + tallyAt (barCell (pr c 2)) () 1 + tallyAt (barCell (pr c 1)) () 1 + tallyAt (barCell (pr c 0)) () 1 from rfl]
  -- the scratch cut into its eight slots
  ihave Hs := (scr_cut c fullShare f0).1 $$ Hscr
  icases Hs with ⟨Hs0, Hs1, Hs2, Hs3, Hs4, Hs5, Hs6, Hs7⟩
  ihave Hz0 := (Entails.of_eq (show sl c 0 fullShare f0 = slotPts c 0 fullShare f0 from rfl)) $$ Hs0
  simp only [cc0_body_eq_skeleton]; unfold cc0_body_skel
  have hmw : (levAts L lv : sProp 𝕄) ⊢ MayWait (c : Thread nD τ) (.reg barS) () ((0 : CellTallies nD τ sig Unit) + tallyAt (recvCell (pr c 6) (rev 6)) () N + tallyAt (recvCell (pr c 5) (rev 5)) () N + tallyAt (recvCell (pr c 4) (rev 4)) () N
    + tallyAt (recvCell (pr c 3) (rev 3)) () N + tallyAt (recvCell (pr c 2) (rev 2)) () N + tallyAt (recvCell (pr c 1) (rev 1)) () N + tallyAt (recvCell (pr c 0) (rev 0)) () N) := mayWait_bar (F := F) c
  sl_exec_parts
  -- the band, read whole
  iapply (wp_load 𝒱₀ (c : Thread nD τ) none Set.univ (m := (Memref.whole cc0_stg0_0 : Memref sig .tc .vmem S2x128x128x64 .f32)) (Finset.subset_univ _)) $$ Hx; iintro Hx
  rw [read_x]
  ihave Hs0 := (Entails.of_eq (show slotPts c 0 fullShare f0 = sl c 0 fullShare f0 from rfl)) $$ Hz0
  -- slot 0 read and overwritten with the band's statistics; the wait for the seven entry signals
  sl_exec_parts
  sl_unfold_words
  ihave Hz0 := (Entails.of_eq (show sl c 0 fullShare ((scr.access (Rect.unit (s := S8x4x64) ![0, 0, 0] S1x4x64.size inb_S8x4x64_S1x4x64_0_0_0)).write (Elt F) f0 (k0_pay2 (xstg m c)) Finset.univ)
      = slotPts c 0 fullShare (gath m c) from slot0_stored m c f0)) $$ Hs0
  -- what the seven signals handed over: the slot each peer grants, and that its receive cell is at round 0
  ihave Hp := (Entails.of_eq (show ([∗ Finset.univ] (d : Fin 7), (Rd m).payload (barCell c) 0 d : sProp 𝕄)
      = iprop(barPay c 0 ∗ barPay c 1 ∗ barPay c 2 ∗ barPay c 3 ∗ barPay c 4 ∗ barPay c 5 ∗ barPay c 6) from by
        rw [bigSep_fin7]; simp only [payload_bar])) $$ HatB_pay1
  unfold barPay
  icases Hp with ⟨⟨⟨%fn0, Hn0⟩, #rn0⟩, ⟨⟨%fn1, Hn1⟩, #rn1⟩, ⟨⟨%fn2, Hn2⟩, #rn2⟩, ⟨⟨%fn3, Hn3⟩, #rn3⟩, ⟨⟨%fn4, Hn4⟩, #rn4⟩, ⟨⟨%fn5, Hn5⟩, #rn5⟩, ⟨⟨%fn6, Hn6⟩, #rn6⟩⟩
  -- slot 0's share cut: seven pieces for the copies, the right half kept for the read of the whole scratch
  ihave Hq := (slot0_shares c (gath m c)).1 $$ Hz0
  icases Hq with ⟨Hq0, Hq1, Hq2, Hq3, Hq4, Hq5, Hq6, HqR⟩
  -- copy 1: to the device 1 places after, into its slot 7
  iapply (step_send m K c 0 _ (dev8_eq c) fn0 ((0 : CellTallies nD τ sig Unit) + tallyAt (recvCell (pr c 6) (rev 6)) () N + tallyAt (recvCell (pr c 5) (rev 5)) () N + tallyAt (recvCell (pr c 4) (rev 4)) () N + tallyAt (recvCell (pr c 3) (rev 3)) () N + tallyAt (recvCell (pr c 2) (rev 2)) () N + tallyAt (recvCell (pr c 1) (rev 1)) () N) _) $$ [Hq0 Hn0 HO HtS0 HtRp0]
  · isplitr; · iexact IS0
    isplitr; · iexact IRp0
    isplitl [Hq0]; · iexact Hq0
    isplitl [Hn0]; · iexact Hn0
    isplitl [HO]; · iexact HO
    isplitl [HtS0]; · iexact HtS0
    isplitr; · iexact rS0
    isplitl [HtRp0]; · iexact HtRp0
    iexact rRp0
  iintro ⟨HcS0, HO⟩
  sl_exec_parts
  -- copy 2: to the device 2 places after, into its slot 6
  iapply (step_send m K c 1 _ (dev9_eq c) fn1 ((0 : CellTallies nD τ sig Unit) + tallyAt (recvCell (pr c 6) (rev 6)) () N + tallyAt (recvCell (pr c 5) (rev 5)) () N + tallyAt (recvCell (pr c 4) (rev 4)) () N + tallyAt (recvCell (pr c 3) (rev 3)) () N + tallyAt (recvCell (pr c 2) (rev 2)) () N) _) $$ [Hq1 Hn1 HO HtS1 HtRp1]
  · isplitr; · iexact IS1
    isplitr; · iexact IRp1
    isplitl [Hq1]; · iexact Hq1
    isplitl [Hn1]; · iexact Hn1
    isplitl [HO]; · iexact HO
    isplitl [HtS1]; · iexact HtS1
    isplitr; · iexact rS1
    isplitl [HtRp1]; · iexact HtRp1
    iexact rRp1
  iintro ⟨HcS1, HO⟩
  sl_exec_parts
  -- copy 3: to the device 3 places after, into its slot 5
  iapply (step_send m K c 2 _ (dev10_eq c) fn2 ((0 : CellTallies nD τ sig Unit) + tallyAt (recvCell (pr c 6) (rev 6)) () N + tallyAt (recvCell (pr c 5) (rev 5)) () N + tallyAt (recvCell (pr c 4) (rev 4)) () N + tallyAt (recvCell (pr c 3) (rev 3)) () N) _) $$ [Hq2 Hn2 HO HtS2 HtRp2]
  · isplitr; · iexact IS2
    isplitr; · iexact IRp2
    isplitl [Hq2]; · iexact Hq2
    isplitl [Hn2]; · iexact Hn2
    isplitl [HO]; · iexact HO
    isplitl [HtS2]; · iexact HtS2
    isplitr; · iexact rS2
    isplitl [HtRp2]; · iexact HtRp2
    iexact rRp2
  iintro ⟨HcS2, HO⟩
  sl_exec_parts
  -- copy 4: to the device 4 places after, into its slot 4
  iapply (step_send m K c 3 _ (dev11_eq c) fn3 ((0 : CellTallies nD τ sig Unit) + tallyAt (recvCell (pr c 6) (rev 6)) () N + tallyAt (recvCell (pr c 5) (rev 5)) () N + tallyAt (recvCell (pr c 4) (rev 4)) () N) _) $$ [Hq3 Hn3 HO HtS3 HtRp3]
  · isplitr; · iexact IS3
    isplitr; · iexact IRp3
    isplitl [Hq3]; · iexact Hq3
    isplitl [Hn3]; · iexact Hn3
    isplitl [HO]; · iexact HO
    isplitl [HtS3]; · iexact HtS3
    isplitr; · iexact rS3
    isplitl [HtRp3]; · iexact HtRp3
    iexact rRp3
  iintro ⟨HcS3, HO⟩
  sl_exec_parts
  -- copy 5: to the device 5 places after, into its slot 3
  iapply (step_send m K c 4 _ (dev12_eq c) fn4 ((0 : CellTallies nD τ sig Unit) + tallyAt (recvCell (pr c 6) (rev 6)) () N + tallyAt (recvCell (pr c 5) (rev 5)) () N) _) $$ [Hq4 Hn4 HO HtS4 HtRp4]
  · isplitr; · iexact IS4
    isplitr; · iexact IRp4
    isplitl [Hq4]; · iexact Hq4
    isplitl [Hn4]; · iexact Hn4
    isplitl [HO]; · iexact HO
    isplitl [HtS4]; · iexact HtS4
    isplitr; · iexact rS4
    isplitl [HtRp4]; · iexact HtRp4
    iexact rRp4
  iintro ⟨HcS4, HO⟩
  sl_exec_parts
  -- copy 6: to the device 6 places after, into its slot 2
  iapply (step_send m K c 5 _ (dev13_eq c) fn5 ((0 : CellTallies nD τ sig Unit) + tallyAt (recvCell (pr c 6) (rev 6)) () N) _) $$ [Hq5 Hn5 HO HtS5 HtRp5]
  · isplitr; · iexact IS5
    isplitr; · iexact IRp5
    isplitl [Hq5]; · iexact Hq5
    isplitl [Hn5]; · iexact Hn5
    isplitl [HO]; · iexact HO
    isplitl [HtS5]; · iexact HtS5
    isplitr; · iexact rS5
    isplitl [HtRp5]; · iexact HtRp5
    iexact rRp5
  iintro ⟨HcS5, HO⟩
  sl_exec_parts
  -- copy 7: to the device 7 places after, into its slot 1
  iapply (step_send m K c 6 _ (dev14_eq c) fn6 ((0 : CellTallies nD τ sig Unit)) _) $$ [Hq6 Hn6 HO HtS6 HtRp6]
  · isplitr; · iexact IS6
    isplitr; · iexact IRp6
    isplitl [Hq6]; · iexact Hq6
    isplitl [Hn6]; · iexact Hn6
    isplitl [HO]; · iexact HO
    isplitl [HtS6]; · iexact HtS6
    isplitr; · iexact rS6
    isplitl [HtRp6]; · iexact HtRp6
    iexact rRp6
  iintro ⟨HcS6, HO⟩
  sl_exec_parts
  -- (the run above went on through the seven waits for the copies addressed to this device: slot i + 1 back, holding its sender's statistics)
  imod (Rounds.cell_close ER (Rd m) (Set.mem_univ (K (recvCell c 0))) (fun h => h) (R := 0 + 1) (duties_later m (recvCell c 0))) $$ [HatR0] with HzR0
  · isplitr; · iexact IR0
    iexact HatR0
  imod (Rounds.cell_close ER (Rd m) (Set.mem_univ (K (recvCell c 1))) (fun h => h) (R := 0 + 1) (duties_later m (recvCell c 1))) $$ [HatR1] with HzR1
  · isplitr; · iexact IR1
    iexact HatR1
  imod (Rounds.cell_close ER (Rd m) (Set.mem_univ (K (recvCell c 2))) (fun h => h) (R := 0 + 1) (duties_later m (recvCell c 2))) $$ [HatR2] with HzR2
  · isplitr; · iexact IR2
    iexact HatR2
  imod (Rounds.cell_close ER (Rd m) (Set.mem_univ (K (recvCell c 3))) (fun h => h) (R := 0 + 1) (duties_later m (recvCell c 3))) $$ [HatR3] with HzR3
  · isplitr; · iexact IR3
    iexact HatR3
  imod (Rounds.cell_close ER (Rd m) (Set.mem_univ (K (recvCell c 4))) (fun h => h) (R := 0 + 1) (duties_later m (recvCell c 4))) $$ [HatR4] with HzR4
  · isplitr; · iexact IR4
    iexact HatR4
  imod (Rounds.cell_close ER (Rd m) (Set.mem_univ (K (recvCell c 5))) (fun h => h) (R := 0 + 1) (duties_later m (recvCell c 5))) $$ [HatR5] with HzR5
  · isplitr; · iexact IR5
    iexact HatR5
  imod (Rounds.cell_close ER (Rd m) (Set.mem_univ (K (recvCell c 6))) (fun h => h) (R := 0 + 1) (duties_later m (recvCell c 6))) $$ [HatR6] with HzR6
  · isplitr; · iexact IR6
    iexact HatR6
  ihave Hh0 := (halves' c (slotOf 0) (gath m c)).1 $$ HatR0_pay1
  icases Hh0 with ⟨HL0, HR0⟩
  ihave Hh1 := (halves' c (slotOf 1) (gath m c)).1 $$ HatR1_pay1
  icases Hh1 with ⟨HL1, HR1⟩
  ihave Hh2 := (halves' c (slotOf 2) (gath m c)).1 $$ HatR2_pay1
  icases Hh2 with ⟨HL2, HR2⟩
  ihave Hh3 := (halves' c (slotOf 3) (gath m c)).1 $$ HatR3_pay1
  icases Hh3 with ⟨HL3, HR3⟩
  ihave Hh4 := (halves' c (slotOf 4) (gath m c)).1 $$ HatR4_pay1
  icases Hh4 with ⟨HL4, HR4⟩
  ihave Hh5 := (halves' c (slotOf 5) (gath m c)).1 $$ HatR5_pay1
  icases Hh5 with ⟨HL5, HR5⟩
  ihave Hh6 := (halves' c (slotOf 6) (gath m c)).1 $$ HatR6_pay1
  icases Hh6 with ⟨HL6, HR6⟩
  -- the whole scratch through the right halves
  ihave Hwh := (scr_cutP c shR (gath m c)).2 $$ [HqR HR0 HR1 HR2 HR3 HR4 HR5 HR6]
  · isplitl [HqR]; · iexact HqR
    isplitl [HR0]; · iexact HR0
    isplitl [HR1]; · iexact HR1
    isplitl [HR2]; · iexact HR2
    isplitl [HR3]; · iexact HR3
    isplitl [HR4]; · iexact HR4
    isplitl [HR5]; · iexact HR5
    iexact HR6
  iapply (wp_load 𝒱₀ (c : Thread nD τ) none Set.univ (m := scr) (Finset.subset_univ _)) $$ Hwh; iintro Hwh
  rw [read_whole]
  -- the matrix, and the result block overwritten with the body's last payload
  simp only [Prog.lift, Prog.bind_op, Prog.bind_ret, Prog.pure_eq_ret]
  iapply (wp_load 𝒱₀ (c : Thread nD τ) none Set.univ (m := (Memref.whole cc0_stg1_0 : Memref sig .tc .vmem S64x128 .f32)) (Finset.subset_univ _)) $$ Hw; iintro Hw
  rw [read_w]
  iapply (wp_load 𝒱₀ (c : Thread nD τ) none Set.univ (m := (Memref.whole cc0_stg2_0 : Memref sig .tc .vmem S2x128x128x128 .bf16)) (Finset.subset_univ _)) $$ Hout; iintro Hout
  iapply (wp_store 𝒱₀ (c : Thread nD τ) none Set.univ (m := (Memref.whole cc0_stg2_0 : Memref sig .tc .vmem S2x128x128x128 .bf16))
      (r := Rect.unit (s := S2x128x128x128) ![0, 0, 0, 0] S2x128x128x128.size inb_S2x128x128x128_S2x128x128x128_0_0_0_0) (Mk := Finset.univ) (Finset.subset_univ _)) $$ Hout; iintro Hout
  rw [write_out]
  -- the seven waits for the own copies to have left: each hands back the share of slot 0 it read through
  sl_exec_parts
  imod (Rounds.cell_close ER (Rd m) (Set.mem_univ (K (sendCell c 0))) (fun h => h) (R := 0 + 1) (duties_later m (sendCell c 0))) $$ [HatS0] with HzS0
  · isplitr; · iexact IS0
    iexact HatS0
  imod (Rounds.cell_close ER (Rd m) (Set.mem_univ (K (sendCell c 1))) (fun h => h) (R := 0 + 1) (duties_later m (sendCell c 1))) $$ [HatS1] with HzS1
  · isplitr; · iexact IS1
    iexact HatS1
  imod (Rounds.cell_close ER (Rd m) (Set.mem_univ (K (sendCell c 2))) (fun h => h) (R := 0 + 1) (duties_later m (sendCell c 2))) $$ [HatS2] with HzS2
  · isplitr; · iexact IS2
    iexact HatS2
  imod (Rounds.cell_close ER (Rd m) (Set.mem_univ (K (sendCell c 3))) (fun h => h) (R := 0 + 1) (duties_later m (sendCell c 3))) $$ [HatS3] with HzS3
  · isplitr; · iexact IS3
    iexact HatS3
  imod (Rounds.cell_close ER (Rd m) (Set.mem_univ (K (sendCell c 4))) (fun h => h) (R := 0 + 1) (duties_later m (sendCell c 4))) $$ [HatS4] with HzS4
  · isplitr; · iexact IS4
    iexact HatS4
  imod (Rounds.cell_close ER (Rd m) (Set.mem_univ (K (sendCell c 5))) (fun h => h) (R := 0 + 1) (duties_later m (sendCell c 5))) $$ [HatS5] with HzS5
  · isplitr; · iexact IS5
    iexact HatS5
  imod (Rounds.cell_close ER (Rd m) (Set.mem_univ (K (sendCell c 6))) (fun h => h) (R := 0 + 1) (duties_later m (sendCell c 6))) $$ [HatS6] with HzS6
  · isplitr; · iexact IS6
    iexact HatS6
  -- the scratch whole again: slot 0 from its eight shares, slots 1–7 from their halves
  ihave Hsl := (scr_cutP c shR (gath m c)).1 $$ Hwh
  icases Hsl with ⟨HqR, HR0, HR1, HR2, HR3, HR4, HR5, HR6⟩
  ihave Hf0 := (shares_join c (gath m c)) $$ [HatS0_pay1 HatS1_pay1 HatS2_pay1 HatS3_pay1 HatS4_pay1 HatS5_pay1 HatS6_pay1 HqR]
  · isplitl [HatS0_pay1]; · iexact HatS0_pay1
    isplitl [HatS1_pay1]; · iexact HatS1_pay1
    isplitl [HatS2_pay1]; · iexact HatS2_pay1
    isplitl [HatS3_pay1]; · iexact HatS3_pay1
    isplitl [HatS4_pay1]; · iexact HatS4_pay1
    isplitl [HatS5_pay1]; · iexact HatS5_pay1
    isplitl [HatS6_pay1]; · iexact HatS6_pay1
    iexact HqR
  ihave Hf1 := (slot_halves c (slotOf 0) (gath m c)).2 $$ [HL0 HR0]
  · isplitl [HL0]; · iexact HL0
    iexact HR0
  ihave Hf2 := (slot_halves c (slotOf 1) (gath m c)).2 $$ [HL1 HR1]
  · isplitl [HL1]; · iexact HL1
    iexact HR1
  ihave Hf3 := (slot_halves c (slotOf 2) (gath m c)).2 $$ [HL2 HR2]
  · isplitl [HL2]; · iexact HL2
    iexact HR2
  ihave Hf4 := (slot_halves c (slotOf 3) (gath m c)).2 $$ [HL3 HR3]
  · isplitl [HL3]; · iexact HL3
    iexact HR3
  ihave Hf5 := (slot_halves c (slotOf 4) (gath m c)).2 $$ [HL4 HR4]
  · isplitl [HL4]; · iexact HL4
    iexact HR4
  ihave Hf6 := (slot_halves c (slotOf 5) (gath m c)).2 $$ [HL5 HR5]
  · isplitl [HL5]; · iexact HL5
    iexact HR5
  ihave Hf7 := (slot_halves c (slotOf 6) (gath m c)).2 $$ [HL6 HR6]
  · isplitl [HL6]; · iexact HL6
    iexact HR6
  ihave Hfull := (scr_cutP c fullShare (gath m c)).2 $$ [Hf0 Hf1 Hf2 Hf3 Hf4 Hf5 Hf6 Hf7]
  · isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    iexact Hf7
  -- the return: the post handed to the continuation
  simp only [Prog.lift, Prog.bind_op, Prog.bind_ret, Prog.pure_eq_ret, wp_ret]
  imodintro
  iapply Hk
  unfold bodyPost Φ₁ idleSems Dat.owesAt Pipeline.owesWithin
  rw [show (dats m 0 c).owed t0_0.succ = 0 from rfl]
  simp only [bigSep_fin7]
  isplitl [Hfull Hidle0 Hidle1 HzS0 HzS1 HzS2 HzS3 HzS4 HzS5 HzS6 HzR0 HzR1 HzR2 HzR3 HzR4 HzR5 HzR6]
  · isplitl [Hfull]; · iexact Hfull
    isplitl [Hidle0 Hidle1]
    · isplitl [Hidle0]; · iexact Hidle0
      iexact Hidle1
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      iexact HzR6
  isplitl [HO]
  · iexists _
    isplitr
    swap
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; rfl)
  iexact Hout

/-- What the pipeline hands the body at the one point, and what it must hand back. -/
def bodyPre' (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

set_option maxRecDepth 16384 in
/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre' m c ⊢ wp frame (wpE (defs₀ (F := F)) 𝒱₀ c none) Set.univ
    (cc0_body (F := F) (Memref.whole cc0_stg0_0) (hstage0_0 0) (Memref.whole cc0_stg1_0) (hstage0_1 0) (Memref.whole cc0_stg2_0) (hstage0_2 0)
      (Memref.whole cc0_scratch0) (Memref.isWhole_whole _) cc0_scratch1 cc0_scratch2) (fun _ => bodyPost m c)
  unfold bodyPre' Φ₀ start
  iintro ⟨⟨⟨⟨%K, Hg⟩, Hidle, HcB, HcR, Hlev⟩, Hscr⟩, Ho, Hx, Hw, Hout⟩
  iapply (sound_body m K c fun _ => bodyPost m c)
  unfold bodyPre
  isplitr []
  · isplitl [Hg Hidle HcB HcR Hlev Hscr]
    · isplitl [Hg]; · iexact Hg
      isplitl [Hidle]; · iexact Hidle
      isplitl [HcB]; · iexact HcB
      isplitl [HcR]; · iexact HcR
      isplitl [Hlev]; · iexact Hlev
      iexact Hscr
    isplitl [Ho]; · iexact Ho
    isplitl [Hx]; · iexact Hx
    isplitl [Hw]; · iexact Hw
    iexact Hout
  · iintro H; iexact H

/-- info: 'Cert.Kernel.KProto.body_obligation' depends on axioms: [propext, Classical.choice, Quot.sound] -/
#guard_msgs in #print axioms body_obligation

end Cert.Kernel.KProto

end
-- ==== Proof.Word.KLaunch.lean ====
/-
  The launch of the exchange, second part: the run.

  Every device starts from the exchange's ghost state at some names, the two idle semaphores, the credit its own cells
  are owed (seven units on its barrier cell, one slot's credit on each receive cell) and the level facts; the scratch
  comes in at arbitrary contents when the region is entered. At the exit the scratch is whole again and the sixteen own
  semaphores are back at zero. A staging wait sits at level 0, below everything a device can still owe. With each
  device's body proved from that start, the program runs to a state where every window's array holds what the proof
  data says.
-/
import proofs.«900776_g7700000000000777_dist_diff_noisepred_hshard_i_b2_h128_w128_c64_v7x_i8_bf16_1_alg».proof.Proof.Word.KProto
import proofs.«900776_g7700000000000777_dist_diff_noisepred_hshard_i_b2_h128_w128_c64_v7x_i8_bf16_1_alg».proof.Proof.Word.KTables
import proofs.«900776_g7700000000000777_dist_diff_noisepred_hshard_i_b2_h128_w128_c64_v7x_i8_bf16_1_alg».proof.Proof.Word.KCredit
import proofs.«900776_g7700000000000777_dist_diff_noisepred_hshard_i_b2_h128_w128_c64_v7x_i8_bf16_1_alg».proof.Proof.Word.KGhost
import proofs.«900776_g7700000000000777_dist_diff_noisepred_hshard_i_b2_h128_w128_c64_v7x_i8_bf16_1_alg».proof.Proof.Word.KBody

noncomputable section

namespace Cert.Kernel.KProto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## The launch theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, HG, Hidle⟩
  ihave Hc := (creds (F := F) c) $$ Hcr
  icases Hc with ⟨H1, HN⟩
  imodintro
  unfold start
  isplitl
  · isplitl [HG]; · iexact HG
    isplitl [Hidle]; · iexact Hidle
    isplitl [H1]; · iexact H1
    isplitl [HN]; · iexact HN
    iexact Hlev
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, ⟨%f, Hr⟩⟩
  isplitl [Hs]; · iexact Hs
  iexists f; iexact Hr

theorem phi1_exit (m : (ℓ : Loc nD τ sig) → Buf (Elt F) ℓ) (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁ idleSems
  iintro ⟨Hr, ⟨H3, H11⟩, HS, HV⟩
  isplitr; · iempintro
  isplitl [H3 H11 HS HV]
  · isplitl [H3 HS]
    · isplitl [H3] <;> iassumption
    · isplitl [H11] <;> iassumption
  iexists (gath m c); iexact Hr

/-- A staging semaphore serves no copy of the exchange: a wait on it sits below every unit a device still owes. -/
theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array holds on device `c` after the run. -/
def finalA (m : (ℓ : Loc nD τ sig) → Buf (Elt F) ℓ) (c : Dev nD) (w : Fin cfg0.W) : Buf (Elt F) ((cfg0.win w).arr.view.loc (c : Thread nD τ)) := (dats m 0 c).arrAt w cfg0.N

/-- At the compiled mesh of eight devices, for any float values, from any memory with zero counters: every weakly fair
    execution of the program (the eight kernels shaking hands on the barrier semaphore, then exchanging their
    statistics) terminates, and every final state has each window's array on each device at the contents the proof
    data gives. -/
theorem run_main (m : (ℓ : Loc nD τ sig) → Buf (Elt F) ℓ) (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.KProto.run_main' depends on axioms: [propext, Classical.choice, Quot.sound] -/
#guard_msgs in #print axioms run_main

end Cert.Kernel.KProto

end
-- ==== Proof.Word.KRun.lean ====
/-
  The kernel's run, read at the three arrays.

  Every weakly fair execution of the eight devices terminates, and at its end each window's array holds what the
  write-backs below the last point left in it. For the two arguments that is the array as launched; for the result
  it is the last payload of the device's own band, of the eight devices' statistics as each device's scratch ends
  holding them, and of the matrix.
-/
import proofs.«900776_g7700000000000777_dist_diff_noisepred_hshard_i_b2_h128_w128_c64_v7x_i8_bf16_1_alg».proof.Proof.Word.KProto
import proofs.«900776_g7700000000000777_dist_diff_noisepred_hshard_i_b2_h128_w128_c64_v7x_i8_bf16_1_alg».proof.Proof.Word.KFinal
import proofs.«900776_g7700000000000777_dist_diff_noisepred_hshard_i_b2_h128_w128_c64_v7x_i8_bf16_1_alg».proof.Proof.Word.KLaunch

noncomputable section

namespace Cert.Kernel.KProto

open Cert.Kernel Cert.Kernel.Gen Cert.Kernel.KSpec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-- The run with every array named: each device's result is the last payload of its band, the gathered statistics
    and the matrix, all over the argument arrays as launched; both arguments end as launched. Window 2's array is the
    result, windows 0 and 1 the arguments. -/
theorem run_clean (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1)
          = Cert.Kernel.KSpec.kout (fun c' => m ((c'.tc : Thread nD τ).loc main_arg0)) (m ((c.tc : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (2 : Fin cfg0.W)).trans (final_out m c), (h c (0 : Fin cfg0.W)).trans (final_arg0 m c),
      (h c (1 : Fin cfg0.W)).trans (final_arg1 m c)⟩)
    (run_main m ρ)

/-- info: 'Cert.Kernel.KProto.run_clean' depends on axioms: [propext, Classical.choice, Quot.sound] -/
#guard_msgs in #print axioms run_clean

end Cert.Kernel.KProto

end
-- ==== Proof.lean ====
/- The proof of `Cert.Claim`: the three programs run and leave their arguments as launched, and at the ideal instance
   each of the eight devices' results is its band of rows of the reference's result.

   The reference works on whole images of 1024 rows; device `c` of the eight holds rows `128 · c` to `128 · c + 127`
   and a copy of the matrix. Per image and channel the reference takes the mean over all 131072 positions and the
   mean of the squared deviations from it; the kernel has every device add up its own band's entries and their
   squares, hands every device all eight pairs of sums, and lets each add the eight. The two agree because:
   the sum over 1024 rows is the sum, over the eight bands, of the sums over a band's 128 rows, for the entries and
   for their squares alike; with `E` the average over the positions, `E[x²] - (E[x])²` is the average of
   `(x - E[x])²` (expand the square: the cross term is `-2 · E[x] · E[x]`); multiplying by `1/√(v + ε)` is dividing by
   `√(v + ε)`, the root's argument being positive since a mean of squares is not negative and `ε` is positive;
   `y · (1 / (1 + e^(-y)))` is `y / (1 + e^(-y))`; and the matrix product at a position is the same sum over the 64
   channels on both sides, the position's row being `128 · c + h` in the whole. All of it is arithmetic of real
   numbers: the precondition makes every input entry a real number, and at the ideal instance the operations are exact and
   the changes of float format the identity.

   The witnesses of the side conditions the programs and the precondition state come first. -/
import proofs.«900776_g7700000000000777_dist_diff_noisepred_hshard_i_b2_h128_w128_c64_v7x_i8_bf16_1_alg».proof.Defs
import proofs.«900776_g7700000000000777_dist_diff_noisepred_hshard_i_b2_h128_w128_c64_v7x_i8_bf16_1_alg».proof.Proof.Gen.Kernel
import proofs.«900776_g7700000000000777_dist_diff_noisepred_hshard_i_b2_h128_w128_c64_v7x_i8_bf16_1_alg».proof.Proof.Gen.Kernel.Skeleton
import proofs.«900776_g7700000000000777_dist_diff_noisepred_hshard_i_b2_h128_w128_c64_v7x_i8_bf16_1_alg».proof.Proof.Gen.Kernel.Launch
import proofs.«900776_g7700000000000777_dist_diff_noisepred_hshard_i_b2_h128_w128_c64_v7x_i8_bf16_1_alg».proof.Proof.Gen.Kernel.Points
import proofs.«900776_g7700000000000777_dist_diff_noisepred_hshard_i_b2_h128_w128_c64_v7x_i8_bf16_1_alg».proof.Proof.Gen.Kernel.Frame
import proofs.«900776_g7700000000000777_dist_diff_noisepred_hshard_i_b2_h128_w128_c64_v7x_i8_bf16_1_alg».proof.Proof.Gen.KernelIdeal
import proofs.«900776_g7700000000000777_dist_diff_noisepred_hshard_i_b2_h128_w128_c64_v7x_i8_bf16_1_alg».proof.Proof.Gen.KernelIdeal.Skeleton
import proofs.«900776_g7700000000000777_dist_diff_noisepred_hshard_i_b2_h128_w128_c64_v7x_i8_bf16_1_alg».proof.Proof.Gen.KernelIdeal.Launch
import proofs.«900776_g7700000000000777_dist_diff_noisepred_hshard_i_b2_h128_w128_c64_v7x_i8_bf16_1_alg».proof.Proof.Gen.KernelIdeal.Points
import proofs.«900776_g7700000000000777_dist_diff_noisepred_hshard_i_b2_h128_w128_c64_v7x_i8_bf16_1_alg».proof.Proof.Gen.KernelIdeal.Frame
import proofs.«900776_g7700000000000777_dist_diff_noisepred_hshard_i_b2_h128_w128_c64_v7x_i8_bf16_1_alg».proof.Proof.Gen.ReferenceIdeal
import proofs.«900776_g7700000000000777_dist_diff_noisepred_hshard_i_b2_h128_w128_c64_v7x_i8_bf16_1_alg».proof.Proof.Gen.Pre_finite_inputs_Kernel
import proofs.«900776_g7700000000000777_dist_diff_noisepred_hshard_i_b2_h128_w128_c64_v7x_i8_bf16_1_alg».proof.Proof.Gen.Pre_finite_inputs_ReferenceIdeal
import Idealize.ShloMosaic.Adequacy
import Idealize.ShloMosaic.Init
import proofs.«900776_g7700000000000777_dist_diff_noisepred_hshard_i_b2_h128_w128_c64_v7x_i8_bf16_1_alg».proof.Proof.RefRun
import proofs.«900776_g7700000000000777_dist_diff_noisepred_hshard_i_b2_h128_w128_c64_v7x_i8_bf16_1_alg».proof.Proof.RefValue
import proofs.«900776_g7700000000000777_dist_diff_noisepred_hshard_i_b2_h128_w128_c64_v7x_i8_bf16_1_alg».proof.Proof.Bridge
import proofs.«900776_g7700000000000777_dist_diff_noisepred_hshard_i_b2_h128_w128_c64_v7x_i8_bf16_1_alg».proof.Proof.KRun
import proofs.«900776_g7700000000000777_dist_diff_noisepred_hshard_i_b2_h128_w128_c64_v7x_i8_bf16_1_alg».proof.Proof.Word.KRun

noncomputable section

namespace Cert.Proof

open Idealize.ShloMosaic Idealize.SL.Sem

/-- The word-level kernel runs and its arguments end as launched: its run with every array named, the result's
    value dropped. The precondition is not needed. -/
theorem frame_Kernel : Cert.frame_Kernel :=
  fun m g _ => (θ_run Cert.Kernel.defs _ _).mono (fun _ h c => (h c).2) (Cert.Kernel.KProto.run_clean (F := Bits) m g)

/-- The same of the kernel read over the extended reals. -/
theorem frame_KernelIdeal : Cert.frame_KernelIdeal :=
  fun m g _ => (θ_run Cert.KernelIdeal.defs _ _).mono (fun _ h c => (h c).2) (Cert.KernelIdeal.KProto.run_clean (F := Ideal) m g)

/-- The reference is a straight line of host operations, none of which writes an argument. -/
theorem frame_ReferenceIdeal : Cert.frame_ReferenceIdeal :=
  fun m g _ => (θ_run Cert.ReferenceIdeal.defs _ _).mono (fun _ h c => (h c).2) (Cert.ReferenceIdeal.RefValue.run (F := Ideal) m g)

/-- The idealized kernel is the kernel's own text read at the other instance: no operation was rewritten, and there
    is nothing to restate. -/
theorem preserves : Cert.preserves_Kernel_KernelIdeal := trivial

/-- At the ideal instance: the value the reference's result ends holding is its composed term of its two argument
    arrays; each device's result ends holding the kernel's term of the eight bands and the matrix, and that term is
    the device's band of rows of the reference's, by the laws of the header over the real numbers the precondition
    makes of the inputs; the reference has the one device. -/
theorem algebraic : Cert.algebraic_KernelIdeal_ReferenceIdeal :=
  fun m g m' g' hpre hagree =>
    ⟨Cert.ReferenceIdeal.RefValue.refOut (F := Ideal)
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run Cert.KernelIdeal.defs _ _).mono
        (fun _ h c => ⟨(h c).1.trans (Cert.Bridge.block_eq m m' hpre hagree c), (h c).2⟩)
        (Cert.KernelIdeal.KProto.run_clean (F := Ideal) m g),
      (θ_run Cert.ReferenceIdeal.defs _ _).mono (fun _ h => h (0 : Dev Cert.ReferenceIdeal.nD))
        (Cert.ReferenceIdeal.RefValue.run (F := Ideal) m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, preserves, algebraic⟩

/-- info: 'Cert.Proof.claim' depends on axioms: [propext, Classical.choice, Quot.sound] -/
#guard_msgs in #print axioms claim

end Cert.Proof

end
